-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v17)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v17) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v22) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S64x8x256x256 : Shape := ⟨4, ![64, 8, 256, 256]⟩
abbrev S64x8 : Shape := ⟨2, ![64, 8]⟩
abbrev S256x256 : Shape := ⟨2, ![256, 256]⟩
abbrev S256 : Shape := ⟨1, ![256]⟩
abbrev S_ : Shape := ⟨0, ![]⟩

class Facts : Prop where
  bcast_S_S64x8x256x256 : S_.BroadcastsInDim S64x8x256x256 (![] : Fin 0 → Fin S64x8x256x256.rank)
  reducesTo_S64x8x256x256_S_d0_1_2_3 : S64x8x256x256.ReducesTo [0, 1, 2, 3] S_
  h_S_ : 0 < S_.numel
  bcast_S_S256x256 : S_.BroadcastsInDim S256x256 (![] : Fin 0 → Fin S256x256.rank)
  reducesTo_S256x256_S_d0_1 : S256x256.ReducesTo [0, 1] S_
  bcast_S_S256 : S_.BroadcastsInDim S256 (![] : Fin 0 → Fin S256.rank)
  reducesTo_S256_S_d0 : S256.ReducesTo [0] S_

variable [Facts]

def fn {F : FTy → Type} [FloatOps F] (main_arg0 : FVec F S64x8x256x256 .f32) (main_arg1 : IVec S64x8 32) (main_arg2 : FVec F S256x256 .f32) (main_arg3 : FVec F S256 .f32) : IVec S_ 1 :=
  let main_v0 : FVec F S64x8x256x256 .f32 := Host.absf main_arg0
  let main_cst : FVec F S_ .f32 := constant S_ .f32 0x7F800000#32
  let main_v1 : FVec F S64x8x256x256 .f32 := broadcastInDim S64x8x256x256 ![] bcast_S_S64x8x256x256 main_cst
  let main_v2 : IVec S64x8x256x256 1 := cmpf .olt main_v0 main_v1
  let main_c : IVec S_ 1 := constantI S_ 1 1#1
  let main_v3 : IVec S_ 1 := (fun x v => Host.reduce IntOp.andi x v reducesTo_S64x8x256x256_S_d0_1_2_3 h_S_) main_v2 main_c
  let main_v4 : FVec F S256x256 .f32 := Host.absf main_arg2
  let main_cst_0 : FVec F S_ .f32 := constant S_ .f32 0x7F800000#32
  let main_v5 : FVec F S256x256 .f32 := broadcastInDim S256x256 ![] bcast_S_S256x256 main_cst_0
  let main_v6 : IVec S256x256 1 := cmpf .olt main_v4 main_v5
  let main_c_1 : IVec S_ 1 := constantI S_ 1 1#1
  let main_v7 : IVec S_ 1 := (fun x v => Host.reduce IntOp.andi x v reducesTo_S256x256_S_d0_1 h_S_) main_v6 main_c_1
  let main_v8 : IVec S_ 1 := andi main_v3 main_v7
  let main_v9 : FVec F S256 .f32 := Host.absf main_arg3
  let main_cst_2 : FVec F S_ .f32 := constant S_ .f32 0x7F800000#32
  let main_v10 : FVec F S256 .f32 := broadcastInDim S256 ![] bcast_S_S256 main_cst_2
  let main_v11 : IVec S256 1 := cmpf .olt main_v9 main_v10
  let main_c_3 : IVec S_ 1 := constantI S_ 1 1#1
  let main_v12 : IVec S_ 1 := (fun x v => Host.reduce IntOp.andi x v reducesTo_S256_S_d0 h_S_) main_v11 main_c_3
  let main_v13 : IVec S_ 1 := andi main_v8 main_v12
  main_v13
-- ==== Kernel.lean ====
abbrev S64x8x256x256 : Shape := ⟨4, ![64, 8, 256, 256]⟩
abbrev S64x8 : Shape := ⟨2, ![64, 8]⟩
abbrev S256x256 : Shape := ⟨2, ![256, 256]⟩
abbrev S256 : Shape := ⟨1, ![256]⟩
abbrev S_ : Shape := ⟨0, ![]⟩
abbrev S64x8x1 : Shape := ⟨3, ![64, 8, 1]⟩
abbrev S1x1x256 : Shape := ⟨3, ![1, 1, 256]⟩
abbrev S64x8x256 : Shape := ⟨3, ![64, 8, 256]⟩
abbrev S64x256 : Shape := ⟨2, ![64, 256]⟩
abbrev S8x8x128x256 : Shape := ⟨4, ![8, 8, 128, 256]⟩
abbrev S8x8x128 : Shape := ⟨3, ![8, 8, 128]⟩
abbrev S8x256 : Shape := ⟨2, ![8, 256]⟩
abbrev S8x1024x256 : Shape := ⟨3, ![8, 1024, 256]⟩
abbrev S8x1x1024 : Shape := ⟨3, ![8, 1, 1024]⟩
abbrev S8x1x256 : Shape := ⟨3, ![8, 1, 256]⟩
abbrev S1x256 : Shape := ⟨2, ![1, 256]⟩

abbrev nBuf : Space → Nat
  | .hbm => 33
  | .vmem => 11
  | .smem => 0
  | _ => 0

abbrev bufTy : (tb : Table) → Fin (tcTables nBuf tb) → BufTy
  | .hbm, ⟨0, _⟩ => ⟨S64x8x256x256, .f32⟩
  | .hbm, ⟨1, _⟩ => ⟨S64x8, .i32⟩
  | .hbm, ⟨2, _⟩ => ⟨S256x256, .f32⟩
  | .hbm, ⟨3, _⟩ => ⟨S256, .f32⟩
  | .hbm, ⟨4, _⟩ => ⟨S_, .i32⟩
  | .hbm, ⟨5, _⟩ => ⟨S64x8, .i32⟩
  | .hbm, ⟨6, _⟩ => ⟨S64x8, .i1⟩
  | .hbm, ⟨7, _⟩ => ⟨S_, .i32⟩
  | .hbm, ⟨8, _⟩ => ⟨S64x8, .i32⟩
  | .hbm, ⟨9, _⟩ => ⟨S64x8, .i1⟩
  | .hbm, ⟨10, _⟩ => ⟨S64x8, .i1⟩
  | .hbm, ⟨11, _⟩ => ⟨S_, .i32⟩
  | .hbm, ⟨12, _⟩ => ⟨S_, .i32⟩
  | .hbm, ⟨13, _⟩ => ⟨S_, .i32⟩
  | .hbm, ⟨14, _⟩ => ⟨S64x8, .i32⟩
  | .hbm, ⟨15, _⟩ => ⟨S64x8, .i32⟩
  | .hbm, ⟨16, _⟩ => ⟨S_, .i32⟩
  | .hbm, ⟨17, _⟩ => ⟨S64x8, .i32⟩
  | .hbm, ⟨18, _⟩ => ⟨S64x8, .i32⟩
  | .hbm, ⟨19, _⟩ => ⟨S256, .i32⟩
  | .hbm, ⟨20, _⟩ => ⟨S64x8x1, .i32⟩
  | .hbm, ⟨21, _⟩ => ⟨S1x1x256, .i32⟩
  | .hbm, ⟨22, _⟩ => ⟨S64x8x256, .i32⟩
  | .hbm, ⟨23, _⟩ => ⟨S64x8x256, .i32⟩
  | .hbm, ⟨24, _⟩ => ⟨S64x8x256, .i1⟩
  | .hbm, ⟨25, _⟩ => ⟨S64x8x256, .f32⟩
  | .hbm, ⟨26, _⟩ => ⟨S_, .f32⟩
  | .hbm, ⟨27, _⟩ => ⟨S64x8x256, .f32⟩
  | .hbm, ⟨28, _⟩ => ⟨S64x8x1, .i1⟩
  | .hbm, ⟨29, _⟩ => ⟨S64x8x256, .i1⟩
  | .hbm, ⟨30, _⟩ => ⟨S64x8x256, .f32⟩
  | .hbm, ⟨31, _⟩ => ⟨S64x256, .f32⟩
  | .hbm, ⟨32, _⟩ => ⟨S64x256, .f32⟩
  | .local _ .vmem, ⟨0, _⟩ => ⟨S8x8x128x256, .f32⟩
  | .local _ .vmem, ⟨1, _⟩ => ⟨S8x8x128x256, .f32⟩
  | .local _ .vmem, ⟨2, _⟩ => ⟨S8x8x128, .f32⟩
  | .local _ .vmem, ⟨3, _⟩ => ⟨S8x8x128, .f32⟩
  | .local _ .vmem, ⟨4, _⟩ => ⟨S8x256, .f32⟩
  | .local _ .vmem, ⟨5, _⟩ => ⟨S8x256, .f32⟩
  | .local _ .vmem, ⟨6, _⟩ => ⟨S8x256, .f32⟩
  | .local _ .vmem, ⟨7, _⟩ => ⟨S64x256, .f32⟩
  | .local _ .vmem, ⟨8, _⟩ => ⟨S256x256, .f32⟩
  | .local _ .vmem, ⟨9, _⟩ => ⟨S256, .f32⟩
  | .local _ .vmem, ⟨10, _⟩ => ⟨S64x256, .f32⟩
  | _, _ => ⟨S64x8x256x256, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_c : Ref sig .tc := ⟨.hbm, 4, rfl⟩
abbrev main_v0 : Ref sig .tc := ⟨.hbm, 5, rfl⟩
abbrev main_v1 : Ref sig .tc := ⟨.hbm, 6, rfl⟩
abbrev main_c_0 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_c_1 : Ref sig .tc := ⟨.hbm, 11, rfl⟩
abbrev main_c_2 : Ref sig .tc := ⟨.hbm, 12, rfl⟩
abbrev main_call0_v0 : Ref sig .tc := ⟨.hbm, 13, rfl⟩
abbrev main_call0_v1 : Ref sig .tc := ⟨.hbm, 14, rfl⟩
abbrev main_call0_v2 : Ref sig .tc := ⟨.hbm, 15, rfl⟩
abbrev main_call0_v3 : Ref sig .tc := ⟨.hbm, 16, rfl⟩
abbrev main_call0_v4 : Ref sig .tc := ⟨.hbm, 17, rfl⟩
abbrev main_v5 : Ref sig .tc := ⟨.hbm, 18, rfl⟩
abbrev main_v6 : Ref sig .tc := ⟨.hbm, 19, rfl⟩
abbrev main_v7 : Ref sig .tc := ⟨.hbm, 20, rfl⟩
abbrev main_v8 : Ref sig .tc := ⟨.hbm, 21, rfl⟩
abbrev main_v9 : Ref sig .tc := ⟨.hbm, 22, rfl⟩
abbrev main_v10 : Ref sig .tc := ⟨.hbm, 23, rfl⟩
abbrev main_v11 : Ref sig .tc := ⟨.hbm, 24, rfl⟩
abbrev main_v12 : Ref sig .tc := ⟨.hbm, 25, rfl⟩
abbrev main_cst : Ref sig .tc := ⟨.hbm, 26, rfl⟩
abbrev main_v13 : Ref sig .tc := ⟨.hbm, 27, rfl⟩
abbrev main_v14 : Ref sig .tc := ⟨.hbm, 28, rfl⟩
abbrev main_call1_v0 : Ref sig .tc := ⟨.hbm, 29, rfl⟩
abbrev main_v15 : Ref sig .tc := ⟨.hbm, 30, rfl⟩
abbrev main_v16 : Ref sig .tc := ⟨.hbm, 31, rfl⟩
abbrev main_v17 : Ref sig .tc := ⟨.hbm, 32, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc1_stg0_0 : Ref sig .tc := ⟨.vmem, 7, rfl⟩
abbrev cc1_stg1_0 : Ref sig .tc := ⟨.vmem, 8, rfl⟩
abbrev cc1_stg2_0 : Ref sig .tc := ⟨.vmem, 9, rfl⟩
abbrev cc1_stg3_0 : Ref sig .tc := ⟨.vmem, 10, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc1_sem0_0 : DmaSem sig := 6
abbrev cc1_sem1_0 : DmaSem sig := 7
abbrev cc1_sem2_0 : DmaSem sig := 8
abbrev cc1_sem3_0 : DmaSem sig := 9

abbrev nD : Nat := 1
abbrev τ : Topo := Topo.v7x

variable {F : FTy → Type} [FloatOps F]

abbrev grid0 : Pipeline.Grid := ⟨2, ![8, 2], ![false, false]⟩

def cc0_transform_0 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, arg1.toNat, c0_i32_0.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage0_0 : Fin 2 → Memref sig .tc .vmem S8x8x128x256 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S8x8x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S8x256 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev grid1 : Pipeline.Grid := ⟨1, ![1], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 1 → Nat :=
  let arg0 : BitVec 32 := BitVec.ofNat 32 (i 0).val
  let c0_i32 : BitVec 32 := 0#32
  let c0_i32_0 : BitVec 32 := 0#32
  ![c0_i32.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage1_0 : Fin 1 → Memref sig .tc .vmem S64x256 .f32 := fun | 0 => Memref.whole cc1_stg0_0 | ⟨_ + 1, h⟩ => absurd h (Nat.not_lt.2 (Nat.le_add_left _ _))
abbrev sem1_0 : Fin 1 → DmaSem sig := fun | 0 => cc1_sem0_0 | ⟨_ + 1, h⟩ => absurd h (Nat.not_lt.2 (Nat.le_add_left _ _))
abbrev reads1_0 : Fin grid1.rank → Bool := ![false]

abbrev stage1_1 : Fin 1 → Memref sig .tc .vmem S256x256 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 1 → Memref sig .tc .vmem S256 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 1 → Memref sig .tc .vmem S64x256 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

class Facts₀ : Prop where
  bcast_S_S64x8 : S_.BroadcastsInDim S64x8 (![] : Fin 0 → Fin S64x8.rank)
  bcast_S64x8_S64x8x1_0_1 : S64x8.BroadcastsInDim S64x8x1 (![0, 1] : Fin 2 → Fin S64x8x1.rank)
  bcast_S256_S1x1x256_2 : S256.BroadcastsInDim S1x1x256 (![2] : Fin 1 → Fin S1x1x256.rank)
  bcast_S64x8x1_S64x8x256_0_1_2 : S64x8x1.BroadcastsInDim S64x8x256 (![0, 1, 2] : Fin 3 → Fin S64x8x256.rank)
  bcast_S1x1x256_S64x8x256_0_1_2 : S1x1x256.BroadcastsInDim S64x8x256 (![0, 1, 2] : Fin 3 → Fin S64x8x256.rank)
  bcast_S_S64x8x256 : S_.BroadcastsInDim S64x8x256 (![] : Fin 0 → Fin S64x8x256.rank)
  inb_S8x256_S8x256_0_0 : ∀ a, (![0, 0] : Fin 2 → Nat) a + S8x256.size a ≤ S8x256.size a
  h_S8x256 : 0 < S8x256.numel
  shapeCasts_S8x256_S8x256 : S8x256.ShapeCasts S8x256
  inb_S8x8x128x256_S8x8x128x256_0_0_0_0 : ∀ a, (![0, 0, 0, 0] : Fin 4 → Nat) a + S8x8x128x256.size a ≤ S8x8x128x256.size a
  h_S8x8x128x256 : 0 < S8x8x128x256.numel
  inb_S8x8x128_S8x8x128_0_0_0 : ∀ a, (![0, 0, 0] : Fin 3 → Nat) a + S8x8x128.size a ≤ S8x8x128.size a
  h_S8x8x128 : 0 < S8x8x128.numel
  shapeCasts_S8x8x128_S8x8x128 : S8x8x128.ShapeCasts S8x8x128
  shapeCasts_S8x8x128x256_S8x1024x256 : S8x8x128x256.ShapeCasts S8x1024x256
  shapeCasts_S8x8x128_S8x1x1024 : S8x8x128.ShapeCasts S8x1x1024
  shapeCasts_S8x1x256_S8x256 : S8x1x256.ShapeCasts S8x256
  inb_S64x256_S64x256_0_0 : ∀ a, (![0, 0] : Fin 2 → Nat) a + S64x256.size a ≤ S64x256.size a
  h_S64x256 : 0 < S64x256.numel
  shapeCasts_S64x256_S64x256 : S64x256.ShapeCasts S64x256
  bitsLt_bf16_f32 : FTy.bits .bf16 < FTy.bits .f32
  inb_S256x256_S256x256_0_0 : ∀ a, (![0, 0] : Fin 2 → Nat) a + S256x256.size a ≤ S256x256.size a
  h_S256x256 : 0 < S256x256.numel
  inb_S256_S256_0 : ∀ a, (![0] : Fin 1 → Nat) a + S256.size a ≤ S256.size a
  h_S256 : 0 < S256.numel
  transposes_S256x256_p1_0_S256x256 : S256x256.Transposes [1, 0] S256x256
  shapeCasts_S256_S1x256 : S256.ShapeCasts S1x256
  broadcasts_S1x256_S64x256 : S1x256.Broadcasts S64x256
  dot_S8x1x1024_S8x1024x256_S8x1x256_2_1_1_2_0_0_wf : DotDims.WF S8x1x1024 S8x1024x256 S8x1x256 [2] [1] [1] [2] [0] [0]
  dot_S64x256_S256x256_S64x256_1_0_0_1_n_n_wf : DotDims.WF S64x256 S256x256 S64x256 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S8x8x128x256.size a ≤ S64x8x256x256.size a
  hwx0_0 : ∀ i : grid0.Coords, EltTy.bits .f32 = 32 ∨ (Rect.block (s := S64x8x256x256) S8x8x128x256.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S8x8x128.size a ≤ S64x8x256.size a
  hwx0_1 : ∀ i : grid0.Coords, EltTy.bits .f32 = 32 ∨ (Rect.block (s := S64x8x256) S8x8x128.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S8x256.size a ≤ S64x256.size a
  hwx0_2 : ∀ i : grid0.Coords, EltTy.bits .f32 = 32 ∨ (Rect.block (s := S64x256) S8x256.size (cc0_transform_2 i) (hinb0_2 i)).WholeWords (EltTy.packing .f32)
  hrank1 : 0 < grid1.rank
  hstage1_0 : ∀ j, (stage1_0 j).IsWhole
  nbuf1_0 : grid1.bufCount reads1_0 true = 1
  hreads1_0 : ∀ i i' : grid1.Coords, (∀ a, reads1_0 a = true → i a = i' a) → cc1_transform_0 i = cc1_transform_0 i'
  hinb1_0 : ∀ (i : grid1.Coords) a, (cc1_transform_0 i a + 1) * S64x256.size a ≤ S64x256.size a
  hwx1_0 : ∀ i : grid1.Coords, EltTy.bits .f32 = 32 ∨ (Rect.block (s := S64x256) S64x256.size (cc1_transform_0 i) (hinb1_0 i)).WholeWords (EltTy.packing .f32)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S256x256.size a ≤ S256x256.size a
  hwx1_1 : ∀ i : grid1.Coords, EltTy.bits .f32 = 32 ∨ (Rect.block (s := S256x256) S256x256.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S256.size a ≤ S256.size a
  hwx1_2 : ∀ i : grid1.Coords, EltTy.bits .f32 = 32 ∨ (Rect.block (s := S256) S256.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S64x256.size a ≤ S64x256.size a
  hwx1_3 : ∀ i : grid1.Coords, EltTy.bits .f32 = 32 ∨ (Rect.block (s := S64x256) S64x256.size (cc1_transform_3 i) (hinb1_3 i)).WholeWords (EltTy.packing .f32)

variable [Facts₀]

def dot_S8x1x1024_S8x1024x256_S8x1x256_2_1_1_2_0_0 : DotDims S8x1x1024 S8x1024x256 S8x1x256 where
  lhsContracting := [2]
  rhsContracting := [1]
  lhsNonContracting := [1]
  rhsNonContracting := [2]
  lhsBatch := [0]
  rhsBatch := [0]
  wf := dot_S8x1x1024_S8x1024x256_S8x1x256_2_1_1_2_0_0_wf
def dot_S64x256_S256x256_S64x256_1_0_0_1_n_n : DotDims S64x256 S256x256 S64x256 where
  lhsContracting := [1]
  rhsContracting := [0]
  lhsNonContracting := [0]
  rhsNonContracting := [1]
  lhsBatch := []
  rhsBatch := []
  wf := dot_S64x256_S256x256_S64x256_1_0_0_1_n_n_wf

abbrev win0_0 : Pipeline.Window sig grid0 :=
  Pipeline.Window.ofSpec (Memref.whole main_arg0) S8x8x128x256.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v15) S8x8x128.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v16) S8x256.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

abbrev win1_0 : Pipeline.Window sig grid1 :=
  Pipeline.Window.ofSpec (Memref.whole main_v16) S64x256.size cc1_transform_0 reads1_0 false true 1 stage1_0 sem1_0
    hrank1 hreads1_0 hinb1_0 nbuf1_0 (Memref.isWhole_whole _) hwx1_0 hstage1_0

abbrev win1_1 : Pipeline.Window sig grid1 :=
  Pipeline.Window.ofSpec (Memref.whole main_arg2) S256x256.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_arg3) S256.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_v17) S64x256.size cc1_transform_3 reads1_3 true true 1 stage1_3 sem1_3
    hrank1 hreads1_3 hinb1_3 nbuf1_3 (Memref.isWhole_whole _) hwx1_3 hstage1_3

abbrev win1 : Fin 4 → Pipeline.Window sig grid1 := fun | 0 => win1_0 | 1 => win1_1 | 2 => win1_2 | 3 => win1_3 | ⟨_ + 4, h⟩ => absurd h (Nat.not_lt.2 (Nat.le_add_left _ _))
abbrev spec1 : Fin 4 → Pipeline.WinSpec sig grid1.rank := fun w => (win1 w).toWinSpec

class Facts : Prop extends Facts₀ where

variable [Facts]
-- ==== ReferenceIdeal.lean ====
abbrev S64x8x256x256 : Shape := ⟨4, ![64, 8, 256, 256]⟩
abbrev S64x8 : Shape := ⟨2, ![64, 8]⟩
abbrev S256x256 : Shape := ⟨2, ![256, 256]⟩
abbrev S256 : Shape := ⟨1, ![256]⟩
abbrev S_ : Shape := ⟨0, ![]⟩
abbrev S64x8x1x1 : Shape := ⟨4, ![64, 8, 1, 1]⟩
abbrev S1 : Shape := ⟨1, ![1]⟩
abbrev S1x1x1x1 : Shape := ⟨4, ![1, 1, 1, 1]⟩
abbrev S64x8x1 : Shape := ⟨3, ![64, 8, 1]⟩
abbrev S64x8x1x256 : Shape := ⟨4, ![64, 8, 1, 256]⟩
abbrev S64x8x256 : Shape := ⟨3, ![64, 8, 256]⟩
abbrev S64x256 : Shape := ⟨2, ![64, 256]⟩
abbrev S1x256 : Shape := ⟨2, ![1, 256]⟩

abbrev nBuf : Space → Nat
  | .hbm => 64
  | .vmem => 0
  | .smem => 0
  | _ => 0

abbrev bufTy : (tb : Table) → Fin (tcTables nBuf tb) → BufTy
  | .hbm, ⟨0, _⟩ => ⟨S64x8x256x256, .f32⟩
  | .hbm, ⟨1, _⟩ => ⟨S64x8, .i32⟩
  | .hbm, ⟨2, _⟩ => ⟨S256x256, .f32⟩
  | .hbm, ⟨3, _⟩ => ⟨S256, .f32⟩
  | .hbm, ⟨4, _⟩ => ⟨S_, .i32⟩
  | .hbm, ⟨5, _⟩ => ⟨S64x8, .i32⟩
  | .hbm, ⟨6, _⟩ => ⟨S64x8, .i1⟩
  | .hbm, ⟨7, _⟩ => ⟨S_, .i32⟩
  | .hbm, ⟨8, _⟩ => ⟨S64x8, .i32⟩
  | .hbm, ⟨9, _⟩ => ⟨S64x8, .i1⟩
  | .hbm, ⟨10, _⟩ => ⟨S64x8, .i1⟩
  | .hbm, ⟨11, _⟩ => ⟨S_, .i32⟩
  | .hbm, ⟨12, _⟩ => ⟨S_, .i32⟩
  | .hbm, ⟨13, _⟩ => ⟨S_, .i32⟩
  | .hbm, ⟨14, _⟩ => ⟨S64x8, .i32⟩
  | .hbm, ⟨15, _⟩ => ⟨S64x8, .i32⟩
  | .hbm, ⟨16, _⟩ => ⟨S_, .i32⟩
  | .hbm, ⟨17, _⟩ => ⟨S64x8, .i32⟩
  | .hbm, ⟨18, _⟩ => ⟨S64x8, .i32⟩
  | .hbm, ⟨19, _⟩ => ⟨S64x8x1x1, .i32⟩
  | .hbm, ⟨20, _⟩ => ⟨S_, .i32⟩
  | .hbm, ⟨21, _⟩ => ⟨S64x8x1x1, .i32⟩
  | .hbm, ⟨22, _⟩ => ⟨S64x8x1x1, .i1⟩
  | .hbm, ⟨23, _⟩ => ⟨S_, .i32⟩
  | .hbm, ⟨24, _⟩ => ⟨S64x8x1x1, .i32⟩
  | .hbm, ⟨25, _⟩ => ⟨S64x8x1x1, .i32⟩
  | .hbm, ⟨26, _⟩ => ⟨S64x8x1x1, .i32⟩
  | .hbm, ⟨27, _⟩ => ⟨S1, .i32⟩
  | .hbm, ⟨28, _⟩ => ⟨S_, .i32⟩
  | .hbm, ⟨29, _⟩ => ⟨S64x8x1x1, .i32⟩
  | .hbm, ⟨30, _⟩ => ⟨S64x8x1x1, .i1⟩
  | .hbm, ⟨31, _⟩ => ⟨S1x1x1x1, .i32⟩
  | .hbm, ⟨32, _⟩ => ⟨S64x8x1x1, .i32⟩
  | .hbm, ⟨33, _⟩ => ⟨S64x8x1x1, .i1⟩
  | .hbm, ⟨34, _⟩ => ⟨S64x8x1x1, .i1⟩
  | .hbm, ⟨35, _⟩ => ⟨S_, .i1⟩
  | .hbm, ⟨36, _⟩ => ⟨S64x8x1, .i1⟩
  | .hbm, ⟨37, _⟩ => ⟨S64x8x1x256, .f32⟩
  | .hbm, ⟨38, _⟩ => ⟨S64x8x1x256, .i1⟩
  | .hbm, ⟨39, _⟩ => ⟨S_, .f32⟩
  | .hbm, ⟨40, _⟩ => ⟨S64x8x1x256, .f32⟩
  | .hbm, ⟨41, _⟩ => ⟨S64x8x1x256, .f32⟩
  | .hbm, ⟨42, _⟩ => ⟨S64x8x256, .f32⟩
  | .hbm, ⟨43, _⟩ => ⟨S_, .f32⟩
  | .hbm, ⟨44, _⟩ => ⟨S64x8x256, .f32⟩
  | .hbm, ⟨45, _⟩ => ⟨S_, .f32⟩
  | .hbm, ⟨46, _⟩ => ⟨S64x8x256, .f32⟩
  | .hbm, ⟨47, _⟩ => ⟨S64x8x256, .f32⟩
  | .hbm, ⟨48, _⟩ => ⟨S64x8x1, .i1⟩
  | .hbm, ⟨49, _⟩ => ⟨S64x8x256, .i1⟩
  | .hbm, ⟨50, _⟩ => ⟨S64x8x256, .f32⟩
  | .hbm, ⟨51, _⟩ => ⟨S_, .f32⟩
  | .hbm, ⟨52, _⟩ => ⟨S64x256, .f32⟩
  | .hbm, ⟨53, _⟩ => ⟨S_, .f32⟩
  | .hbm, ⟨54, _⟩ => ⟨S64x256, .f32⟩
  | .hbm, ⟨55, _⟩ => ⟨S64x256, .f32⟩
  | .hbm, ⟨56, _⟩ => ⟨S256x256, .f32⟩
  | .hbm, ⟨57, _⟩ => ⟨S64x256, .f32⟩
  | .hbm, ⟨58, _⟩ => ⟨S1x256, .f32⟩
  | .hbm, ⟨59, _⟩ => ⟨S64x256, .f32⟩
  | .hbm, ⟨60, _⟩ => ⟨S64x256, .f32⟩
  | .hbm, ⟨61, _⟩ => ⟨S_, .f32⟩
  | .hbm, ⟨62, _⟩ => ⟨S64x256, .f32⟩
  | .hbm, ⟨63, _⟩ => ⟨S64x256, .f32⟩
  | _, _ => ⟨S64x8x256x256, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_c : Ref sig .tc := ⟨.hbm, 4, rfl⟩
abbrev main_v0 : Ref sig .tc := ⟨.hbm, 5, rfl⟩
abbrev main_v1 : Ref sig .tc := ⟨.hbm, 6, rfl⟩
abbrev main_c_0 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_c_1 : Ref sig .tc := ⟨.hbm, 11, rfl⟩
abbrev main_c_2 : Ref sig .tc := ⟨.hbm, 12, rfl⟩
abbrev main_call0_v0 : Ref sig .tc := ⟨.hbm, 13, rfl⟩
abbrev main_call0_v1 : Ref sig .tc := ⟨.hbm, 14, rfl⟩
abbrev main_call0_v2 : Ref sig .tc := ⟨.hbm, 15, rfl⟩
abbrev main_call0_v3 : Ref sig .tc := ⟨.hbm, 16, rfl⟩
abbrev main_call0_v4 : Ref sig .tc := ⟨.hbm, 17, rfl⟩
abbrev main_v5 : Ref sig .tc := ⟨.hbm, 18, rfl⟩
abbrev main_v6 : Ref sig .tc := ⟨.hbm, 19, rfl⟩
abbrev main_call1_c : Ref sig .tc := ⟨.hbm, 20, rfl⟩
abbrev main_call1_v0 : Ref sig .tc := ⟨.hbm, 21, rfl⟩
abbrev main_call1_v1 : Ref sig .tc := ⟨.hbm, 22, rfl⟩
abbrev main_call1_c_0 : Ref sig .tc := ⟨.hbm, 23, rfl⟩
abbrev main_call1_v2 : Ref sig .tc := ⟨.hbm, 24, rfl⟩
abbrev main_call1_v3 : Ref sig .tc := ⟨.hbm, 25, rfl⟩
abbrev main_call1_v4 : Ref sig .tc := ⟨.hbm, 26, rfl⟩
abbrev main_call1_c_1 : Ref sig .tc := ⟨.hbm, 27, rfl⟩
abbrev main_call1_c_2 : Ref sig .tc := ⟨.hbm, 28, rfl⟩
abbrev main_call1_v5 : Ref sig .tc := ⟨.hbm, 29, rfl⟩
abbrev main_call1_v6 : Ref sig .tc := ⟨.hbm, 30, rfl⟩
abbrev main_call1_v7 : Ref sig .tc := ⟨.hbm, 31, rfl⟩
abbrev main_call1_v8 : Ref sig .tc := ⟨.hbm, 32, rfl⟩
abbrev main_call1_v9 : Ref sig .tc := ⟨.hbm, 33, rfl⟩
abbrev main_call1_v10 : Ref sig .tc := ⟨.hbm, 34, rfl⟩
abbrev main_call1_c_3 : Ref sig .tc := ⟨.hbm, 35, rfl⟩
abbrev main_call1_v11 : Ref sig .tc := ⟨.hbm, 36, rfl⟩
abbrev main_call1_v12 : Ref sig .tc := ⟨.hbm, 37, rfl⟩
abbrev main_call1_v13 : Ref sig .tc := ⟨.hbm, 38, rfl⟩
abbrev main_call1_cst : Ref sig .tc := ⟨.hbm, 39, rfl⟩
abbrev main_call1_v14 : Ref sig .tc := ⟨.hbm, 40, rfl⟩
abbrev main_v7 : Ref sig .tc := ⟨.hbm, 41, rfl⟩
abbrev main_v8 : Ref sig .tc := ⟨.hbm, 42, rfl⟩
abbrev main_cst : Ref sig .tc := ⟨.hbm, 43, rfl⟩
abbrev main_v9 : Ref sig .tc := ⟨.hbm, 44, rfl⟩
abbrev main_cst_3 : Ref sig .tc := ⟨.hbm, 45, rfl⟩
abbrev main_v10 : Ref sig .tc := ⟨.hbm, 46, rfl⟩
abbrev main_v11 : Ref sig .tc := ⟨.hbm, 47, rfl⟩
abbrev main_v12 : Ref sig .tc := ⟨.hbm, 48, rfl⟩
abbrev main_call2_v0 : Ref sig .tc := ⟨.hbm, 49, rfl⟩
abbrev main_v13 : Ref sig .tc := ⟨.hbm, 50, rfl⟩
abbrev main_cst_4 : Ref sig .tc := ⟨.hbm, 51, rfl⟩
abbrev main_v14 : Ref sig .tc := ⟨.hbm, 52, rfl⟩
abbrev main_cst_5 : Ref sig .tc := ⟨.hbm, 53, rfl⟩
abbrev main_v15 : Ref sig .tc := ⟨.hbm, 54, rfl⟩
abbrev main_v16 : Ref sig .tc := ⟨.hbm, 55, rfl⟩
abbrev main_v17 : Ref sig .tc := ⟨.hbm, 56, rfl⟩
abbrev main_v18 : Ref sig .tc := ⟨.hbm, 57, rfl⟩
abbrev main_v19 : Ref sig .tc := ⟨.hbm, 58, rfl⟩
abbrev main_v20 : Ref sig .tc := ⟨.hbm, 59, rfl⟩
abbrev main_v21 : Ref sig .tc := ⟨.hbm, 60, rfl⟩
abbrev main_call3_cst : Ref sig .tc := ⟨.hbm, 61, rfl⟩
abbrev main_call3_v0 : Ref sig .tc := ⟨.hbm, 62, rfl⟩
abbrev main_v22 : Ref sig .tc := ⟨.hbm, 63, rfl⟩

abbrev nD : Nat := 1
abbrev τ : Topo := Topo.v7x

variable {F : FTy → Type} [FloatOps F]

class Facts₀ : Prop where
  bcast_S_S64x8 : S_.BroadcastsInDim S64x8 (![] : Fin 0 → Fin S64x8.rank)
  bcast_S64x8_S64x8x1x1_0_1 : S64x8.BroadcastsInDim S64x8x1x1 (![0, 1] : Fin 2 → Fin S64x8x1x1.rank)
  bcast_S_S64x8x1x1 : S_.BroadcastsInDim S64x8x1x1 (![] : Fin 0 → Fin S64x8x1x1.rank)
  bcast_S1_S1x1x1x1_3 : S1.BroadcastsInDim S1x1x1x1 (![3] : Fin 1 → Fin S1x1x1x1.rank)
  bcast_S1x1x1x1_S64x8x1x1_0_1_2_3 : S1x1x1x1.BroadcastsInDim S64x8x1x1 (![0, 1, 2, 3] : Fin 4 → Fin S64x8x1x1.rank)
  reducesTo_S64x8x1x1_S64x8x1_d3 : S64x8x1x1.ReducesTo [3] S64x8x1
  h_S_ : 0 < S_.numel
  bcast_S64x8x1_S64x8x1x256_0_1_2 : S64x8x1.BroadcastsInDim S64x8x1x256 (![0, 1, 2] : Fin 3 → Fin S64x8x1x256.rank)
  bcast_S_S64x8x1x256 : S_.BroadcastsInDim S64x8x1x256 (![] : Fin 0 → Fin S64x8x1x256.rank)
  shapeCasts_S64x8x1x256_S64x8x256 : S64x8x1x256.ShapeCasts S64x8x256
  reducesTo_S64x8x256x256_S64x8x256_d2 : S64x8x256x256.ReducesTo [2] S64x8x256
  bcast_S_S64x8x256 : S_.BroadcastsInDim S64x8x256 (![] : Fin 0 → Fin S64x8x256.rank)
  bcast_S64x8_S64x8x1_0_1 : S64x8.BroadcastsInDim S64x8x1 (![0, 1] : Fin 2 → Fin S64x8x1.rank)
  bcast_S64x8x1_S64x8x256_0_1_2 : S64x8x1.BroadcastsInDim S64x8x256 (![0, 1, 2] : Fin 3 → Fin S64x8x256.rank)
  reducesTo_S64x8x256_S64x256_d1 : S64x8x256.ReducesTo [1] S64x256
  bcast_S_S64x256 : S_.BroadcastsInDim S64x256 (![] : Fin 0 → Fin S64x256.rank)
  transposes_S256x256_S256x256_1_0 : S256x256.Transposes [1, 0] S256x256
  bcast_S256_S1x256_1 : S256.BroadcastsInDim S1x256 (![1] : Fin 1 → Fin S1x256.rank)
  bcast_S1x256_S64x256_0_1 : S1x256.BroadcastsInDim S64x256 (![0, 1] : Fin 2 → Fin S64x256.rank)
  gather_S64x8x256x256_S64x8x1x1_S64x8x1x256_3_2_01_01_2_3_111256_wf : GatherDims.WF S64x8x256x256 S64x8x1x1 S64x8x1x256 [3] [2] [0, 1] [2] [0, 1] 3 ![1, 1, 1, 256]
  dot_S64x256_S256x256_S64x256_1_0_0_1_n_n_wf : DotDims.WF S64x256 S256x256 S64x256 [1] [0] [0] [1] [] []

variable [Facts₀]

def gather_S64x8x256x256_S64x8x1x1_S64x8x1x256_3_2_01_01_2_3_111256 : GatherDims S64x8x256x256 S64x8x1x1 S64x8x1x256 where
  offsetDims := [3]
  collapsedSliceDims := [2]
  operandBatchingDims := [0, 1]
  startIndicesBatchingDims := [0, 1]
  startIndexMap := [2]
  indexVectorDim := 3
  sliceSizes := ![1, 1, 1, 256]
  wf := gather_S64x8x256x256_S64x8x1x1_S64x8x1x256_3_2_01_01_2_3_111256_wf
def dot_S64x256_S256x256_S64x256_1_0_0_1_n_n : DotDims S64x256 S256x256 S64x256 where
  lhsContracting := [1]
  rhsContracting := [0]
  lhsNonContracting := [0]
  rhsNonContracting := [1]
  lhsBatch := []
  rhsBatch := []
  wf := dot_S64x256_S256x256_S64x256_1_0_0_1_n_n_wf

class Facts : Prop extends Facts₀ where

variable [Facts]
-- ==== Proof.BitsReduce.lean ====
/-
  Region 0 (the selection-weighted reduction) as proof data, at any float instance.

  The grid is 8 × 2, walked row-major: point t has coordinates (t / 2, t % 2). At a point the body
  sees an 8×8×128×256 block of the features and the matching 8×8×128 block of the weights, and keeps
  an 8×256 accumulator in a scratch buffer that lives across points. Where the second coordinate is 0
  the accumulator is first reset to zero; at every point the block's weighted sum over the merged
  (sequence, slice) axis is added to it, and the output block is written as the accumulator times 1/8.
  So after point t the scratch holds  accum t = partial t + (if t is even then 0 else accum (t-1)),
  and the output's staging buffer holds  accum t * (1/8).  Only the odd points write the output back.
-/
import proofs.«413354_j28028956574145_3_alg».proof.Proof.Gen.Kernel.Launch
import proofs.«413354_j28028956574145_3_alg».proof.Proof.Gen.Kernel.Skeleton
import proofs.«413354_j28028956574145_3_alg».proof.Proof.Gen.Kernel.Points
import Idealize.ShloMosaic.Lib.Pipeline.FrameBody
import Idealize.ShloMosaic.Lib.Pipeline.Value
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

-- the buffer contents of the core when the region is entered: a parameter, fixed later by the run
variable (V : (c : Dev nD) → (b : Ref sig .tc) → Buf (Elt F) ((c : Thread nD τ).loc b))

/-! ## The blocks the body sees -/

/-- Window `w`'s block at point `t`, read off its array as the region finds it. -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- The feature block of point `t`, at its literal type. -/
abbrev fblk (c : Dev nD) (t : Fin cfg0.N) : Vec F S8x8x128x256 .f32 := iblk0 V c 0 t
/-- The weight block of point `t`, at its literal type. -/
abbrev wblk (c : Dev nD) (t : Fin cfg0.N) : Vec F S8x8x128 .f32 := iblk0 V c 1 t

/-- The accumulator after point `n`: this point's partial sum added to zero where the point opens a
    row of the grid (n even), and to what the point before left otherwise. -/
def accum (c : Dev nD) : (n : ℕ) → n < cfg0.N → Vec F S8x256 .f32
  | 0, h => k0_pay2 (fblk V c ⟨0, h⟩) (wblk V c ⟨0, h⟩) k0_pay1
  | n + 1, h => k0_pay2 (fblk V c ⟨n + 1, h⟩) (wblk V c ⟨n + 1, h⟩)
      (if (n + 1) % 2 = 0 then k0_pay1 else accum c n (Nat.lt_of_succ_lt h))

theorem accum_even (c : Dev nD) (t : Fin cfg0.N) (h : t.val % 2 = 0) :
    accum V c t.val t.isLt = k0_pay2 (fblk V c t) (wblk V c t) k0_pay1 := by
  obtain ⟨n, hn⟩ := t
  cases n with
  | zero => rfl
  | succ n => show k0_pay2 _ _ (if (n + 1) % 2 = 0 then _ else _) = _; rw [if_pos h]

theorem accum_odd (c : Dev nD) (t : Fin cfg0.N) (h : ¬ t.val % 2 = 0) :
    accum V c t.val t.isLt = k0_pay2 (fblk V c t) (wblk V c t) (accum V c (t.val - 1) (Nat.lt_of_le_of_lt (Nat.sub_le _ _) t.isLt)) := by
  obtain ⟨n, hn⟩ := t
  cases n with
  | zero => exact absurd (Nat.zero_mod _) h
  | succ n => show k0_pay2 _ _ (if (n + 1) % 2 = 0 then _ else _) = _; rw [if_neg h]; rfl

/-! ## The invariant: the scratch between points -/

/-- The accumulator's scratch buffer, whole. -/
abbrev scM0 : Memref sig .tc .vmem S8x256 .f32 := Memref.whole cc0_scratch0

/-- The core's other scoped buffers that region 0 does not stage (region 1's staging buffers), at anything. -/
def rest0 (c : Dev nD) : sProp 𝕄 :=
  iprop((∃ f : Buf (Elt F) ((c : Thread nD τ).loc cc1_stg0_0), ((c : Thread nD τ).loc cc1_stg0_0) ↦{fullShare} f) ∗ (∃ f : Buf (Elt F) ((c : Thread nD τ).loc cc1_stg1_0), ((c : Thread nD τ).loc cc1_stg1_0) ↦{fullShare} f) ∗ (∃ f : Buf (Elt F) ((c : Thread nD τ).loc cc1_stg2_0), ((c : Thread nD τ).loc cc1_stg2_0) ↦{fullShare} f) ∗ (∃ f : Buf (Elt F) ((c : Thread nD τ).loc cc1_stg3_0), ((c : Thread nD τ).loc cc1_stg3_0) ↦{fullShare} f))

/-- What the launch hands the region: the scratch at anything, the other scoped buffers, the generator register. -/
theorem PhiA0_eq (c : Dev nD) :
    (Pipeline.ΦA spec0 c : sProp 𝕄)
      = iprop(((∃ d, owns (c : Thread nD τ) scM0 fullShare d) ∗ rest0 c) ∗ (∃ r, prngReg c r)) := by
  unfold Pipeline.ΦA rest0; rw [scopedRest0_eq]; simp only [scM0, owns_whole]; try rfl

/-- The region's invariant before position `n`: before the first point what the launch hands over; afterwards
    the scratch at the accumulator the point before left. -/
def PhiS0 (c : Dev nD) : (n : ℕ) → n ≤ cfg0.N → sProp 𝕄
  | 0, _ => Pipeline.ΦA spec0 c
  | n + 1, hn => iprop((owns (c : Thread nD τ) scM0 fullShare (accum V c n hn) ∗ rest0 c) ∗ (∃ r, prngReg c r))

theorem PhiS0_zero (c : Dev nD) (n : ℕ) (h : n ≤ cfg0.N) (hz : n = 0) : PhiS0 V c n h = Pipeline.ΦA spec0 c := by
  subst hz; rfl

theorem PhiS0_succ (c : Dev nD) (n : ℕ) (hn : n < cfg0.N) :
    PhiS0 V c (n + 1) hn = iprop((owns (c : Thread nD τ) scM0 fullShare (accum V c n hn) ∗ rest0 c) ∗ (∃ r, prngReg c r)) := rfl

theorem PhiS0_pos (c : Dev nD) (n : ℕ) (h : n ≤ cfg0.N) (hz : n ≠ 0) :
    PhiS0 V c n h = iprop((owns (c : Thread nD τ) scM0 fullShare (accum V c (n - 1) (by omega)) ∗ rest0 c) ∗ (∃ r, prngReg c r)) := by
  cases n with
  | zero => exact absurd rfl hz
  | succ n => rfl

/-! ## The proof data -/

/-- Region 0's proof data on core `c`: the arrays as the region finds them; after the body at point `t` each
    input's buffer at its block and the output's at the accumulator times 1/8; the invariant above; nothing owed. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => k0_pay3 (accum V c t.val t.isLt)
  Φ t := PhiS0 V c t.val (Nat.le_of_lt_succ t.isLt)
  q _ := fullShare
  owed _ := 0

theorem A_eq0 (c : Dev nD) (w : Fin cfg0.W) : (dat0 V c).A w = V c (Pipeline.arrRef spec0 w) := by
  dsimp only [dat0]

theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = k0_pay3 (accum V c t.val t.isLt) := by dsimp only [dat0]

theorem Phi0_castSucc (c : Dev nD) (t : Fin cfg0.N) :
    (dat0 V c).Φ t.castSucc = PhiS0 V c t.val (Nat.le_of_lt t.isLt) := by
  dsimp only [dat0]; simp only [Fin.coe_castSucc]

/-- An input's current staging buffer holds its block at every point (it is fetched at every point). -/
theorem before0_0 (c : Dev nD) (t : Fin cfg0.N) (d) : (dat0 V c).before 0 t d = iblk0 V c 0 t :=
  ((dat0 V c).before_in_eq_fetched 0 rfl (fun _ => rfl) (fun _ _ _ => rfl) (fun t => by rw [after0_0]; unfold Dat.blockOf iblk0; rw [A_eq0]; try rfl) t d).trans
    (by unfold Dat.fetched Dat.blockOf iblk0; rw [A_eq0]; try rfl)
theorem before0_1 (c : Dev nD) (t : Fin cfg0.N) (d) : (dat0 V c).before 1 t d = iblk0 V c 1 t :=
  ((dat0 V c).before_in_eq_fetched 1 rfl (fun _ => rfl) (fun _ _ _ => rfl) (fun t => by rw [after0_1]; unfold Dat.blockOf iblk0; rw [A_eq0]; try rfl) t d).trans
    (by unfold Dat.fetched Dat.blockOf iblk0; rw [A_eq0]; try rfl)

/-! ## The body's branch -/

/-- The condition of the body's one branch (reset the accumulator), from the grid coordinates. -/
abbrev cond0 (i : grid0.Coords) : Prop := (Scalar.cmpi .ne (Scalar.extui (Scalar.cmpi .eq (BitVec.ofNat 32 (i 1).val) 0#32)) 0#32) = 1#1
/-- It holds at the even points. -/
theorem hcond0 : ∀ t : Fin cfg0.N, cond0 (grid0.coords t) ↔ t.val % 2 = 0 :=
  (by decide +kernel : ∀ t : Fin grid0.N, cond0 (grid0.coords t) ↔ t.val % 2 = 0)

theorem hz2 : (![0, 0] : Fin S8x256.rank → Nat) = fun _ => 0 := by funext a; fin_cases a <;> rfl
theorem hz3 : (![0, 0, 0] : Fin S8x8x128.rank → Nat) = fun _ => 0 := by funext a; fin_cases a <;> rfl
theorem hz4 : (![0, 0, 0, 0] : Fin S8x8x128x256.rank → Nat) = fun _ => 0 := by funext a; fin_cases a <;> rfl

/-! ## The body's triple, by case of the branch -/

set_option maxHeartbeats 4000000 in
/-- Where the branch is taken: the scratch at anything is reset, the block's sum is added, the output written. -/
theorem sound_kernel0_reset (c : Dev nD) (E : Set ℕ) (i : grid0.Coords) (hc : cond0 i)
    (arg2 : Memref sig .tc .vmem S8x8x128x256 .f32) (harg2 : arg2.IsWhole) (arg3 : Memref sig .tc .vmem S8x8x128 .f32) (harg3 : arg3.IsWhole)
    (arg4 : Memref sig .tc .vmem S8x256 .f32) (harg4 : arg4.IsWhole) (arg5 : Memref sig .tc .vmem S8x256 .f32) (harg5 : arg5.IsWhole)
    (x0 : Vec F S8x8x128x256 .f32) (x1 : Vec F S8x8x128 .f32) (K : PUnit → sProp 𝕄) :
    iprop(owns (c : Thread nD τ) arg2 fullShare x0 ∗ owns (c : Thread nD τ) arg3 fullShare x1
        ∗ (∃ d, owns (c : Thread nD τ) arg4 fullShare d) ∗ (∃ d, owns (c : Thread nD τ) arg5 fullShare d)
        ∗ (iprop(owns (c : Thread nD τ) arg2 fullShare x0 ∗ owns (c : Thread nD τ) arg3 fullShare x1
            ∗ owns (c : Thread nD τ) arg4 fullShare (k0_pay3 (k0_pay2 x0 x1 k0_pay1))
            ∗ owns (c : Thread nD τ) arg5 fullShare (k0_pay2 x0 x1 k0_pay1)) -∗ K ⟨⟩))
      ⊢ wp frame (wpE (defs₀ (F := F)) Variants.none c none) E (cc0__reduce_kernel i arg2 harg2 arg3 harg3 arg4 harg4 arg5 harg5) K := by
  simp only [cc0__reduce_kernel_eq_skeleton]; unfold cc0__reduce_kernel_skel
  unfold owns
  iintro ⟨⟨%f0, %hf0, H0⟩, ⟨%f1, %hf1, H1⟩, ⟨%d4, %f4, -, H4⟩, ⟨%d5, %f5, -, H5⟩, Hk⟩
  subst hf0; subst hf1
  sl_exec (disch := exact hc)
  sl_step
  iapply Hk
  isplitl [H0]
  · iexists f0; isplitr; · ipureintro; rfl
    iexact H0
  isplitl [H1]
  · iexists f1; isplitr; · ipureintro; rfl
    iexact H1
  isplitl [H4]
  · iexists _; isplitr
    swap; · iexact H4
    ipureintro
    sl_unfold_words
    rw [View.read_writes_eq_canon _ _ _ (fun y => ⟨_, List.mem_singleton_self _, View.mem_set_unit_zero hz2 Facts₀.inb_S8x256_S8x256_0_0 y⟩),
      View.canon_unit_zero (S := S8x256) hz2,
      View.readCov_eq_canon_ld _ _ _ (fun y => ⟨_, List.mem_cons_self, View.mem_set_unit_zero hz2 Facts₀.inb_S8x256_S8x256_0_0 y⟩),
      View.canon_cons_unit_zero (S := S8x256) hz2, View.ld_unit_zero (S := S8x256) hz2]
    simp only [View.readAt_eq_ld, View.ld_unit_zero (S := S8x8x128x256) hz4, View.ld_unit_zero (S := S8x8x128) hz3,
      View.readCov_unit_zero (S := S8x256) _ hz2]
  · iexists _; isplitr
    swap; · iexact H5
    ipureintro
    sl_unfold_words
    rw [View.read_writes_eq_canon _ _ _ (fun y => ⟨_, List.mem_cons_self, View.mem_set_unit_zero hz2 Facts₀.inb_S8x256_S8x256_0_0 y⟩),
      View.canon_cons_unit_zero (S := S8x256) hz2]
    simp only [View.readAt_eq_ld, View.ld_unit_zero (S := S8x8x128x256) hz4, View.ld_unit_zero (S := S8x8x128) hz3,
      View.readCov_unit_zero (S := S8x256) _ hz2]

set_option maxHeartbeats 4000000 in
/-- Where the branch is not taken: the block's sum is added to what the scratch holds, the output written. -/
theorem sound_kernel0_carry (c : Dev nD) (E : Set ℕ) (i : grid0.Coords) (hc : ¬cond0 i)
    (arg2 : Memref sig .tc .vmem S8x8x128x256 .f32) (harg2 : arg2.IsWhole) (arg3 : Memref sig .tc .vmem S8x8x128 .f32) (harg3 : arg3.IsWhole)
    (arg4 : Memref sig .tc .vmem S8x256 .f32) (harg4 : arg4.IsWhole) (arg5 : Memref sig .tc .vmem S8x256 .f32) (harg5 : arg5.IsWhole)
    (x0 : Vec F S8x8x128x256 .f32) (x1 : Vec F S8x8x128 .f32) (s : Vec F S8x256 .f32) (K : PUnit → sProp 𝕄) :
    iprop(owns (c : Thread nD τ) arg2 fullShare x0 ∗ owns (c : Thread nD τ) arg3 fullShare x1
        ∗ (∃ d, owns (c : Thread nD τ) arg4 fullShare d) ∗ owns (c : Thread nD τ) arg5 fullShare s
        ∗ (iprop(owns (c : Thread nD τ) arg2 fullShare x0 ∗ owns (c : Thread nD τ) arg3 fullShare x1
            ∗ owns (c : Thread nD τ) arg4 fullShare (k0_pay3 (k0_pay2 x0 x1 s))
            ∗ owns (c : Thread nD τ) arg5 fullShare (k0_pay2 x0 x1 s)) -∗ K ⟨⟩))
      ⊢ wp frame (wpE (defs₀ (F := F)) Variants.none c none) E (cc0__reduce_kernel i arg2 harg2 arg3 harg3 arg4 harg4 arg5 harg5) K := by
  simp only [cc0__reduce_kernel_eq_skeleton]; unfold cc0__reduce_kernel_skel
  unfold owns
  iintro ⟨⟨%f0, %hf0, H0⟩, ⟨%f1, %hf1, H1⟩, ⟨%d4, %f4, -, H4⟩, ⟨%f5, %hf5, H5⟩, Hk⟩
  subst hf0; subst hf1; subst hf5
  sl_exec (disch := exact hc)
  sl_step
  iapply Hk
  isplitl [H0]
  · iexists f0; isplitr; · ipureintro; rfl
    iexact H0
  isplitl [H1]
  · iexists f1; isplitr; · ipureintro; rfl
    iexact H1
  isplitl [H4]
  · iexists _; isplitr
    swap; · iexact H4
    ipureintro
    sl_unfold_words
    rw [View.read_writes_eq_canon _ _ _ (fun y => ⟨_, List.mem_singleton_self _, View.mem_set_unit_zero hz2 Facts₀.inb_S8x256_S8x256_0_0 y⟩),
      View.canon_unit_zero (S := S8x256) hz2, View.readCov_unit_zero (S := S8x256) _ hz2]
    simp only [View.readAt_eq_ld, View.ld_unit_zero (S := S8x8x128x256) hz4, View.ld_unit_zero (S := S8x8x128) hz3,
      View.ld_unit_zero (S := S8x256) hz2]
  · iexists _; isplitr
    swap; · iexact H5
    ipureintro
    sl_unfold_words
    rw [View.read_writes_eq_canon _ _ _ (fun y => ⟨_, List.mem_singleton_self _, View.mem_set_unit_zero hz2 Facts₀.inb_S8x256_S8x256_0_0 y⟩),
      View.canon_unit_zero (S := S8x256) hz2]
    simp only [View.readAt_eq_ld, View.ld_unit_zero (S := S8x8x128x256) hz4, View.ld_unit_zero (S := S8x8x128) hz3,
      View.ld_unit_zero (S := S8x256) hz2]

/-! ## The body obligation -/

/-- What the body is called with at point `t`, the windows one by one, -/
def bodyPre0 (c : Dev nD) (t : Fin cfg0.N) : sProp 𝕄 :=
  iprop((dat0 V c).Φ t.castSucc ∗ (dat0 V c).owesAt () t.castSucc
    ∗ (∃ d, owns (c : Thread nD τ) (st0_0 t) fullShare ((dat0 V c).before 0 t d))
    ∗ (∃ d, owns (c : Thread nD τ) (st0_1 t) fullShare ((dat0 V c).before 1 t d))
    ∗ (∃ d, owns (c : Thread nD τ) (st0_2 t) fullShare ((dat0 V c).before 2 t d)))

/-- and what it returns. -/
def bodyPost0 (c : Dev nD) (t : Fin cfg0.N) : sProp 𝕄 :=
  iprop((dat0 V c).Φ t.succ ∗ (dat0 V c).owesAt () t.succ
    ∗ owns (c : Thread nD τ) (st0_0 t) fullShare ((dat0 V c).after 0 t)
    ∗ owns (c : Thread nD τ) (st0_1 t) fullShare ((dat0 V c).after 1 t)
    ∗ owns (c : Thread nD τ) (st0_2 t) fullShare ((dat0 V c).after 2 t))

set_option maxHeartbeats 4000000 in
/-- The body at any point: the inputs' buffers hold their blocks; the point's parity says which case of the branch
    it is in; the invariant hands over the scratch (at anything before the first point, at the previous accumulator
    afterwards) and takes it back at this point's accumulator. -/
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1]
  rw [show (dat0 V c).owesAt () t.succ = (dat0 V c).owesAt () t.castSucc from rfl,
    show (dat0 V c).Φ t.succ = PhiS0 V c (t.val + 1) t.isLt from rfl, PhiS0_succ,
    after0_0, after0_1, after0_2, Phi0_castSucc]
  by_cases h0 : t.val % 2 = 0
  · rw [accum_even V c t h0]
    by_cases hz : t.val = 0
    · rw [PhiS0_zero V c _ _ hz, PhiA0_eq]
      iintro ⟨⟨⟨HS, Hr⟩, Hg⟩, Ho, ⟨%d0, H0⟩, ⟨%d1, H1⟩, ⟨%d2, H2⟩⟩
      iapply (sound_kernel0_reset c Set.univ (grid0.coords t) ((hcond0 t).mpr h0) _ _ _ _ _ _ _ _ (fblk V c t) (wblk V c t) _)
      isplitl [H0]; · iexact H0
      isplitl [H1]; · iexact H1
      isplitl [H2]; · iexists _; iexact H2
      isplitl [HS]; · iexact HS
      iintro ⟨H0, H1, H2, HS⟩
      isplitl [HS Hr Hg]
      · isplitl [HS Hr]
        · isplitl [HS]; · iexact HS
          iexact Hr
        iexact Hg
      isplitl [Ho]; · iexact Ho
      isplitl [H0]; · iexact H0
      isplitl [H1]; · iexact H1
      iexact H2
    · rw [PhiS0_pos V c _ _ hz]
      iintro ⟨⟨⟨HS, Hr⟩, Hg⟩, Ho, ⟨%d0, H0⟩, ⟨%d1, H1⟩, ⟨%d2, H2⟩⟩
      iapply (sound_kernel0_reset c Set.univ (grid0.coords t) ((hcond0 t).mpr h0) _ _ _ _ _ _ _ _ (fblk V c t) (wblk V c t) _)
      isplitl [H0]; · iexact H0
      isplitl [H1]; · iexact H1
      isplitl [H2]; · iexists _; iexact H2
      isplitl [HS]; · iexists _; iexact HS
      iintro ⟨H0, H1, H2, HS⟩
      isplitl [HS Hr Hg]
      · isplitl [HS Hr]
        · isplitl [HS]; · iexact HS
          iexact Hr
        iexact Hg
      isplitl [Ho]; · iexact Ho
      isplitl [H0]; · iexact H0
      isplitl [H1]; · iexact H1
      iexact H2
  · rw [accum_odd V c t h0]
    have hz : t.val ≠ 0 := fun h => h0 (by rw [h])
    rw [PhiS0_pos V c _ _ hz]
    iintro ⟨⟨⟨HS, Hr⟩, Hg⟩, Ho, ⟨%d0, H0⟩, ⟨%d1, H1⟩, ⟨%d2, H2⟩⟩
    iapply (sound_kernel0_carry c Set.univ (grid0.coords t) (fun h => h0 ((hcond0 t).mp h)) _ _ _ _ _ _ _ _ (fblk V c t) (wblk V c t)
      (accum V c (t.val - 1) (Nat.lt_of_le_of_lt (Nat.sub_le _ _) t.isLt)) _)
    isplitl [H0]; · iexact H0
    isplitl [H1]; · iexact H1
    isplitl [H2]; · iexists _; iexact H2
    isplitl [HS]; · iexact HS
    iintro ⟨H0, H1, H2, HS⟩
    isplitl [HS Hr Hg]
    · isplitl [HS Hr]
      · isplitl [HS]; · iexact HS
        iexact Hr
      iexact Hg
    isplitl [Ho]; · iexact Ho
    isplitl [H0]; · iexact H0
    isplitl [H1]; · iexact H1
    iexact H2

/-- The library's body obligation, at every point. -/
theorem body_obligation0 (c : Dev nD) : BodyObligation (dat0 (F := F) V c) (defs₀ (F := F)) Variants.none () Set.univ := fun t => by
  rw [bigSep_W0, bigSep_W0]
  exact sound_body0 V c t

/-! ## Into and out of the invariant -/

/-- What the launch hands the region is the invariant before the first point. -/
theorem hin0 (c : Dev nD) : Pipeline.ΦA spec0 c ⊢ (dat0 V c).Φ 0 := by
  rw [show (dat0 V c).Φ 0 = PhiS0 V c 0 (Nat.zero_le _) from rfl, PhiS0_zero V c 0 _ rfl]
  try exact Idealize.SL.BI.Entails.refl _

/-- After the last point the invariant gives the launch's form back: the accumulator's contents are forgotten. -/
theorem hout0 (c : Dev nD) : (dat0 V c).Φ (Fin.last cfg0.N) ⊢ Pipeline.ΦA spec0 c := by
  rw [show (dat0 V c).Φ (Fin.last cfg0.N) = PhiS0 V c (Fin.last cfg0.N).val (Nat.le_of_lt_succ (Fin.last cfg0.N).isLt) from rfl,
    PhiS0_pos V c _ _ (by rw [Fin.val_last]; have : cfg0.N = 16 := N_0; omega), PhiA0_eq]
  iintro ⟨⟨HS, Hr⟩, Hg⟩
  isplitl [HS Hr]
  · isplitl [HS]; · iexists _; iexact HS
    iexact Hr
  iexact Hg

end Cert.Kernel.Hand

end
-- ==== Proof.BitsMlp.lean ====
/-
  Region 1 (the linear layer with ReLU) as proof data, at any float instance.

  The grid has one point. The body sees the whole 64×256 activations, the whole 256×256 weight matrix and
  the 256 biases, and writes the whole 64×256 output: the activations times the transposed weights, plus the
  bias along each row, clamped below at zero.
-/
import proofs.«413354_j28028956574145_3_alg».proof.Proof.Gen.Kernel.Launch
import proofs.«413354_j28028956574145_3_alg».proof.Proof.Gen.Kernel.Skeleton
import proofs.«413354_j28028956574145_3_alg».proof.Proof.Gen.Kernel.Points
import Idealize.ShloMosaic.Lib.Pipeline.FrameBody
import Idealize.ShloMosaic.Lib.Pipeline.Value
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

-- the buffer contents of the core when the region is entered: a parameter, fixed later by the run
variable (V : (c : Dev nD) → (b : Ref sig .tc) → Buf (Elt F) ((c : Thread nD τ).loc b))

/-! ## The blocks the body sees -/

/-- Window `w`'s block at the one point, read off its array as the region finds it. -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- The activations, the weight matrix and the biases as the body loads them, at their literal types. -/
abbrev xblk (c : Dev nD) (t : Fin cfg1.N) : Vec F S64x256 .f32 := iblk1 V c 0 t
abbrev mblk (c : Dev nD) (t : Fin cfg1.N) : Vec F S256x256 .f32 := iblk1 V c 1 t
abbrev bblk (c : Dev nD) (t : Fin cfg1.N) : Vec F S256 .f32 := iblk1 V c 2 t

theorem hy2 : (![0, 0] : Fin S64x256.rank → Nat) = fun _ => 0 := by funext a; fin_cases a <;> rfl
theorem hm2 : (![0, 0] : Fin S256x256.rank → Nat) = fun _ => 0 := by funext a; fin_cases a <;> rfl
theorem hb1 : (![0] : Fin S256.rank → Nat) = fun _ => 0 := by funext a; fin_cases a <;> rfl

/-! ## The body's triple -/

set_option maxHeartbeats 4000000 in
/-- The body on whole staging memrefs: the inputs stay, the output ends at the layer's value of the inputs. -/
theorem sound_kernel1 (c : Dev nD) (E : Set ℕ) (i : grid1.Coords)
    (arg1 : Memref sig .tc .vmem S64x256 .f32) (harg1 : arg1.IsWhole) (arg2 : Memref sig .tc .vmem S256x256 .f32) (harg2 : arg2.IsWhole)
    (arg3 : Memref sig .tc .vmem S256 .f32) (harg3 : arg3.IsWhole) (arg4 : Memref sig .tc .vmem S64x256 .f32) (harg4 : arg4.IsWhole)
    (x0 : Vec F S64x256 .f32) (x1 : Vec F S256x256 .f32) (x2 : Vec F S256 .f32) (K : PUnit → sProp 𝕄) :
    iprop(owns (c : Thread nD τ) arg1 fullShare x0 ∗ owns (c : Thread nD τ) arg2 fullShare x1 ∗ owns (c : Thread nD τ) arg3 fullShare x2
        ∗ (∃ d, owns (c : Thread nD τ) arg4 fullShare d)
        ∗ (iprop(owns (c : Thread nD τ) arg1 fullShare x0 ∗ owns (c : Thread nD τ) arg2 fullShare x1 ∗ owns (c : Thread nD τ) arg3 fullShare x2
            ∗ owns (c : Thread nD τ) arg4 fullShare (k1_pay1 x0 x1 x2)) -∗ K ⟨⟩))
      ⊢ wp frame (wpE (defs₀ (F := F)) Variants.none c none) E (cc1__mlp_kernel i arg1 harg1 arg2 harg2 arg3 harg3 arg4 harg4) K := by
  simp only [cc1__mlp_kernel_eq_skeleton]; unfold cc1__mlp_kernel_skel
  unfold owns
  iintro ⟨⟨%f0, %hf0, H0⟩, ⟨%f1, %hf1, H1⟩, ⟨%f2, %hf2, H2⟩, ⟨%d4, %f4, -, H4⟩, Hk⟩
  subst hf0; subst hf1; subst hf2
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  iexists _; isplitr
  swap; · iexact H4
  ipureintro
  sl_unfold_words
  rw [View.read_writes_eq_canon _ _ _ (fun y => ⟨_, List.mem_singleton_self _, View.mem_set_unit_zero hy2 Facts₀.inb_S64x256_S64x256_0_0 y⟩),
    View.canon_unit_zero (S := S64x256) hy2]
  simp only [View.readAt_eq_ld, View.ld_unit_zero (S := S64x256) hy2, View.ld_unit_zero (S := S256x256) hm2,
    View.ld_unit_zero (S := S256) hb1]

/-! ## The proof data -/

/-- Region 1's proof data on core `c`: the arrays as the region finds them; after the body each input's buffer at
    its block and the output's at the layer's value; the class's invariant (scratch-free); nothing owed. -/
def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => k1_pay1 (xblk V c t) (mblk V c t) (bblk V c t)
  Φ _ := Pipeline.ΦA spec1 c
  q _ := fullShare
  owed _ := 0

theorem A_eq1 (c : Dev nD) (w : Fin cfg1.W) : (dat1 V c).A w = V c (Pipeline.arrRef spec1 w) := by
  dsimp only [dat1]

theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = iblk1 V c 2 t := by dsimp only [dat1]
theorem after1_3 (c : Dev nD) (t : Fin cfg1.N) : (dat1 V c).after 3 t = k1_pay1 (xblk V c t) (mblk V c t) (bblk V c t) := by dsimp only [dat1]

/-- Each input's staging buffer holds its block at the point. -/
theorem before1_0 (c : Dev nD) (t : Fin cfg1.N) (d) : (dat1 V c).before 0 t d = iblk1 V c 0 t :=
  ((dat1 V c).before_in_eq_fetched 0 rfl (fun _ => rfl) (fun _ _ _ => rfl) (fun t => by rw [after1_0]; unfold Dat.blockOf iblk1; rw [A_eq1]; try rfl) t d).trans
    (by unfold Dat.fetched Dat.blockOf iblk1; rw [A_eq1]; try rfl)
theorem before1_1 (c : Dev nD) (t : Fin cfg1.N) (d) : (dat1 V c).before 1 t d = iblk1 V c 1 t :=
  ((dat1 V c).before_in_eq_fetched 1 rfl (fun _ => rfl) (fun _ _ _ => rfl) (fun t => by rw [after1_1]; unfold Dat.blockOf iblk1; rw [A_eq1]; try rfl) t d).trans
    (by unfold Dat.fetched Dat.blockOf iblk1; rw [A_eq1]; try rfl)
theorem before1_2 (c : Dev nD) (t : Fin cfg1.N) (d) : (dat1 V c).before 2 t d = iblk1 V c 2 t :=
  ((dat1 V c).before_in_eq_fetched 2 rfl (fun _ => rfl) (fun _ _ _ => rfl) (fun t => by rw [after1_2]; unfold Dat.blockOf iblk1; rw [A_eq1]; try rfl) t d).trans
    (by unfold Dat.fetched Dat.blockOf iblk1; rw [A_eq1]; try rfl)

/-! ## The body obligation -/

/-- What the body is called with at the point, the windows one by one, -/
def bodyPre1 (c : Dev nD) (t : Fin cfg1.N) : sProp 𝕄 :=
  iprop((dat1 V c).Φ t.castSucc ∗ (dat1 V c).owesAt () t.castSucc
    ∗ (∃ d, owns (c : Thread nD τ) (st1_0 t) fullShare ((dat1 V c).before 0 t d))
    ∗ (∃ d, owns (c : Thread nD τ) (st1_1 t) fullShare ((dat1 V c).before 1 t d))
    ∗ (∃ d, owns (c : Thread nD τ) (st1_2 t) fullShare ((dat1 V c).before 2 t d))
    ∗ (∃ d, owns (c : Thread nD τ) (st1_3 t) fullShare ((dat1 V c).before 3 t d)))

/-- and what it returns. -/
def bodyPost1 (c : Dev nD) (t : Fin cfg1.N) : sProp 𝕄 :=
  iprop((dat1 V c).Φ t.succ ∗ (dat1 V c).owesAt () t.succ
    ∗ owns (c : Thread nD τ) (st1_0 t) fullShare ((dat1 V c).after 0 t)
    ∗ owns (c : Thread nD τ) (st1_1 t) fullShare ((dat1 V c).after 1 t)
    ∗ owns (c : Thread nD τ) (st1_2 t) fullShare ((dat1 V c).after 2 t)
    ∗ owns (c : Thread nD τ) (st1_3 t) fullShare ((dat1 V c).after 3 t))

theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1, before1_2]
  rw [show (dat1 V c).Φ t.succ = (dat1 V c).Φ t.castSucc from rfl,
    show (dat1 V c).owesAt () t.succ = (dat1 V c).owesAt () t.castSucc from rfl,
    after1_0, after1_1, after1_2, after1_3]
  iintro ⟨HΦ, Ho, ⟨%d0, H0⟩, ⟨%d1, H1⟩, ⟨%d2, H2⟩, ⟨%d3, H3⟩⟩
  iapply (sound_kernel1 c Set.univ _ _ _ _ _ _ _ _ _ (xblk V c t) (mblk V c t) (bblk V c t) _)
  isplitl [H0]; · iexact H0
  isplitl [H1]; · iexact H1
  isplitl [H2]; · iexact H2
  isplitl [H3]; · iexists _; iexact H3
  iintro ⟨H0, H1, H2, H3⟩
  isplitl [HΦ]; · iexact HΦ
  isplitl [Ho]; · iexact Ho
  isplitl [H0]; · iexact H0
  isplitl [H1]; · iexact H1
  isplitl [H2]; · iexact H2
  iexact H3

/-- The library's body obligation, at the point. -/
theorem body_obligation1 (c : Dev nD) : BodyObligation (dat1 (F := F) V c) (defs₀ (F := F)) Variants.none () Set.univ := fun t => by
  rw [bigSep_W1, bigSep_W1]
  exact sound_body1 V c t

end Cert.Kernel.Hand

end
-- ==== Proof.BitsRegs.lean ====
/-
  The run of the whole program, at any float instance: @main's four host stretches and two kernel regions composed,
  each region entered from the buffer contents the items before it leave.

  Before region 0 every unscoped buffer holds what the host stretches computed from the launch memory. Region 0 changes
  one buffer, its output array, to what its write-backs leave (`local0`); region 1 then changes one more, the result,
  to what its one write-back leaves (`out1`). Beside the buffers each region is handed the core's generator register and
  its (empty) debt, and hands them back. So every execution ends with the four argument arrays as launched (and the result buffer at `out1`: the value run, stated apart).
-/
import proofs.«413354_j28028956574145_3_alg».proof.Proof.BitsReduce
import proofs.«413354_j28028956574145_3_alg».proof.Proof.BitsMlp
import proofs.«413354_j28028956574145_3_alg».proof.Proof.Gen.Kernel.Regions
import Idealize.ShloMosaic.Lib.Pipeline.Kit

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf Seg HostSeg RegionSeg)
open Cert.Kernel Cert.Kernel.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The buffer contents at the regions' entries, and what the regions leave -/

/-- The core's buffers as region 0 finds them: the launch memory after the four host stretches. -/
abbrev E0 (c : Dev nD) (b : Ref sig .tc) : Buf (Elt F) ((c : Thread nD τ).loc b) := V4 m c b

/-- What region 0 leaves in its output array. -/
def local0 (c : Dev nD) : Buf (Elt F) ((c : Thread nD τ).loc main_v16) := (dat0 (E0 m) c).arrAt 2 cfg0.N

/-- The core's buffers as region 1 finds them, as a valuation: region 0's entry contents with its output array replaced. -/
abbrev E1v (c : Dev nD) : Valuation τ sig (Elt F) := Function.update (V4 m c) main_v16 (local0 m c)
/-- The same read at a TensorCore reference. -/
abbrev E1 (c : Dev nD) (b : Ref sig .tc) : Buf (Elt F) ((c : Thread nD τ).loc b) := E1v m c b

/-- What region 1 leaves in the result array. -/
def out1 (c : Dev nD) : Buf (Elt F) ((c : Thread nD τ).loc main_v17) := (dat1 (E1 m) c).arrAt 3 cfg1.N

/-- What the regions leave in the buffers they may change (any other buffer: as region 0 found it). -/
def outs : Outs (F := F) := fun _ r c =>
  if h : r = main_v16 then h ▸ local0 m c
  else if h' : r = main_v17 then h' ▸ out1 m c
  else V4 m c r

theorem outs_v16 (J : ℕ) (c : Dev nD) : outs m J main_v16 c = local0 m c := by
  unfold outs; rw [dif_pos rfl]
theorem outs_v17 (J : ℕ) (c : Dev nD) : outs m J main_v17 c = out1 m c := by
  unfold outs; rw [dif_neg (by decide), dif_pos rfl]

/-- After region 0 the buffers are region 1's entry contents. -/
theorem V5_eq (c : Dev nD) : V5 m (outs m) c = E1v m c := by
  show Function.update (V4 m c) main_v16 (outs m 5 main_v16 c) = _
  rw [outs_v16]

/-- The exit contents of each region read at a TensorCore reference. -/
abbrev X5 (c : Dev nD) (b : Ref sig .tc) : Buf (Elt F) ((c : Thread nD τ).loc b) := V5 m (outs m) c b
abbrev X6 (c : Dev nD) (b : Ref sig .tc) : Buf (Elt F) ((c : Thread nD τ).loc b) := V6 m (outs m) c b

theorem X5_of_ne (c : Dev nD) (b : Ref sig .tc) (h : b ≠ main_v16) : X5 m c b = E0 m c b :=
  V5_of m (outs m) c b (by simpa using h)
theorem X6_of_ne (c : Dev nD) (b : Ref sig .tc) (h : b ≠ main_v17) : X6 m c b = X5 m c b :=
  V6_of m (outs m) c b (by simpa using h)
theorem X5_v16 (c : Dev nD) : X5 m c main_v16 = local0 m c := by
  show Function.update (V4 m c) main_v16 (outs m 5 main_v16 c) main_v16 = _
  rw [Function.update_self, outs_v16]
theorem X6_v17 (c : Dev nD) : X6 m c main_v17 = out1 m c := by
  show Function.update (V5 m (outs m) c) main_v17 (outs m 6 main_v17 c) main_v17 = _
  rw [Function.update_self, outs_v17]
theorem E1_eq_X5 (c : Dev nD) (b : Ref sig .tc) : E1 m c b = X5 m c b := by
  show E1v m c b = V5 m (outs m) c b; rw [V5_eq]

/-! ## The proof data family -/

/-- Each pipeline's proof data at its region's entry contents. -/
def pdats : (p : Fin 2) → (c : Dev nD) → Dat τ (Elt F) Unit ℕ (UR sig nD τ) ℕ (cfgs p) c
  | ⟨0, _⟩ => fun c => dat0 (E0 m) c
  | ⟨1, _⟩ => fun c => dat1 (E1 m) c

/-- At region 0's exit each of its arrays holds what the pipeline leaves, and every other buffer what it held at entry. -/
theorem hF0 (c : Dev nD) (w : Fin cfg0.W) : (pdats m 0 c).arrAt w cfg0.N = X5 m c (Pipeline.arrRef spec0 w) := by
  match w with
  | ⟨0, _⟩ => exact (((dat0 (E0 m) c).arrAt_in 0 rfl _).trans (A_eq0 (E0 m) c 0)).trans (X5_of_ne m c main_arg0 (by decide)).symm
  | ⟨1, _⟩ => exact (((dat0 (E0 m) c).arrAt_in 1 rfl _).trans (A_eq0 (E0 m) c 1)).trans (X5_of_ne m c main_v15 (by decide)).symm
  | ⟨2, _⟩ => exact (X5_v16 m c).symm
theorem hrest0 (c : Dev nD) : ∀ b, b ∉ Finset.univ.image (Pipeline.arrRef spec0) → X5 m c b = E0 m c b :=
  fun b hb => X5_of_ne m c b fun e => hb (Finset.mem_image.mpr ⟨2, Finset.mem_univ _, e.symm⟩)

/-- The same at region 1's exit. -/
theorem hF1 (c : Dev nD) (w : Fin cfg1.W) : (pdats m 1 c).arrAt w cfg1.N = X6 m c (Pipeline.arrRef spec1 w) := by
  match w with
  | ⟨0, _⟩ => exact ((((dat1 (E1 m) c).arrAt_in 0 rfl _).trans (A_eq1 (E1 m) c 0)).trans (E1_eq_X5 m c main_v16)).trans (X6_of_ne m c main_v16 (by decide)).symm
  | ⟨1, _⟩ => exact ((((dat1 (E1 m) c).arrAt_in 1 rfl _).trans (A_eq1 (E1 m) c 1)).trans (E1_eq_X5 m c main_arg2)).trans (X6_of_ne m c main_arg2 (by decide)).symm
  | ⟨2, _⟩ => exact ((((dat1 (E1 m) c).arrAt_in 2 rfl _).trans (A_eq1 (E1 m) c 2)).trans (E1_eq_X5 m c main_arg3)).trans (X6_of_ne m c main_arg3 (by decide)).symm
  | ⟨3, _⟩ => exact (X6_v17 m c).symm
theorem hrest1 (c : Dev nD) : ∀ b, b ∉ Finset.univ.image (Pipeline.arrRef spec1) → X6 m c b = E1 m c b :=
  fun b hb => (X6_of_ne m c b fun e => hb (Finset.mem_image.mpr ⟨3, Finset.mem_univ _, e.symm⟩)).trans (E1_eq_X5 m c b).symm

/-! ## What rides beside the buffers -/

abbrev 𝒱₀ : Variants := Variants.none
/-- No core owes another anything: no level is assigned. -/
abbrev Lz : GSem nD τ sig → Finset Unit := fun _ => ∅
abbrev lvz : GSem nD τ sig → Unit → ℕ := fun _ _ => 0
/-- The core's generator register at some state and its debt, at nothing. -/
abbrev Rr (c : Dev nD) : sProp 𝕄 := iprop((∃ r, prngReg c r) ∗ ∃ W, owes (c : Thread nD τ) (0 : CellTallies nD τ sig Unit) W)

/-! ## The regions as segments -/

set_option backward.isDefEq.respectTransparency.types false in
/-- Region 0: entered from the buffers at the host stretches' contents, left with its output array at `local0`. Its
    arrays are split out of the unscoped buffers and put back; the generator register and the scoped rest go into the
    invariant (the scratch at anything) and come back out of it (the accumulator forgotten). -/
def reg0 : Pipeline.RegionSeg (pcfgs (F := F)) adm (pdats m) () defs₀ 𝒱₀ Lz lvz 0 where
  win := launch0.win.to₀
  block_pos := launch0.block_pos
  stage_whole := launch0.stage_whole
  K := PEmpty
  osem k := k.elim
  ho := Pipeline.OwnSemFacts.none _
  hbody c := (body_obligation0 (E0 m) c).loose
  hwaits := Pipeline.hwaits_of_owed_zero _ _ _ _ Lz lvz 0 fun _ _ => rfl
  pre c := iprop(StableHlo.held (c : Thread nD τ) (Pipeline.ucRefs τ sig) (V4 m c) ∗ Rr c)
  post c := iprop(StableHlo.held (c : Thread nD τ) (Pipeline.ucRefs τ sig) (V5 m (outs m) c) ∗ Rr c)
  X c := iprop(∃ r, prngReg c r)
  Y c := iprop(∃ r, prngReg c r)
  Z c := Pipeline.unscopedRest (Ix := Unit) (Name := ℕ) (U := UR sig nD τ) (Lvl := ℕ) spec0 c (E0 m c)
  hentry c := by
    rw [Pipeline.ownSems0_none]
    have hsplit := Pipeline.arrays_of_unscopedBufs (p := 0) (pcfgs (F := F)) adm (pdats m) launch0.win launch0.arr_whole c
      ((pdats m 0 c).share_full fun _ => rfl) (E0 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    refine BIBase.Entails.trans ?_ (hin0 (E0 m) c)
    unfold Pipeline.ΦA
    iintro ⟨Hp, -, Hr⟩
    isplitl [Hr]; · iexact Hr
    iexact Hp
  hout c := by
    rw [Pipeline.ownSems0_none]
    refine BIBase.Entails.trans (hout0 (E0 m) c) ?_
    unfold Pipeline.ΦA
    iintro ⟨Hr, Hp⟩
    isplitl [Hp]; · iexact Hp
    isplitr; · iempintro
    iexact Hr
  hexit c := by
    have hjoin := Pipeline.unscopedBufs_of_arrays (p := 0) (pcfgs (F := F)) adm (Ix := Unit) (Name := ℕ) (U := UR sig nD τ) (Lvl := ℕ)
      launch0.win launch0.arr_whole c (pdats m) ((pdats m 0 c).share_full fun _ => rfl)
      (E0 m c) (X5 m c) ((pdats m 0 c).arrAt · cfg0.N) (hF0 m c) (hrest0 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Region 1: entered from region 0's exit contents, left with the result array at `out1`. -/
def reg1 : Pipeline.RegionSeg (pcfgs (F := F)) adm (pdats m) () defs₀ 𝒱₀ Lz lvz 1 where
  win := launch1.win.to₀
  block_pos := launch1.block_pos
  stage_whole := launch1.stage_whole
  K := PEmpty
  osem k := k.elim
  ho := Pipeline.OwnSemFacts.none _
  hbody c := (body_obligation1 (E1 m) c).loose
  hwaits := Pipeline.hwaits_of_owed_zero _ _ _ _ Lz lvz 1 fun _ _ => rfl
  pre c := iprop(StableHlo.held (c : Thread nD τ) (Pipeline.ucRefs τ sig) (V5 m (outs m) c) ∗ Rr c)
  post c := iprop(StableHlo.held (c : Thread nD τ) (Pipeline.ucRefs τ sig) (V6 m (outs m) c) ∗ Rr c)
  X c := iprop(∃ r, prngReg c r)
  Y c := iprop(∃ r, prngReg c r)
  Z c := Pipeline.unscopedRest (Ix := Unit) (Name := ℕ) (U := UR sig nD τ) (Lvl := ℕ) spec1 c (E1 m c)
  hentry c := by
    rw [Pipeline.ownSems0_none, V5_eq]
    have hsplit := Pipeline.arrays_of_unscopedBufs (p := 1) (pcfgs (F := F)) adm (pdats m) launch1.win launch1.arr_whole c
      ((pdats m 1 c).share_full fun _ => rfl) (E1 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 1 c).Φ 0 = Pipeline.ΦA spec1 c from rfl]; unfold Pipeline.ΦA
    iintro ⟨Hp, -, Hr⟩
    isplitl [Hr]; · iexact Hr
    iexact Hp
  hout c := by
    rw [Pipeline.ownSems0_none, show (pdats m 1 c).Φ (Fin.last _) = Pipeline.ΦA spec1 c from rfl]; unfold Pipeline.ΦA
    iintro ⟨Hr, Hp⟩
    isplitl [Hp]; · iexact Hp
    isplitr; · iempintro
    iexact Hr
  hexit c := by
    have hjoin := Pipeline.unscopedBufs_of_arrays (p := 1) (pcfgs (F := F)) adm (Ix := Unit) (Name := ℕ) (U := UR sig nD τ) (Lvl := ℕ)
      launch1.win launch1.arr_whole c (pdats m) ((pdats m 1 c).share_full fun _ => rfl)
      (E1 m c) (X6 m c) ((pdats m 1 c).arrAt · cfg1.N) (hF1 m c) (hrest1 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

/-! ## The frame -/

set_option backward.isDefEq.respectTransparency.types false in
/-- From any memory with zero counters every weakly fair execution of @main terminates, nothing faulting, with the
    argument arrays as launched: the program's host side composed with the two regions' records. -/
theorem frame_main : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) := by
  have h := frame_cond (F := F) m (Ix := Unit) (U := UR sig nD τ) (Lvl := ℕ) (EP := emb₁) (ι := ()) (𝒱₀ := 𝒱₀) (L := Lz) (lv := lvz)
    (hL := fun _ _ => rfl) (ρ := ρ) (outs := outs m) (pdats := pdats m) (O₀ := fun _ => 0) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (E := fun _ c => Rr c)
    (hE0 := Pipeline.initEach Lz lvz fun c => by
      iintro ⟨⟨-, HO, -, Hp, -⟩, -⟩
      imodintro
      isplitl [Hp]; · iexists _; iexact Hp
      iexists ∅; iexact HO)
    (hE2 := fun c => by iintro ⟨-, HO⟩; iexact HO)
    (R0 := reg0 m) (hpre0 := fun c => .rfl) (hpost0 := fun c => .rfl)
    (R1 := reg1 m) (hpre1 := fun c => .rfl) (hpost1 := fun c => .rfl)
  exact h

end Cert.Kernel.Hand

end
-- ==== Proof.Reduce.lean ====
/-
  Region 0 (the selection-weighted reduction) as proof data, at any float instance.

  The grid is 8 × 2, walked row-major: point t has coordinates (t / 2, t % 2). At a point the body
  sees an 8×8×128×256 block of the features and the matching 8×8×128 block of the weights, and keeps
  an 8×256 accumulator in a scratch buffer that lives across points. Where the second coordinate is 0
  the accumulator is first reset to zero; at every point the block's weighted sum over the merged
  (sequence, slice) axis is added to it, and the output block is written as the accumulator times 1/8.
  So after point t the scratch holds  accum t = partial t + (if t is even then 0 else accum (t-1)),
  and the output's staging buffer holds  accum t * (1/8).  Only the odd points write the output back.
-/
import proofs.«413354_j28028956574145_3_alg».proof.Proof.Gen.KernelIdeal.Launch
import proofs.«413354_j28028956574145_3_alg».proof.Proof.Gen.KernelIdeal.Skeleton
import proofs.«413354_j28028956574145_3_alg».proof.Proof.Gen.KernelIdeal.Points
import Idealize.ShloMosaic.Lib.Pipeline.FrameBody
import Idealize.ShloMosaic.Lib.Pipeline.Value
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

-- the buffer contents of the core when the region is entered: a parameter, fixed later by the run
variable (V : (c : Dev nD) → (b : Ref sig .tc) → Buf (Elt F) ((c : Thread nD τ).loc b))

/-! ## The blocks the body sees -/

/-- Window `w`'s block at point `t`, read off its array as the region finds it. -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- The feature block of point `t`, at its literal type. -/
abbrev fblk (c : Dev nD) (t : Fin cfg0.N) : Vec F S8x8x128x256 .f32 := iblk0 V c 0 t
/-- The weight block of point `t`, at its literal type. -/
abbrev wblk (c : Dev nD) (t : Fin cfg0.N) : Vec F S8x8x128 .f32 := iblk0 V c 1 t

/-- The accumulator after point `n`: this point's partial sum added to zero where the point opens a
    row of the grid (n even), and to what the point before left otherwise. -/
def accum (c : Dev nD) : (n : ℕ) → n < cfg0.N → Vec F S8x256 .f32
  | 0, h => k0_pay2 (fblk V c ⟨0, h⟩) (wblk V c ⟨0, h⟩) k0_pay1
  | n + 1, h => k0_pay2 (fblk V c ⟨n + 1, h⟩) (wblk V c ⟨n + 1, h⟩)
      (if (n + 1) % 2 = 0 then k0_pay1 else accum c n (Nat.lt_of_succ_lt h))

theorem accum_even (c : Dev nD) (t : Fin cfg0.N) (h : t.val % 2 = 0) :
    accum V c t.val t.isLt = k0_pay2 (fblk V c t) (wblk V c t) k0_pay1 := by
  obtain ⟨n, hn⟩ := t
  cases n with
  | zero => rfl
  | succ n => show k0_pay2 _ _ (if (n + 1) % 2 = 0 then _ else _) = _; rw [if_pos h]

theorem accum_odd (c : Dev nD) (t : Fin cfg0.N) (h : ¬ t.val % 2 = 0) :
    accum V c t.val t.isLt = k0_pay2 (fblk V c t) (wblk V c t) (accum V c (t.val - 1) (Nat.lt_of_le_of_lt (Nat.sub_le _ _) t.isLt)) := by
  obtain ⟨n, hn⟩ := t
  cases n with
  | zero => exact absurd (Nat.zero_mod _) h
  | succ n => show k0_pay2 _ _ (if (n + 1) % 2 = 0 then _ else _) = _; rw [if_neg h]; rfl

/-! ## The invariant: the scratch between points -/

/-- The accumulator's scratch buffer, whole. -/
abbrev scM0 : Memref sig .tc .vmem S8x256 .f32 := Memref.whole cc0_scratch0

/-- The core's other scoped buffers that region 0 does not stage (region 1's staging buffers), at anything. -/
def rest0 (c : Dev nD) : sProp 𝕄 :=
  iprop((∃ f : Buf (Elt F) ((c : Thread nD τ).loc cc1_stg0_0), ((c : Thread nD τ).loc cc1_stg0_0) ↦{fullShare} f) ∗ (∃ f : Buf (Elt F) ((c : Thread nD τ).loc cc1_stg1_0), ((c : Thread nD τ).loc cc1_stg1_0) ↦{fullShare} f) ∗ (∃ f : Buf (Elt F) ((c : Thread nD τ).loc cc1_stg2_0), ((c : Thread nD τ).loc cc1_stg2_0) ↦{fullShare} f) ∗ (∃ f : Buf (Elt F) ((c : Thread nD τ).loc cc1_stg3_0), ((c : Thread nD τ).loc cc1_stg3_0) ↦{fullShare} f))

/-- What the launch hands the region: the scratch at anything, the other scoped buffers, the generator register. -/
theorem PhiA0_eq (c : Dev nD) :
    (Pipeline.ΦA spec0 c : sProp 𝕄)
      = iprop(((∃ d, owns (c : Thread nD τ) scM0 fullShare d) ∗ rest0 c) ∗ (∃ r, prngReg c r)) := by
  unfold Pipeline.ΦA rest0; rw [scopedRest0_eq]; simp only [scM0, owns_whole]; try rfl

/-- The region's invariant before position `n`: before the first point what the launch hands over; afterwards
    the scratch at the accumulator the point before left. -/
def PhiS0 (c : Dev nD) : (n : ℕ) → n ≤ cfg0.N → sProp 𝕄
  | 0, _ => Pipeline.ΦA spec0 c
  | n + 1, hn => iprop((owns (c : Thread nD τ) scM0 fullShare (accum V c n hn) ∗ rest0 c) ∗ (∃ r, prngReg c r))

theorem PhiS0_zero (c : Dev nD) (n : ℕ) (h : n ≤ cfg0.N) (hz : n = 0) : PhiS0 V c n h = Pipeline.ΦA spec0 c := by
  subst hz; rfl

theorem PhiS0_succ (c : Dev nD) (n : ℕ) (hn : n < cfg0.N) :
    PhiS0 V c (n + 1) hn = iprop((owns (c : Thread nD τ) scM0 fullShare (accum V c n hn) ∗ rest0 c) ∗ (∃ r, prngReg c r)) := rfl

theorem PhiS0_pos (c : Dev nD) (n : ℕ) (h : n ≤ cfg0.N) (hz : n ≠ 0) :
    PhiS0 V c n h = iprop((owns (c : Thread nD τ) scM0 fullShare (accum V c (n - 1) (by omega)) ∗ rest0 c) ∗ (∃ r, prngReg c r)) := by
  cases n with
  | zero => exact absurd rfl hz
  | succ n => rfl

/-! ## The proof data -/

/-- Region 0's proof data on core `c`: the arrays as the region finds them; after the body at point `t` each
    input's buffer at its block and the output's at the accumulator times 1/8; the invariant above; nothing owed. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => k0_pay3 (accum V c t.val t.isLt)
  Φ t := PhiS0 V c t.val (Nat.le_of_lt_succ t.isLt)
  q _ := fullShare
  owed _ := 0

theorem A_eq0 (c : Dev nD) (w : Fin cfg0.W) : (dat0 V c).A w = V c (Pipeline.arrRef spec0 w) := by
  dsimp only [dat0]

theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = k0_pay3 (accum V c t.val t.isLt) := by dsimp only [dat0]

theorem Phi0_castSucc (c : Dev nD) (t : Fin cfg0.N) :
    (dat0 V c).Φ t.castSucc = PhiS0 V c t.val (Nat.le_of_lt t.isLt) := by
  dsimp only [dat0]; simp only [Fin.coe_castSucc]

/-- An input's current staging buffer holds its block at every point (it is fetched at every point). -/
theorem before0_0 (c : Dev nD) (t : Fin cfg0.N) (d) : (dat0 V c).before 0 t d = iblk0 V c 0 t :=
  ((dat0 V c).before_in_eq_fetched 0 rfl (fun _ => rfl) (fun _ _ _ => rfl) (fun t => by rw [after0_0]; unfold Dat.blockOf iblk0; rw [A_eq0]; try rfl) t d).trans
    (by unfold Dat.fetched Dat.blockOf iblk0; rw [A_eq0]; try rfl)
theorem before0_1 (c : Dev nD) (t : Fin cfg0.N) (d) : (dat0 V c).before 1 t d = iblk0 V c 1 t :=
  ((dat0 V c).before_in_eq_fetched 1 rfl (fun _ => rfl) (fun _ _ _ => rfl) (fun t => by rw [after0_1]; unfold Dat.blockOf iblk0; rw [A_eq0]; try rfl) t d).trans
    (by unfold Dat.fetched Dat.blockOf iblk0; rw [A_eq0]; try rfl)

/-! ## The body's branch -/

/-- The condition of the body's one branch (reset the accumulator), from the grid coordinates. -/
abbrev cond0 (i : grid0.Coords) : Prop := (Scalar.cmpi .ne (Scalar.extui (Scalar.cmpi .eq (BitVec.ofNat 32 (i 1).val) 0#32)) 0#32) = 1#1
/-- It holds at the even points. -/
theorem hcond0 : ∀ t : Fin cfg0.N, cond0 (grid0.coords t) ↔ t.val % 2 = 0 :=
  (by decide +kernel : ∀ t : Fin grid0.N, cond0 (grid0.coords t) ↔ t.val % 2 = 0)

theorem hz2 : (![0, 0] : Fin S8x256.rank → Nat) = fun _ => 0 := by funext a; fin_cases a <;> rfl
theorem hz3 : (![0, 0, 0] : Fin S8x8x128.rank → Nat) = fun _ => 0 := by funext a; fin_cases a <;> rfl
theorem hz4 : (![0, 0, 0, 0] : Fin S8x8x128x256.rank → Nat) = fun _ => 0 := by funext a; fin_cases a <;> rfl

/-! ## The body's triple, by case of the branch -/

set_option maxHeartbeats 4000000 in
/-- Where the branch is taken: the scratch at anything is reset, the block's sum is added, the output written. -/
theorem sound_kernel0_reset (c : Dev nD) (E : Set ℕ) (i : grid0.Coords) (hc : cond0 i)
    (arg2 : Memref sig .tc .vmem S8x8x128x256 .f32) (harg2 : arg2.IsWhole) (arg3 : Memref sig .tc .vmem S8x8x128 .f32) (harg3 : arg3.IsWhole)
    (arg4 : Memref sig .tc .vmem S8x256 .f32) (harg4 : arg4.IsWhole) (arg5 : Memref sig .tc .vmem S8x256 .f32) (harg5 : arg5.IsWhole)
    (x0 : Vec F S8x8x128x256 .f32) (x1 : Vec F S8x8x128 .f32) (K : PUnit → sProp 𝕄) :
    iprop(owns (c : Thread nD τ) arg2 fullShare x0 ∗ owns (c : Thread nD τ) arg3 fullShare x1
        ∗ (∃ d, owns (c : Thread nD τ) arg4 fullShare d) ∗ (∃ d, owns (c : Thread nD τ) arg5 fullShare d)
        ∗ (iprop(owns (c : Thread nD τ) arg2 fullShare x0 ∗ owns (c : Thread nD τ) arg3 fullShare x1
            ∗ owns (c : Thread nD τ) arg4 fullShare (k0_pay3 (k0_pay2 x0 x1 k0_pay1))
            ∗ owns (c : Thread nD τ) arg5 fullShare (k0_pay2 x0 x1 k0_pay1)) -∗ K ⟨⟩))
      ⊢ wp frame (wpE (defs₀ (F := F)) Variants.none c none) E (cc0__reduce_kernel i arg2 harg2 arg3 harg3 arg4 harg4 arg5 harg5) K := by
  simp only [cc0__reduce_kernel_eq_skeleton]; unfold cc0__reduce_kernel_skel
  unfold owns
  iintro ⟨⟨%f0, %hf0, H0⟩, ⟨%f1, %hf1, H1⟩, ⟨%d4, %f4, -, H4⟩, ⟨%d5, %f5, -, H5⟩, Hk⟩
  subst hf0; subst hf1
  sl_exec (disch := exact hc)
  sl_step
  iapply Hk
  isplitl [H0]
  · iexists f0; isplitr; · ipureintro; rfl
    iexact H0
  isplitl [H1]
  · iexists f1; isplitr; · ipureintro; rfl
    iexact H1
  isplitl [H4]
  · iexists _; isplitr
    swap; · iexact H4
    ipureintro
    sl_unfold_words
    rw [View.read_writes_eq_canon _ _ _ (fun y => ⟨_, List.mem_singleton_self _, View.mem_set_unit_zero hz2 Facts₀.inb_S8x256_S8x256_0_0 y⟩),
      View.canon_unit_zero (S := S8x256) hz2,
      View.readCov_eq_canon_ld _ _ _ (fun y => ⟨_, List.mem_cons_self, View.mem_set_unit_zero hz2 Facts₀.inb_S8x256_S8x256_0_0 y⟩),
      View.canon_cons_unit_zero (S := S8x256) hz2, View.ld_unit_zero (S := S8x256) hz2]
    simp only [View.readAt_eq_ld, View.ld_unit_zero (S := S8x8x128x256) hz4, View.ld_unit_zero (S := S8x8x128) hz3,
      View.readCov_unit_zero (S := S8x256) _ hz2]
  · iexists _; isplitr
    swap; · iexact H5
    ipureintro
    sl_unfold_words
    rw [View.read_writes_eq_canon _ _ _ (fun y => ⟨_, List.mem_cons_self, View.mem_set_unit_zero hz2 Facts₀.inb_S8x256_S8x256_0_0 y⟩),
      View.canon_cons_unit_zero (S := S8x256) hz2]
    simp only [View.readAt_eq_ld, View.ld_unit_zero (S := S8x8x128x256) hz4, View.ld_unit_zero (S := S8x8x128) hz3,
      View.readCov_unit_zero (S := S8x256) _ hz2]

set_option maxHeartbeats 4000000 in
/-- Where the branch is not taken: the block's sum is added to what the scratch holds, the output written. -/
theorem sound_kernel0_carry (c : Dev nD) (E : Set ℕ) (i : grid0.Coords) (hc : ¬cond0 i)
    (arg2 : Memref sig .tc .vmem S8x8x128x256 .f32) (harg2 : arg2.IsWhole) (arg3 : Memref sig .tc .vmem S8x8x128 .f32) (harg3 : arg3.IsWhole)
    (arg4 : Memref sig .tc .vmem S8x256 .f32) (harg4 : arg4.IsWhole) (arg5 : Memref sig .tc .vmem S8x256 .f32) (harg5 : arg5.IsWhole)
    (x0 : Vec F S8x8x128x256 .f32) (x1 : Vec F S8x8x128 .f32) (s : Vec F S8x256 .f32) (K : PUnit → sProp 𝕄) :
    iprop(owns (c : Thread nD τ) arg2 fullShare x0 ∗ owns (c : Thread nD τ) arg3 fullShare x1
        ∗ (∃ d, owns (c : Thread nD τ) arg4 fullShare d) ∗ owns (c : Thread nD τ) arg5 fullShare s
        ∗ (iprop(owns (c : Thread nD τ) arg2 fullShare x0 ∗ owns (c : Thread nD τ) arg3 fullShare x1
            ∗ owns (c : Thread nD τ) arg4 fullShare (k0_pay3 (k0_pay2 x0 x1 s))
            ∗ owns (c : Thread nD τ) arg5 fullShare (k0_pay2 x0 x1 s)) -∗ K ⟨⟩))
      ⊢ wp frame (wpE (defs₀ (F := F)) Variants.none c none) E (cc0__reduce_kernel i arg2 harg2 arg3 harg3 arg4 harg4 arg5 harg5) K := by
  simp only [cc0__reduce_kernel_eq_skeleton]; unfold cc0__reduce_kernel_skel
  unfold owns
  iintro ⟨⟨%f0, %hf0, H0⟩, ⟨%f1, %hf1, H1⟩, ⟨%d4, %f4, -, H4⟩, ⟨%f5, %hf5, H5⟩, Hk⟩
  subst hf0; subst hf1; subst hf5
  sl_exec (disch := exact hc)
  sl_step
  iapply Hk
  isplitl [H0]
  · iexists f0; isplitr; · ipureintro; rfl
    iexact H0
  isplitl [H1]
  · iexists f1; isplitr; · ipureintro; rfl
    iexact H1
  isplitl [H4]
  · iexists _; isplitr
    swap; · iexact H4
    ipureintro
    sl_unfold_words
    rw [View.read_writes_eq_canon _ _ _ (fun y => ⟨_, List.mem_singleton_self _, View.mem_set_unit_zero hz2 Facts₀.inb_S8x256_S8x256_0_0 y⟩),
      View.canon_unit_zero (S := S8x256) hz2, View.readCov_unit_zero (S := S8x256) _ hz2]
    simp only [View.readAt_eq_ld, View.ld_unit_zero (S := S8x8x128x256) hz4, View.ld_unit_zero (S := S8x8x128) hz3,
      View.ld_unit_zero (S := S8x256) hz2]
  · iexists _; isplitr
    swap; · iexact H5
    ipureintro
    sl_unfold_words
    rw [View.read_writes_eq_canon _ _ _ (fun y => ⟨_, List.mem_singleton_self _, View.mem_set_unit_zero hz2 Facts₀.inb_S8x256_S8x256_0_0 y⟩),
      View.canon_unit_zero (S := S8x256) hz2]
    simp only [View.readAt_eq_ld, View.ld_unit_zero (S := S8x8x128x256) hz4, View.ld_unit_zero (S := S8x8x128) hz3,
      View.ld_unit_zero (S := S8x256) hz2]

/-! ## The body obligation -/

/-- What the body is called with at point `t`, the windows one by one, -/
def bodyPre0 (c : Dev nD) (t : Fin cfg0.N) : sProp 𝕄 :=
  iprop((dat0 V c).Φ t.castSucc ∗ (dat0 V c).owesAt () t.castSucc
    ∗ (∃ d, owns (c : Thread nD τ) (st0_0 t) fullShare ((dat0 V c).before 0 t d))
    ∗ (∃ d, owns (c : Thread nD τ) (st0_1 t) fullShare ((dat0 V c).before 1 t d))
    ∗ (∃ d, owns (c : Thread nD τ) (st0_2 t) fullShare ((dat0 V c).before 2 t d)))

/-- and what it returns. -/
def bodyPost0 (c : Dev nD) (t : Fin cfg0.N) : sProp 𝕄 :=
  iprop((dat0 V c).Φ t.succ ∗ (dat0 V c).owesAt () t.succ
    ∗ owns (c : Thread nD τ) (st0_0 t) fullShare ((dat0 V c).after 0 t)
    ∗ owns (c : Thread nD τ) (st0_1 t) fullShare ((dat0 V c).after 1 t)
    ∗ owns (c : Thread nD τ) (st0_2 t) fullShare ((dat0 V c).after 2 t))

set_option maxHeartbeats 4000000 in
/-- The body at any point: the inputs' buffers hold their blocks; the point's parity says which case of the branch
    it is in; the invariant hands over the scratch (at anything before the first point, at the previous accumulator
    afterwards) and takes it back at this point's accumulator. -/
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1]
  rw [show (dat0 V c).owesAt () t.succ = (dat0 V c).owesAt () t.castSucc from rfl,
    show (dat0 V c).Φ t.succ = PhiS0 V c (t.val + 1) t.isLt from rfl, PhiS0_succ,
    after0_0, after0_1, after0_2, Phi0_castSucc]
  by_cases h0 : t.val % 2 = 0
  · rw [accum_even V c t h0]
    by_cases hz : t.val = 0
    · rw [PhiS0_zero V c _ _ hz, PhiA0_eq]
      iintro ⟨⟨⟨HS, Hr⟩, Hg⟩, Ho, ⟨%d0, H0⟩, ⟨%d1, H1⟩, ⟨%d2, H2⟩⟩
      iapply (sound_kernel0_reset c Set.univ (grid0.coords t) ((hcond0 t).mpr h0) _ _ _ _ _ _ _ _ (fblk V c t) (wblk V c t) _)
      isplitl [H0]; · iexact H0
      isplitl [H1]; · iexact H1
      isplitl [H2]; · iexists _; iexact H2
      isplitl [HS]; · iexact HS
      iintro ⟨H0, H1, H2, HS⟩
      isplitl [HS Hr Hg]
      · isplitl [HS Hr]
        · isplitl [HS]; · iexact HS
          iexact Hr
        iexact Hg
      isplitl [Ho]; · iexact Ho
      isplitl [H0]; · iexact H0
      isplitl [H1]; · iexact H1
      iexact H2
    · rw [PhiS0_pos V c _ _ hz]
      iintro ⟨⟨⟨HS, Hr⟩, Hg⟩, Ho, ⟨%d0, H0⟩, ⟨%d1, H1⟩, ⟨%d2, H2⟩⟩
      iapply (sound_kernel0_reset c Set.univ (grid0.coords t) ((hcond0 t).mpr h0) _ _ _ _ _ _ _ _ (fblk V c t) (wblk V c t) _)
      isplitl [H0]; · iexact H0
      isplitl [H1]; · iexact H1
      isplitl [H2]; · iexists _; iexact H2
      isplitl [HS]; · iexists _; iexact HS
      iintro ⟨H0, H1, H2, HS⟩
      isplitl [HS Hr Hg]
      · isplitl [HS Hr]
        · isplitl [HS]; · iexact HS
          iexact Hr
        iexact Hg
      isplitl [Ho]; · iexact Ho
      isplitl [H0]; · iexact H0
      isplitl [H1]; · iexact H1
      iexact H2
  · rw [accum_odd V c t h0]
    have hz : t.val ≠ 0 := fun h => h0 (by rw [h])
    rw [PhiS0_pos V c _ _ hz]
    iintro ⟨⟨⟨HS, Hr⟩, Hg⟩, Ho, ⟨%d0, H0⟩, ⟨%d1, H1⟩, ⟨%d2, H2⟩⟩
    iapply (sound_kernel0_carry c Set.univ (grid0.coords t) (fun h => h0 ((hcond0 t).mp h)) _ _ _ _ _ _ _ _ (fblk V c t) (wblk V c t)
      (accum V c (t.val - 1) (Nat.lt_of_le_of_lt (Nat.sub_le _ _) t.isLt)) _)
    isplitl [H0]; · iexact H0
    isplitl [H1]; · iexact H1
    isplitl [H2]; · iexists _; iexact H2
    isplitl [HS]; · iexact HS
    iintro ⟨H0, H1, H2, HS⟩
    isplitl [HS Hr Hg]
    · isplitl [HS Hr]
      · isplitl [HS]; · iexact HS
        iexact Hr
      iexact Hg
    isplitl [Ho]; · iexact Ho
    isplitl [H0]; · iexact H0
    isplitl [H1]; · iexact H1
    iexact H2

/-- The library's body obligation, at every point. -/
theorem body_obligation0 (c : Dev nD) : BodyObligation (dat0 (F := F) V c) (defs₀ (F := F)) Variants.none () Set.univ := fun t => by
  rw [bigSep_W0, bigSep_W0]
  exact sound_body0 V c t

/-! ## Into and out of the invariant -/

/-- What the launch hands the region is the invariant before the first point. -/
theorem hin0 (c : Dev nD) : Pipeline.ΦA spec0 c ⊢ (dat0 V c).Φ 0 := by
  rw [show (dat0 V c).Φ 0 = PhiS0 V c 0 (Nat.zero_le _) from rfl, PhiS0_zero V c 0 _ rfl]
  try exact Idealize.SL.BI.Entails.refl _

/-- After the last point the invariant gives the launch's form back: the accumulator's contents are forgotten. -/
theorem hout0 (c : Dev nD) : (dat0 V c).Φ (Fin.last cfg0.N) ⊢ Pipeline.ΦA spec0 c := by
  rw [show (dat0 V c).Φ (Fin.last cfg0.N) = PhiS0 V c (Fin.last cfg0.N).val (Nat.le_of_lt_succ (Fin.last cfg0.N).isLt) from rfl,
    PhiS0_pos V c _ _ (by rw [Fin.val_last]; have : cfg0.N = 16 := N_0; omega), PhiA0_eq]
  iintro ⟨⟨HS, Hr⟩, Hg⟩
  isplitl [HS Hr]
  · isplitl [HS]; · iexists _; iexact HS
    iexact Hr
  iexact Hg

end Cert.KernelIdeal.Hand

end
-- ==== Proof.Mlp.lean ====
/-
  Region 1 (the linear layer with ReLU) as proof data, at any float instance.

  The grid has one point. The body sees the whole 64×256 activations, the whole 256×256 weight matrix and
  the 256 biases, and writes the whole 64×256 output: the activations times the transposed weights, plus the
  bias along each row, clamped below at zero.
-/
import proofs.«413354_j28028956574145_3_alg».proof.Proof.Gen.KernelIdeal.Launch
import proofs.«413354_j28028956574145_3_alg».proof.Proof.Gen.KernelIdeal.Skeleton
import proofs.«413354_j28028956574145_3_alg».proof.Proof.Gen.KernelIdeal.Points
import Idealize.ShloMosaic.Lib.Pipeline.FrameBody
import Idealize.ShloMosaic.Lib.Pipeline.Value
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

-- the buffer contents of the core when the region is entered: a parameter, fixed later by the run
variable (V : (c : Dev nD) → (b : Ref sig .tc) → Buf (Elt F) ((c : Thread nD τ).loc b))

/-! ## The blocks the body sees -/

/-- Window `w`'s block at the one point, read off its array as the region finds it. -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- The activations, the weight matrix and the biases as the body loads them, at their literal types. -/
abbrev xblk (c : Dev nD) (t : Fin cfg1.N) : Vec F S64x256 .f32 := iblk1 V c 0 t
abbrev mblk (c : Dev nD) (t : Fin cfg1.N) : Vec F S256x256 .f32 := iblk1 V c 1 t
abbrev bblk (c : Dev nD) (t : Fin cfg1.N) : Vec F S256 .f32 := iblk1 V c 2 t

theorem hy2 : (![0, 0] : Fin S64x256.rank → Nat) = fun _ => 0 := by funext a; fin_cases a <;> rfl
theorem hm2 : (![0, 0] : Fin S256x256.rank → Nat) = fun _ => 0 := by funext a; fin_cases a <;> rfl
theorem hb1 : (![0] : Fin S256.rank → Nat) = fun _ => 0 := by funext a; fin_cases a <;> rfl

/-! ## The body's triple -/

set_option maxHeartbeats 4000000 in
/-- The body on whole staging memrefs: the inputs stay, the output ends at the layer's value of the inputs. -/
theorem sound_kernel1 (c : Dev nD) (E : Set ℕ) (i : grid1.Coords)
    (arg1 : Memref sig .tc .vmem S64x256 .f32) (harg1 : arg1.IsWhole) (arg2 : Memref sig .tc .vmem S256x256 .f32) (harg2 : arg2.IsWhole)
    (arg3 : Memref sig .tc .vmem S256 .f32) (harg3 : arg3.IsWhole) (arg4 : Memref sig .tc .vmem S64x256 .f32) (harg4 : arg4.IsWhole)
    (x0 : Vec F S64x256 .f32) (x1 : Vec F S256x256 .f32) (x2 : Vec F S256 .f32) (K : PUnit → sProp 𝕄) :
    iprop(owns (c : Thread nD τ) arg1 fullShare x0 ∗ owns (c : Thread nD τ) arg2 fullShare x1 ∗ owns (c : Thread nD τ) arg3 fullShare x2
        ∗ (∃ d, owns (c : Thread nD τ) arg4 fullShare d)
        ∗ (iprop(owns (c : Thread nD τ) arg1 fullShare x0 ∗ owns (c : Thread nD τ) arg2 fullShare x1 ∗ owns (c : Thread nD τ) arg3 fullShare x2
            ∗ owns (c : Thread nD τ) arg4 fullShare (k1_pay1 x0 x1 x2)) -∗ K ⟨⟩))
      ⊢ wp frame (wpE (defs₀ (F := F)) Variants.none c none) E (cc1__mlp_kernel i arg1 harg1 arg2 harg2 arg3 harg3 arg4 harg4) K := by
  simp only [cc1__mlp_kernel_eq_skeleton]; unfold cc1__mlp_kernel_skel
  unfold owns
  iintro ⟨⟨%f0, %hf0, H0⟩, ⟨%f1, %hf1, H1⟩, ⟨%f2, %hf2, H2⟩, ⟨%d4, %f4, -, H4⟩, Hk⟩
  subst hf0; subst hf1; subst hf2
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  iexists _; isplitr
  swap; · iexact H4
  ipureintro
  sl_unfold_words
  rw [View.read_writes_eq_canon _ _ _ (fun y => ⟨_, List.mem_singleton_self _, View.mem_set_unit_zero hy2 Facts₀.inb_S64x256_S64x256_0_0 y⟩),
    View.canon_unit_zero (S := S64x256) hy2]
  simp only [View.readAt_eq_ld, View.ld_unit_zero (S := S64x256) hy2, View.ld_unit_zero (S := S256x256) hm2,
    View.ld_unit_zero (S := S256) hb1]

/-! ## The proof data -/

/-- Region 1's proof data on core `c`: the arrays as the region finds them; after the body each input's buffer at
    its block and the output's at the layer's value; the class's invariant (scratch-free); nothing owed. -/
def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => k1_pay1 (xblk V c t) (mblk V c t) (bblk V c t)
  Φ _ := Pipeline.ΦA spec1 c
  q _ := fullShare
  owed _ := 0

theorem A_eq1 (c : Dev nD) (w : Fin cfg1.W) : (dat1 V c).A w = V c (Pipeline.arrRef spec1 w) := by
  dsimp only [dat1]

theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = iblk1 V c 2 t := by dsimp only [dat1]
theorem after1_3 (c : Dev nD) (t : Fin cfg1.N) : (dat1 V c).after 3 t = k1_pay1 (xblk V c t) (mblk V c t) (bblk V c t) := by dsimp only [dat1]

/-- Each input's staging buffer holds its block at the point. -/
theorem before1_0 (c : Dev nD) (t : Fin cfg1.N) (d) : (dat1 V c).before 0 t d = iblk1 V c 0 t :=
  ((dat1 V c).before_in_eq_fetched 0 rfl (fun _ => rfl) (fun _ _ _ => rfl) (fun t => by rw [after1_0]; unfold Dat.blockOf iblk1; rw [A_eq1]; try rfl) t d).trans
    (by unfold Dat.fetched Dat.blockOf iblk1; rw [A_eq1]; try rfl)
theorem before1_1 (c : Dev nD) (t : Fin cfg1.N) (d) : (dat1 V c).before 1 t d = iblk1 V c 1 t :=
  ((dat1 V c).before_in_eq_fetched 1 rfl (fun _ => rfl) (fun _ _ _ => rfl) (fun t => by rw [after1_1]; unfold Dat.blockOf iblk1; rw [A_eq1]; try rfl) t d).trans
    (by unfold Dat.fetched Dat.blockOf iblk1; rw [A_eq1]; try rfl)
theorem before1_2 (c : Dev nD) (t : Fin cfg1.N) (d) : (dat1 V c).before 2 t d = iblk1 V c 2 t :=
  ((dat1 V c).before_in_eq_fetched 2 rfl (fun _ => rfl) (fun _ _ _ => rfl) (fun t => by rw [after1_2]; unfold Dat.blockOf iblk1; rw [A_eq1]; try rfl) t d).trans
    (by unfold Dat.fetched Dat.blockOf iblk1; rw [A_eq1]; try rfl)

/-! ## The body obligation -/

/-- What the body is called with at the point, the windows one by one, -/
def bodyPre1 (c : Dev nD) (t : Fin cfg1.N) : sProp 𝕄 :=
  iprop((dat1 V c).Φ t.castSucc ∗ (dat1 V c).owesAt () t.castSucc
    ∗ (∃ d, owns (c : Thread nD τ) (st1_0 t) fullShare ((dat1 V c).before 0 t d))
    ∗ (∃ d, owns (c : Thread nD τ) (st1_1 t) fullShare ((dat1 V c).before 1 t d))
    ∗ (∃ d, owns (c : Thread nD τ) (st1_2 t) fullShare ((dat1 V c).before 2 t d))
    ∗ (∃ d, owns (c : Thread nD τ) (st1_3 t) fullShare ((dat1 V c).before 3 t d)))

/-- and what it returns. -/
def bodyPost1 (c : Dev nD) (t : Fin cfg1.N) : sProp 𝕄 :=
  iprop((dat1 V c).Φ t.succ ∗ (dat1 V c).owesAt () t.succ
    ∗ owns (c : Thread nD τ) (st1_0 t) fullShare ((dat1 V c).after 0 t)
    ∗ owns (c : Thread nD τ) (st1_1 t) fullShare ((dat1 V c).after 1 t)
    ∗ owns (c : Thread nD τ) (st1_2 t) fullShare ((dat1 V c).after 2 t)
    ∗ owns (c : Thread nD τ) (st1_3 t) fullShare ((dat1 V c).after 3 t))

theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1, before1_2]
  rw [show (dat1 V c).Φ t.succ = (dat1 V c).Φ t.castSucc from rfl,
    show (dat1 V c).owesAt () t.succ = (dat1 V c).owesAt () t.castSucc from rfl,
    after1_0, after1_1, after1_2, after1_3]
  iintro ⟨HΦ, Ho, ⟨%d0, H0⟩, ⟨%d1, H1⟩, ⟨%d2, H2⟩, ⟨%d3, H3⟩⟩
  iapply (sound_kernel1 c Set.univ _ _ _ _ _ _ _ _ _ (xblk V c t) (mblk V c t) (bblk V c t) _)
  isplitl [H0]; · iexact H0
  isplitl [H1]; · iexact H1
  isplitl [H2]; · iexact H2
  isplitl [H3]; · iexists _; iexact H3
  iintro ⟨H0, H1, H2, H3⟩
  isplitl [HΦ]; · iexact HΦ
  isplitl [Ho]; · iexact Ho
  isplitl [H0]; · iexact H0
  isplitl [H1]; · iexact H1
  isplitl [H2]; · iexact H2
  iexact H3

/-- The library's body obligation, at the point. -/
theorem body_obligation1 (c : Dev nD) : BodyObligation (dat1 (F := F) V c) (defs₀ (F := F)) Variants.none () Set.univ := fun t => by
  rw [bigSep_W1, bigSep_W1]
  exact sound_body1 V c t

end Cert.KernelIdeal.Hand

end
-- ==== Proof.Regs.lean ====
/-
  The run of the whole program, at any float instance: @main's four host stretches and two kernel regions composed,
  each region entered from the buffer contents the items before it leave.

  Before region 0 every unscoped buffer holds what the host stretches computed from the launch memory. Region 0 changes
  one buffer, its output array, to what its write-backs leave (`local0`); region 1 then changes one more, the result,
  to what its one write-back leaves (`out1`). Beside the buffers each region is handed the core's generator register and
  its (empty) debt, and hands them back. So every execution ends with the four argument arrays as launched (and the result buffer at `out1`: the value run, stated apart).
-/
import proofs.«413354_j28028956574145_3_alg».proof.Proof.Reduce
import proofs.«413354_j28028956574145_3_alg».proof.Proof.Mlp
import proofs.«413354_j28028956574145_3_alg».proof.Proof.Gen.KernelIdeal.Regions
import Idealize.ShloMosaic.Lib.Pipeline.Kit

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf Seg HostSeg RegionSeg)
open Cert.KernelIdeal Cert.KernelIdeal.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The buffer contents at the regions' entries, and what the regions leave -/

/-- The core's buffers as region 0 finds them: the launch memory after the four host stretches. -/
abbrev E0 (c : Dev nD) (b : Ref sig .tc) : Buf (Elt F) ((c : Thread nD τ).loc b) := V4 m c b

/-- What region 0 leaves in its output array. -/
def local0 (c : Dev nD) : Buf (Elt F) ((c : Thread nD τ).loc main_v16) := (dat0 (E0 m) c).arrAt 2 cfg0.N

/-- The core's buffers as region 1 finds them, as a valuation: region 0's entry contents with its output array replaced. -/
abbrev E1v (c : Dev nD) : Valuation τ sig (Elt F) := Function.update (V4 m c) main_v16 (local0 m c)
/-- The same read at a TensorCore reference. -/
abbrev E1 (c : Dev nD) (b : Ref sig .tc) : Buf (Elt F) ((c : Thread nD τ).loc b) := E1v m c b

/-- What region 1 leaves in the result array. -/
def out1 (c : Dev nD) : Buf (Elt F) ((c : Thread nD τ).loc main_v17) := (dat1 (E1 m) c).arrAt 3 cfg1.N

/-- What the regions leave in the buffers they may change (any other buffer: as region 0 found it). -/
def outs : Outs (F := F) := fun _ r c =>
  if h : r = main_v16 then h ▸ local0 m c
  else if h' : r = main_v17 then h' ▸ out1 m c
  else V4 m c r

theorem outs_v16 (J : ℕ) (c : Dev nD) : outs m J main_v16 c = local0 m c := by
  unfold outs; rw [dif_pos rfl]
theorem outs_v17 (J : ℕ) (c : Dev nD) : outs m J main_v17 c = out1 m c := by
  unfold outs; rw [dif_neg (by decide), dif_pos rfl]

/-- After region 0 the buffers are region 1's entry contents. -/
theorem V5_eq (c : Dev nD) : V5 m (outs m) c = E1v m c := by
  show Function.update (V4 m c) main_v16 (outs m 5 main_v16 c) = _
  rw [outs_v16]

/-- The exit contents of each region read at a TensorCore reference. -/
abbrev X5 (c : Dev nD) (b : Ref sig .tc) : Buf (Elt F) ((c : Thread nD τ).loc b) := V5 m (outs m) c b
abbrev X6 (c : Dev nD) (b : Ref sig .tc) : Buf (Elt F) ((c : Thread nD τ).loc b) := V6 m (outs m) c b

theorem X5_of_ne (c : Dev nD) (b : Ref sig .tc) (h : b ≠ main_v16) : X5 m c b = E0 m c b :=
  V5_of m (outs m) c b (by simpa using h)
theorem X6_of_ne (c : Dev nD) (b : Ref sig .tc) (h : b ≠ main_v17) : X6 m c b = X5 m c b :=
  V6_of m (outs m) c b (by simpa using h)
theorem X5_v16 (c : Dev nD) : X5 m c main_v16 = local0 m c := by
  show Function.update (V4 m c) main_v16 (outs m 5 main_v16 c) main_v16 = _
  rw [Function.update_self, outs_v16]
theorem X6_v17 (c : Dev nD) : X6 m c main_v17 = out1 m c := by
  show Function.update (V5 m (outs m) c) main_v17 (outs m 6 main_v17 c) main_v17 = _
  rw [Function.update_self, outs_v17]
theorem E1_eq_X5 (c : Dev nD) (b : Ref sig .tc) : E1 m c b = X5 m c b := by
  show E1v m c b = V5 m (outs m) c b; rw [V5_eq]

/-! ## The proof data family -/

/-- Each pipeline's proof data at its region's entry contents. -/
def pdats : (p : Fin 2) → (c : Dev nD) → Dat τ (Elt F) Unit ℕ (UR sig nD τ) ℕ (cfgs p) c
  | ⟨0, _⟩ => fun c => dat0 (E0 m) c
  | ⟨1, _⟩ => fun c => dat1 (E1 m) c

/-- At region 0's exit each of its arrays holds what the pipeline leaves, and every other buffer what it held at entry. -/
theorem hF0 (c : Dev nD) (w : Fin cfg0.W) : (pdats m 0 c).arrAt w cfg0.N = X5 m c (Pipeline.arrRef spec0 w) := by
  match w with
  | ⟨0, _⟩ => exact (((dat0 (E0 m) c).arrAt_in 0 rfl _).trans (A_eq0 (E0 m) c 0)).trans (X5_of_ne m c main_arg0 (by decide)).symm
  | ⟨1, _⟩ => exact (((dat0 (E0 m) c).arrAt_in 1 rfl _).trans (A_eq0 (E0 m) c 1)).trans (X5_of_ne m c main_v15 (by decide)).symm
  | ⟨2, _⟩ => exact (X5_v16 m c).symm
theorem hrest0 (c : Dev nD) : ∀ b, b ∉ Finset.univ.image (Pipeline.arrRef spec0) → X5 m c b = E0 m c b :=
  fun b hb => X5_of_ne m c b fun e => hb (Finset.mem_image.mpr ⟨2, Finset.mem_univ _, e.symm⟩)

/-- The same at region 1's exit. -/
theorem hF1 (c : Dev nD) (w : Fin cfg1.W) : (pdats m 1 c).arrAt w cfg1.N = X6 m c (Pipeline.arrRef spec1 w) := by
  match w with
  | ⟨0, _⟩ => exact ((((dat1 (E1 m) c).arrAt_in 0 rfl _).trans (A_eq1 (E1 m) c 0)).trans (E1_eq_X5 m c main_v16)).trans (X6_of_ne m c main_v16 (by decide)).symm
  | ⟨1, _⟩ => exact ((((dat1 (E1 m) c).arrAt_in 1 rfl _).trans (A_eq1 (E1 m) c 1)).trans (E1_eq_X5 m c main_arg2)).trans (X6_of_ne m c main_arg2 (by decide)).symm
  | ⟨2, _⟩ => exact ((((dat1 (E1 m) c).arrAt_in 2 rfl _).trans (A_eq1 (E1 m) c 2)).trans (E1_eq_X5 m c main_arg3)).trans (X6_of_ne m c main_arg3 (by decide)).symm
  | ⟨3, _⟩ => exact (X6_v17 m c).symm
theorem hrest1 (c : Dev nD) : ∀ b, b ∉ Finset.univ.image (Pipeline.arrRef spec1) → X6 m c b = E1 m c b :=
  fun b hb => (X6_of_ne m c b fun e => hb (Finset.mem_image.mpr ⟨3, Finset.mem_univ _, e.symm⟩)).trans (E1_eq_X5 m c b).symm

/-! ## What rides beside the buffers -/

abbrev 𝒱₀ : Variants := Variants.none
/-- No core owes another anything: no level is assigned. -/
abbrev Lz : GSem nD τ sig → Finset Unit := fun _ => ∅
abbrev lvz : GSem nD τ sig → Unit → ℕ := fun _ _ => 0
/-- The core's generator register at some state and its debt, at nothing. -/
abbrev Rr (c : Dev nD) : sProp 𝕄 := iprop((∃ r, prngReg c r) ∗ ∃ W, owes (c : Thread nD τ) (0 : CellTallies nD τ sig Unit) W)

/-! ## The regions as segments -/

set_option backward.isDefEq.respectTransparency.types false in
/-- Region 0: entered from the buffers at the host stretches' contents, left with its output array at `local0`. Its
    arrays are split out of the unscoped buffers and put back; the generator register and the scoped rest go into the
    invariant (the scratch at anything) and come back out of it (the accumulator forgotten). -/
def reg0 : Pipeline.RegionSeg (pcfgs (F := F)) adm (pdats m) () defs₀ 𝒱₀ Lz lvz 0 where
  win := launch0.win.to₀
  block_pos := launch0.block_pos
  stage_whole := launch0.stage_whole
  K := PEmpty
  osem k := k.elim
  ho := Pipeline.OwnSemFacts.none _
  hbody c := (body_obligation0 (E0 m) c).loose
  hwaits := Pipeline.hwaits_of_owed_zero _ _ _ _ Lz lvz 0 fun _ _ => rfl
  pre c := iprop(StableHlo.held (c : Thread nD τ) (Pipeline.ucRefs τ sig) (V4 m c) ∗ Rr c)
  post c := iprop(StableHlo.held (c : Thread nD τ) (Pipeline.ucRefs τ sig) (V5 m (outs m) c) ∗ Rr c)
  X c := iprop(∃ r, prngReg c r)
  Y c := iprop(∃ r, prngReg c r)
  Z c := Pipeline.unscopedRest (Ix := Unit) (Name := ℕ) (U := UR sig nD τ) (Lvl := ℕ) spec0 c (E0 m c)
  hentry c := by
    rw [Pipeline.ownSems0_none]
    have hsplit := Pipeline.arrays_of_unscopedBufs (p := 0) (pcfgs (F := F)) adm (pdats m) launch0.win launch0.arr_whole c
      ((pdats m 0 c).share_full fun _ => rfl) (E0 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    refine BIBase.Entails.trans ?_ (hin0 (E0 m) c)
    unfold Pipeline.ΦA
    iintro ⟨Hp, -, Hr⟩
    isplitl [Hr]; · iexact Hr
    iexact Hp
  hout c := by
    rw [Pipeline.ownSems0_none]
    refine BIBase.Entails.trans (hout0 (E0 m) c) ?_
    unfold Pipeline.ΦA
    iintro ⟨Hr, Hp⟩
    isplitl [Hp]; · iexact Hp
    isplitr; · iempintro
    iexact Hr
  hexit c := by
    have hjoin := Pipeline.unscopedBufs_of_arrays (p := 0) (pcfgs (F := F)) adm (Ix := Unit) (Name := ℕ) (U := UR sig nD τ) (Lvl := ℕ)
      launch0.win launch0.arr_whole c (pdats m) ((pdats m 0 c).share_full fun _ => rfl)
      (E0 m c) (X5 m c) ((pdats m 0 c).arrAt · cfg0.N) (hF0 m c) (hrest0 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Region 1: entered from region 0's exit contents, left with the result array at `out1`. -/
def reg1 : Pipeline.RegionSeg (pcfgs (F := F)) adm (pdats m) () defs₀ 𝒱₀ Lz lvz 1 where
  win := launch1.win.to₀
  block_pos := launch1.block_pos
  stage_whole := launch1.stage_whole
  K := PEmpty
  osem k := k.elim
  ho := Pipeline.OwnSemFacts.none _
  hbody c := (body_obligation1 (E1 m) c).loose
  hwaits := Pipeline.hwaits_of_owed_zero _ _ _ _ Lz lvz 1 fun _ _ => rfl
  pre c := iprop(StableHlo.held (c : Thread nD τ) (Pipeline.ucRefs τ sig) (V5 m (outs m) c) ∗ Rr c)
  post c := iprop(StableHlo.held (c : Thread nD τ) (Pipeline.ucRefs τ sig) (V6 m (outs m) c) ∗ Rr c)
  X c := iprop(∃ r, prngReg c r)
  Y c := iprop(∃ r, prngReg c r)
  Z c := Pipeline.unscopedRest (Ix := Unit) (Name := ℕ) (U := UR sig nD τ) (Lvl := ℕ) spec1 c (E1 m c)
  hentry c := by
    rw [Pipeline.ownSems0_none, V5_eq]
    have hsplit := Pipeline.arrays_of_unscopedBufs (p := 1) (pcfgs (F := F)) adm (pdats m) launch1.win launch1.arr_whole c
      ((pdats m 1 c).share_full fun _ => rfl) (E1 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 1 c).Φ 0 = Pipeline.ΦA spec1 c from rfl]; unfold Pipeline.ΦA
    iintro ⟨Hp, -, Hr⟩
    isplitl [Hr]; · iexact Hr
    iexact Hp
  hout c := by
    rw [Pipeline.ownSems0_none, show (pdats m 1 c).Φ (Fin.last _) = Pipeline.ΦA spec1 c from rfl]; unfold Pipeline.ΦA
    iintro ⟨Hr, Hp⟩
    isplitl [Hp]; · iexact Hp
    isplitr; · iempintro
    iexact Hr
  hexit c := by
    have hjoin := Pipeline.unscopedBufs_of_arrays (p := 1) (pcfgs (F := F)) adm (Ix := Unit) (Name := ℕ) (U := UR sig nD τ) (Lvl := ℕ)
      launch1.win launch1.arr_whole c (pdats m) ((pdats m 1 c).share_full fun _ => rfl)
      (E1 m c) (X6 m c) ((pdats m 1 c).arrAt · cfg1.N) (hF1 m c) (hrest1 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

/-! ## The frame -/

set_option backward.isDefEq.respectTransparency.types false in
/-- From any memory with zero counters every weakly fair execution of @main terminates, nothing faulting, with the
    argument arrays as launched: the program's host side composed with the two regions' records. -/
theorem frame_main : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) := by
  have h := frame_cond (F := F) m (Ix := Unit) (U := UR sig nD τ) (Lvl := ℕ) (EP := emb₁) (ι := ()) (𝒱₀ := 𝒱₀) (L := Lz) (lv := lvz)
    (hL := fun _ _ => rfl) (ρ := ρ) (outs := outs m) (pdats := pdats m) (O₀ := fun _ => 0) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (E := fun _ c => Rr c)
    (hE0 := Pipeline.initEach Lz lvz fun c => by
      iintro ⟨⟨-, HO, -, Hp, -⟩, -⟩
      imodintro
      isplitl [Hp]; · iexists _; iexact Hp
      iexists ∅; iexact HO)
    (hE2 := fun c => by iintro ⟨-, HO⟩; iexact HO)
    (R0 := reg0 m) (hpre0 := fun c => .rfl) (hpost0 := fun c => .rfl)
    (R1 := reg1 m) (hpre1 := fun c => .rfl) (hpost1 := fun c => .rfl)
  exact h

end Cert.KernelIdeal.Hand

end
-- ==== Proof.Run.lean ====
/-
  The value run: the same composition as the frame, with the result buffer read as well. Every weakly fair execution of
  @main ends with the result buffer holding what region 1's one write-back leaves there (`out1`) and the argument arrays
  as launched.
-/
import proofs.«413354_j28028956574145_3_alg».proof.Proof.Regs
import proofs.«413354_j28028956574145_3_alg».proof.Proof.RunCond

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf Seg HostSeg RegionSeg)
open Cert.KernelIdeal Cert.KernelIdeal.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
theorem run_main : θ_run defs (onTc (τ := τ) (main (F := F))) ⟨m, fun _ => 0, ρ⟩ (fun r => ∀ c : Dev nD,
      r.2.mem ((c.tc : Thread nD τ).loc main_v17) = out1 m c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) := by
  have h := run_cond (F := F) m (Ix := Unit) (U := UR sig nD τ) (Lvl := ℕ) (EP := emb₁) (ι := ()) (𝒱₀ := 𝒱₀) (L := Lz) (lv := lvz)
    (hL := fun _ _ => rfl) (ρ := ρ) (outs := outs m) (pdats := pdats m) (O₀ := fun _ => 0) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (E := fun _ c => Rr c)
    (hE0 := Pipeline.initEach Lz lvz fun c => by
      iintro ⟨⟨-, HO, -, Hp, -⟩, -⟩
      imodintro
      isplitl [Hp]; · iexists _; iexact Hp
      iexists ∅; iexact HO)
    (hE2 := fun c => by iintro ⟨-, HO⟩; iexact HO)
    (R0 := reg0 m) (hpre0 := fun c => .rfl) (hpost0 := fun c => .rfl)
    (R1 := reg1 m) (hpre1 := fun c => .rfl) (hpost1 := fun c => .rfl)
  refine (θ_run defs _ _).mono (fun r hr c => ?_) h
  have hc := hr c
  rw [outs_v17] at hc
  exact hc

end Cert.KernelIdeal.Hand

end
-- ==== Proof.Spec.lean ====
/-
  The mathematics both programs compute for one output row `r` and feature `f`, over the extended reals.

  Each of the 8 sequence positions `s` of row `r` carries an index word `k`. The word is VALID when
  0 ≤ k < 256 (read signed); its CLIPPED value is k clamped to [0, 255]. The reference takes, per position,
  the feature at the clipped slice when the word is valid and the mean over all 256 slices otherwise, and
  averages the 8 positions. The kernel instead multiplies every slice by a selection weight — the indicator
  of the clipped slice when valid, the constant 1/256 otherwise — sums over positions and slices (in two
  halves of the slice axis, each half over the merged (position, slice) axis of length 1024), and scales by 1/8.
  On finite features the two agree: a one-hot weighted sum picks its entry, a sum scaled by 1/256 is the mean,
  and scaling by 1/8 is dividing by 8.
-/
import Idealize.ShloMosaic.PureOps.Ideal
import Idealize.ShloMosaic.PureOps.Ideal.Laws
import Idealize.ShloMosaic.Lib.ValueIdx
import Mathlib.Algebra.BigOperators.Fin
import Mathlib.Algebra.BigOperators.Ring.Finset
import Mathlib.Data.EReal.Operations

noncomputable section

namespace Cert.Spec

open Idealize.ShloMosaic

/-- An index word names a slice: 0 ≤ k < 256, the word read signed. -/
def validOf (k : BitVec 32) : Prop := 0 ≤ k.toInt ∧ k.toInt < 256

instance : DecidablePred validOf := fun k => by unfold validOf; infer_instance

/-- The word clamped to [0, 255], as a slice index. -/
def clipOf (k : BitVec 32) : Fin 256 :=
  ⟨(max 0 (min 255 k.toInt)).toNat, by omega⟩

/-- The f32 literals of the two programs, at the ideal instance. -/
abbrev c0 : EReal := Ideal.ofBits .f32 0x00000000#32
/-- 3.90625e-03, the kernel's uniform weight. -/
abbrev cInv256 : EReal := Ideal.ofBits .f32 0x3B800000#32
/-- 0.125, the kernel's final scale. -/
abbrev cInv8 : EReal := Ideal.ofBits .f32 0x3E000000#32
/-- 256.0, the reference's first divisor. -/
abbrev c256 : EReal := Ideal.ofBits .f32 0x43800000#32
/-- 8.0, the reference's second divisor. -/
abbrev c8 : EReal := Ideal.ofBits .f32 0x41000000#32

/-- The selection weight of slice `d` for the index word `k`. -/
def wgt (k : BitVec 32) (d : Fin 256) : EReal :=
  if validOf k then (if clipOf k = d then (1 : EReal) else 0) else cInv256

/-- Position and slice from an index of the merged axis of length 1024, in the lower and the upper half
    of the slice axis. -/
def posOf (k : Fin 1024) : Fin 8 := ⟨k.val / 128, by omega⟩
def sliceLo (k : Fin 1024) : Fin 256 := ⟨k.val % 128, by omega⟩
def sliceHi (k : Fin 1024) : Fin 256 := ⟨128 + k.val % 128, by omega⟩

/-- What the kernel leaves at row `r`, feature `f`, for any weights `w r s d`: zero plus the lower half's
    weighted sum, plus the upper half's, times 1/8. -/
def kernelLocalW (feat : Fin 64 → Fin 8 → Fin 256 → Fin 256 → EReal) (w : Fin 64 → Fin 8 → Fin 256 → EReal)
    (r : Fin 64) (f : Fin 256) : EReal :=
  ((c0 + ∑ k : Fin 1024, w r (posOf k) (sliceLo k) * feat r (posOf k) (sliceLo k) f)
      + ∑ k : Fin 1024, w r (posOf k) (sliceHi k) * feat r (posOf k) (sliceHi k) f) * cInv8

/-- The same at the selection weights of the index words `ks`. -/
def kernelLocal (feat : Fin 64 → Fin 8 → Fin 256 → Fin 256 → EReal) (ks : Fin 64 → Fin 8 → BitVec 32)
    (r : Fin 64) (f : Fin 256) : EReal :=
  kernelLocalW feat (fun r s d => wgt (ks r s) d) r f

/-- What the reference computes at row `r`, feature `f`. -/
def refLocal (feat : Fin 64 → Fin 8 → Fin 256 → Fin 256 → EReal) (ks : Fin 64 → Fin 8 → BitVec 32)
    (r : Fin 64) (f : Fin 256) : EReal :=
  Ideal.div (c0 + ∑ s : Fin 8,
      (if validOf (ks r s) then feat r s (clipOf (ks r s)) f
       else Ideal.div (c0 + ∑ d : Fin 256, feat r s d f) c256)) c8

/-! ### The five literals as reals -/

private theorem c0_eq : c0 = 0 := Ideal.ofBits_zero_f32

private theorem cInv256_eq : cInv256 = ((1 / 256 : ℝ) : EReal) := by
  simp [Ideal.ofBits, Ideal.ieee, -EReal.coe_mul]; norm_num

private theorem cInv8_eq : cInv8 = ((1 / 8 : ℝ) : EReal) := by
  simp [Ideal.ofBits, Ideal.ieee, -EReal.coe_mul]; norm_num

private theorem c256_eq : c256 = ((256 : ℝ) : EReal) := by
  simp [Ideal.ofBits, Ideal.ieee, -EReal.coe_mul]; norm_num

private theorem c8_eq : c8 = ((8 : ℝ) : EReal) := by
  simp [Ideal.ofBits, Ideal.ieee, -EReal.coe_mul]; norm_num

/-! ### Reindexing the merged axis, over any commutative additive monoid -/

/-- An index of the merged axis of length 1024 is a position (quotient by 128) and an offset within a
    half of the slice axis (remainder mod 128). -/
private def splitIdx : Fin 1024 ≃ Fin 8 × Fin 128 where
  toFun k := (⟨k.val / 128, by omega⟩, ⟨k.val % 128, by omega⟩)
  invFun p := ⟨p.1.val * 128 + p.2.val, by omega⟩
  left_inv k := by
    apply Fin.ext
    simp only
    omega
  right_inv p := by
    rcases p with ⟨s, a⟩
    apply Prod.ext
    · apply Fin.ext
      simp only
      omega
    · apply Fin.ext
      simp only
      omega

/-- The sum over the merged axis read in the lower half is the double sum over positions and the first
    128 slices. -/
private theorem sum_merged_lo {M : Type*} [AddCommMonoid M] (g : Fin 8 → Fin 256 → M) :
    ∑ k : Fin 1024, g (posOf k) (sliceLo k) = ∑ s : Fin 8, ∑ a : Fin 128, g s (Fin.castAdd 128 a) := by
  rw [← Fintype.sum_prod_type' (f := fun (s : Fin 8) (a : Fin 128) => g s (Fin.castAdd 128 a))]
  exact Fintype.sum_equiv splitIdx _ _ (fun k => rfl)

/-- The same in the upper half: positions and the last 128 slices. -/
private theorem sum_merged_hi {M : Type*} [AddCommMonoid M] (g : Fin 8 → Fin 256 → M) :
    ∑ k : Fin 1024, g (posOf k) (sliceHi k) = ∑ s : Fin 8, ∑ a : Fin 128, g s (Fin.natAdd 128 a) := by
  rw [← Fintype.sum_prod_type' (f := fun (s : Fin 8) (a : Fin 128) => g s (Fin.natAdd 128 a))]
  exact Fintype.sum_equiv splitIdx _ _ (fun k => rfl)

/-- A sum over the 256 slices is the sum over the first 128 plus the sum over the last 128. -/
private theorem sum_halves {M : Type*} [AddCommMonoid M] (h : Fin 256 → M) :
    ∑ d : Fin 256, h d = ∑ a : Fin 128, h (Fin.castAdd 128 a) + ∑ a : Fin 128, h (Fin.natAdd 128 a) :=
  Fin.sum_univ_add (a := 128) (b := 128) h

/-- The two merged sums together are the full double sum over positions and slices. -/
private theorem sum_merged {M : Type*} [AddCommMonoid M] (g : Fin 8 → Fin 256 → M) :
    (∑ k : Fin 1024, g (posOf k) (sliceLo k)) + ∑ k : Fin 1024, g (posOf k) (sliceHi k)
      = ∑ s : Fin 8, ∑ d : Fin 256, g s d := by
  rw [sum_merged_lo, sum_merged_hi, ← Finset.sum_add_distrib]
  exact Finset.sum_congr rfl (fun s _ => (sum_halves (g s)).symm)

/-! ### Sums of coerced reals -/

/-- A finite sum of coerced reals is the coerced real sum. -/
private theorem coe_sum {ι : Type*} (t : Finset ι) (x : ι → ℝ) :
    ∑ i ∈ t, (x i : EReal) = ((∑ i ∈ t, x i : ℝ) : EReal) := by
  classical
  induction t using Finset.induction_on with
  | empty => simp
  | insert a t ha ih => rw [Finset.sum_insert ha, Finset.sum_insert ha, ih, EReal.coe_add]

/-- One position: the weighted sum over slices picks the clipped slice of a valid word, and is the mean
    over all slices otherwise. -/
private theorem pos_sum (φ : Fin 256 → EReal) (hφ : ∀ d, ∃ x : ℝ, φ d = (x : EReal)) (k : BitVec 32) :
    ∑ d : Fin 256, wgt k d * φ d
      = if validOf k then φ (clipOf k) else Ideal.div (c0 + ∑ d : Fin 256, φ d) c256 := by
  by_cases hv : validOf k
  · simp only [wgt, if_pos hv, ite_mul, one_mul, zero_mul, Finset.sum_ite_eq, Finset.mem_univ, if_true]
  · choose x hx using hφ
    simp only [wgt, if_neg hv, if_false]
    rw [c0_eq, zero_add, c256_eq, Ideal.div_coe (by norm_num), cInv256_eq]
    simp only [hx, ← EReal.coe_mul]
    rw [coe_sum, coe_sum, ← EReal.coe_mul, Finset.sum_mul]
    congr 1
    exact Finset.sum_congr rfl (fun d _ => mul_comm _ _)

/-- THE LAW. On finite features the kernel's weighted double sum times 1/8 is the reference's mean of
    selected-or-averaged slices. -/
theorem local_eq (feat : Fin 64 → Fin 8 → Fin 256 → Fin 256 → EReal) (ks : Fin 64 → Fin 8 → BitVec 32)
    (hfin : ∀ r s d f, ∃ x : ℝ, feat r s d f = (x : EReal)) (r : Fin 64) (f : Fin 256) :
    kernelLocal feat ks r f = refLocal feat ks r f := by
  have hsum := sum_merged (fun s d => wgt (ks r s) d * feat r s d f)
  unfold kernelLocal kernelLocalW refLocal
  rw [add_assoc, hsum, c8_eq, Ideal.div_coe (by norm_num), cInv8_eq]
  congr 2
  exact Finset.sum_congr rfl
    (fun s _ => pos_sum (fun d => feat r s d f) (fun d => hfin r s d f) (ks r s))

end Cert.Spec

end
-- ==== Proof.BlockRead.lean ====
/-
  Region 0's input blocks read at an index: element (b, s, d, f) of the feature block of grid point t is the feature
  array's element at row 8·(t/2) + b, position s, slice 128·(t%2) + d, feature f; likewise the weight block.
  (The grid is 8 × 2 row-major; a block's coordinate is its index times its size plus the coordinate inside the block.)
-/
import proofs.«413354_j28028956574145_3_alg».proof.Proof.Reduce
import Idealize.ShloMosaic.Lib.Pipeline.Value
import Idealize.ShloMosaic.Lib.ValueIdx

set_option maxRecDepth 16384

noncomputable section

namespace Cert.KernelIdeal.Hand

open Idealize.ShloMosaic Idealize.ShloMosaic.TcCoe Idealize.SL.Sem
open Idealize.ShloMosaic.Pipeline (Dat)
open Cert.KernelIdeal Cert.KernelIdeal.Gen
open Idealize.ShloMosaic.ValueIdx

variable (V : (c : Dev nD) → (b : Ref sig .tc) → Buf (Elt Ideal) ((c : Thread nD τ).loc b))

/-- The feature window's block index at every grid point: (t / 2, 0, t % 2, 0). -/
private theorem fblk_idx : ∀ t : Fin cfg0.N, win0_0.index t (0 : Fin 4) = t.val / 2 ∧ win0_0.index t (1 : Fin 4) = 0
    ∧ win0_0.index t (2 : Fin 4) = t.val % 2 ∧ win0_0.index t (3 : Fin 4) = 0 :=
  (by decide +kernel : ∀ t : Fin grid0.N, _)

/-- The weight window's block index at every grid point: (t / 2, 0, t % 2). -/
private theorem wblk_idx : ∀ t : Fin cfg0.N, win0_1.index t (0 : Fin 3) = t.val / 2 ∧ win0_1.index t (1 : Fin 3) = 0
    ∧ win0_1.index t (2 : Fin 3) = t.val % 2 :=
  (by decide +kernel : ∀ t : Fin grid0.N, _)

theorem fblk_apply (c : Dev nD) (t : Fin cfg0.N) (b : Fin 8) (s : Fin 8) (d : Fin 128) (f : Fin 256) (r : Fin 64) (d' : Fin 256)
    (hr : r.val = 8 * (t.val / 2) + b.val) (hd : d'.val = 128 * (t.val % 2) + d.val) :
    (fblk V c t : S8x8x128x256.Idx → EReal) (ix4 b s d f) = (V c main_arg0 : S64x8x256x256.Idx → EReal) (ix4 r s d' f) := by
  -- the block is the array read through the block's rectangle: its element at j is the array's at the rectangle's j
  unfold fblk iblk0
  rw [View.read_apply]
  show (V c main_arg0 : S64x8x256x256.Idx → EReal) (((cfg0.win 0).blk t).view.emb (ix4 b s d f))
    = (V c main_arg0 : S64x8x256x256.Idx → EReal) (ix4 r s d' f)
  refine congrArg (V c main_arg0 : S64x8x256x256.Idx → EReal) ?_
  -- on each axis the rectangle's coordinate is (block index) × (block size) + 1 × (coordinate inside the block)
  obtain ⟨e0, e1, e2, e3⟩ := fblk_idx t
  funext a; apply Fin.ext
  match a with
  | ⟨0, _⟩ => show win0_0.index t (0 : Fin 4) * 8 + 1 * b.val = r.val; omega
  | ⟨1, _⟩ => show win0_0.index t (1 : Fin 4) * 8 + 1 * s.val = s.val; omega
  | ⟨2, _⟩ => show win0_0.index t (2 : Fin 4) * 128 + 1 * d.val = d'.val; omega
  | ⟨3, _⟩ => show win0_0.index t (3 : Fin 4) * 256 + 1 * f.val = f.val; omega

theorem wblk_apply (c : Dev nD) (t : Fin cfg0.N) (b : Fin 8) (s : Fin 8) (d : Fin 128) (r : Fin 64) (d' : Fin 256)
    (hr : r.val = 8 * (t.val / 2) + b.val) (hd : d'.val = 128 * (t.val % 2) + d.val) :
    (wblk V c t : S8x8x128.Idx → EReal) (ix3 b s d) = (V c main_v15 : S64x8x256.Idx → EReal) (ix3 r s d') := by
  -- the same reading for the weights: rank 3, block 8 × 8 × 128 of the 64 × 8 × 256 array
  unfold wblk iblk0
  rw [View.read_apply]
  show (V c main_v15 : S64x8x256.Idx → EReal) (((cfg0.win 1).blk t).view.emb (ix3 b s d))
    = (V c main_v15 : S64x8x256.Idx → EReal) (ix3 r s d')
  refine congrArg (V c main_v15 : S64x8x256.Idx → EReal) ?_
  obtain ⟨e0, e1, e2⟩ := wblk_idx t
  funext a; apply Fin.ext
  match a with
  | ⟨0, _⟩ => show win0_1.index t (0 : Fin 3) * 8 + 1 * b.val = r.val; omega
  | ⟨1, _⟩ => show win0_1.index t (1 : Fin 3) * 8 + 1 * s.val = s.val; omega
  | ⟨2, _⟩ => show win0_1.index t (2 : Fin 3) * 128 + 1 * d.val = d'.val; omega

end Cert.KernelIdeal.Hand

end
-- ==== Proof.ArrLocal.lean ====
/-
  Region 0's output array after the region, at the ideal instance, read at an index: each row `r`, feature `f`
  holds zero plus the weighted sum over the lower half of the slice axis, plus that over the upper half, times 1/8
  (the two grid points of the row's block, the second one written back).

  The steps. The accumulating payload at block row `b`, feature `f` is what was there plus the batched product of the
  weight block, reshaped to 8×1×1024, with the feature block, reshaped to 8×1024×256: the sum over the merged index
  `k` of weight (b, k/128, k%128) times feature (b, k/128, k%128, f) — a reshape keeps the row-major position, and
  1024·b + k = 128·(8·b + k/128) + k%128. At an odd point 2i+1 the accumulator is therefore zero plus the sum over the
  block of point 2i plus the sum over the block of point 2i+1, and the written-back block is that times 1/8. Block row
  `b` of grid row `i` is array row 8·i + b; the even point's block holds slices 0..127 and the odd point's slices
  128..255, so the two sums are the lower-half and the upper-half sums of the specification. The odd points' blocks,
  rows 8·i .. 8·i+7 and all 256 features, cover the 64×256 array: row `r` lies in the block of point 2·(r/8) + 1.
-/
import proofs.«413354_j28028956574145_3_alg».proof.Proof.Reduce
import proofs.«413354_j28028956574145_3_alg».proof.Proof.Spec
import proofs.«413354_j28028956574145_3_alg».proof.Proof.BlockRead
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

namespace Cert.KernelIdeal.Hand

open Idealize.ShloMosaic Idealize.ShloMosaic.TcCoe Idealize.SL.Sem
open Idealize.ShloMosaic.Pipeline (Dat)
open Cert.KernelIdeal Cert.KernelIdeal.Gen
open Idealize.ShloMosaic.ValueIdx

namespace ArrLocal

/-! ## The batched product's operand indices, axis by axis

Both operands carry the batch on axis 0; the left operand [8,1,1024] contracts its axis 2, the right operand
[8,1024,256] its axis 1. At result index (b, 0, f) and contraction index k the left operand is read at (b, 0, k) and the
right at (b, k, f). -/

theorem reduceDot_lhs_0 (i : S8x1x256.Idx) (q : dot_S8x1x1024_S8x1024x256_S8x1x256_2_1_1_2_0_0.contr.Idx) :
    (dot_S8x1x1024_S8x1024x256_S8x1x256_2_1_1_2_0_0.lhsIdx i q 0).val = (i 0).val := by
  unfold DotDims.lhsIdx
  rw [dif_pos (show (0 : Fin S8x1x1024.rank) ∈ dot_S8x1x1024_S8x1024x256_S8x1x256_2_1_1_2_0_0.lhsBatch by decide)]
  rfl
theorem reduceDot_lhs_1 (i : S8x1x256.Idx) (q : dot_S8x1x1024_S8x1024x256_S8x1x256_2_1_1_2_0_0.contr.Idx) :
    (dot_S8x1x1024_S8x1024x256_S8x1x256_2_1_1_2_0_0.lhsIdx i q 1).val = (i 1).val := by
  unfold DotDims.lhsIdx
  rw [dif_neg (show ¬(1 : Fin S8x1x1024.rank) ∈ dot_S8x1x1024_S8x1024x256_S8x1x256_2_1_1_2_0_0.lhsBatch by decide),
    dif_pos (show (1 : Fin S8x1x1024.rank) ∈ dot_S8x1x1024_S8x1024x256_S8x1x256_2_1_1_2_0_0.lhsNonContracting by decide)]
  rfl
theorem reduceDot_lhs_2 (i : S8x1x256.Idx) (q : dot_S8x1x1024_S8x1024x256_S8x1x256_2_1_1_2_0_0.contr.Idx) :
    (dot_S8x1x1024_S8x1024x256_S8x1x256_2_1_1_2_0_0.lhsIdx i q 2).val = (q ⟨0, by decide⟩).val :=
  dot_S8x1x1024_S8x1024x256_S8x1x256_2_1_1_2_0_0.lhsIdx_val_of_single rfl i q
theorem reduceDot_rhs_0 (i : S8x1x256.Idx) (q : dot_S8x1x1024_S8x1024x256_S8x1x256_2_1_1_2_0_0.contr.Idx) :
    (dot_S8x1x1024_S8x1024x256_S8x1x256_2_1_1_2_0_0.rhsIdx i q 0).val = (i 0).val := by
  unfold DotDims.rhsIdx
  rw [dif_pos (show (0 : Fin S8x1024x256.rank) ∈ dot_S8x1x1024_S8x1024x256_S8x1x256_2_1_1_2_0_0.rhsBatch by decide)]
  rfl
theorem reduceDot_rhs_1 (i : S8x1x256.Idx) (q : dot_S8x1x1024_S8x1024x256_S8x1x256_2_1_1_2_0_0.contr.Idx) :
    (dot_S8x1x1024_S8x1024x256_S8x1x256_2_1_1_2_0_0.rhsIdx i q 1).val = (q ⟨0, by decide⟩).val :=
  dot_S8x1x1024_S8x1024x256_S8x1x256_2_1_1_2_0_0.rhsIdx_val_of_single rfl i q
theorem reduceDot_rhs_2 (i : S8x1x256.Idx) (q : dot_S8x1x1024_S8x1024x256_S8x1x256_2_1_1_2_0_0.contr.Idx) :
    (dot_S8x1x1024_S8x1024x256_S8x1x256_2_1_1_2_0_0.rhsIdx i q 2).val = (i 2).val := by
  unfold DotDims.rhsIdx
  rw [dif_neg (show ¬(2 : Fin S8x1024x256.rank) ∈ dot_S8x1x1024_S8x1024x256_S8x1x256_2_1_1_2_0_0.rhsBatch by decide),
    dif_pos (show (2 : Fin S8x1024x256.rank) ∈ dot_S8x1x1024_S8x1024x256_S8x1x256_2_1_1_2_0_0.rhsNonContracting by decide)]
  rfl

/-- The batched product into a zero accumulator, at batch `b`, column `f`: the sum over the contracted axis of
    the left operand at (b, 0, k) times the right operand at (b, k, f). -/
theorem reduceDot_apply (l : FVec Ideal S8x1x1024 .f32) (r : FVec Ideal S8x1024x256 .f32) (b : Fin 8) (f : Fin 256) :
    matmul dot_S8x1x1024_S8x1024x256_S8x1x256_2_1_1_2_0_0 (some .fp32) l r (constant (F := Ideal) S8x1x256 .f32 0x00000000#32) (ix3 b (0 : Fin 1) f)
      = ∑ k : Fin 1024, l (ix3 b (0 : Fin 1) k) * r (ix3 b k f) := by
  refine (Ideal.matmul_constant_zero_apply dot_S8x1x1024_S8x1024x256_S8x1x256_2_1_1_2_0_0 (some .fp32) l r _).trans ?_
  rw [← Equiv.sum_comp (ValueIdx.contrEquiv1 dot_S8x1x1024_S8x1024x256_S8x1x256_2_1_1_2_0_0 1024 rfl rfl).symm]
  refine Finset.sum_congr rfl fun k _ => ?_
  have hk := ValueIdx.contrEquiv1_symm_val dot_S8x1x1024_S8x1024x256_S8x1x256_2_1_1_2_0_0 1024 rfl rfl k
  have el : dot_S8x1x1024_S8x1024x256_S8x1x256_2_1_1_2_0_0.lhsIdx (ix3 b (0 : Fin 1) f) ((ValueIdx.contrEquiv1 dot_S8x1x1024_S8x1024x256_S8x1x256_2_1_1_2_0_0 1024 rfl rfl).symm k) = ix3 b (0 : Fin 1) k := funext fun a => Fin.ext (by
    match a with
    | ⟨0, _⟩ => exact reduceDot_lhs_0 _ _
    | ⟨1, _⟩ => exact reduceDot_lhs_1 _ _
    | ⟨2, _⟩ => exact (reduceDot_lhs_2 _ _).trans hk)
  have er : dot_S8x1x1024_S8x1024x256_S8x1x256_2_1_1_2_0_0.rhsIdx (ix3 b (0 : Fin 1) f) ((ValueIdx.contrEquiv1 dot_S8x1x1024_S8x1024x256_S8x1x256_2_1_1_2_0_0 1024 rfl rfl).symm k) = ix3 b k f := funext fun a => Fin.ext (by
    match a with
    | ⟨0, _⟩ => exact reduceDot_rhs_0 _ _
    | ⟨1, _⟩ => exact (reduceDot_rhs_1 _ _).trans hk
    | ⟨2, _⟩ => exact reduceDot_rhs_2 _ _)
  rw [el, er]

/-! ## The payloads at an index -/

/-- The slice coordinate inside a block (128 slices) from an index of the merged axis of length 1024. -/
def sliceInBlock (k : Fin 1024) : Fin 128 := ⟨k.val % 128, Nat.mod_lt _ (by decide)⟩

/-- The zero block holds zero at every index. -/
theorem k0_pay1_apply (b : Fin 8) (f : Fin 256) : (k0_pay1 (F := Ideal)) (ix2 b f) = Cert.Spec.c0 := rfl

/-- The scaled block at an index: the entry times 1/8. -/
theorem k0_pay3_apply (a : Vec Ideal S8x256 .f32) (b : Fin 8) (f : Fin 256) :
    k0_pay3 a (ix2 b f) = a (ix2 b f) * Cert.Spec.cInv8 := rfl

/-- The feature block with its (position, slice) axes merged, at (b, k, f): the block at (b, k/128, k%128, f). Both have
    row-major position (1024·b + k)·256 + f. -/
theorem mergedFeat_apply (x : Vec Ideal S8x8x128x256 .f32) (b : Fin 8) (k : Fin 1024) (f : Fin 256) :
    shapeCast S8x1024x256 x shapeCasts_S8x8x128x256_S8x1024x256 (ix3 b k f) = x (ix4 b (Cert.Spec.posOf k) (sliceInBlock k) f) := by
  refine shapeCast_apply x _ _ _ ?_
  rw [Shape.rowMajor_val_four, Shape.rowMajor_val_three]
  show (((b.val * 8 + k.val / 128) * 128 + k.val % 128) * 256 + f.val) = ((b.val * 1024 + k.val) * 256 + f.val)
  omega

/-- The weight block with its (position, slice) axes merged behind a unit axis, at (b, 0, k): the block at
    (b, k/128, k%128). Both have row-major position 1024·b + k. -/
theorem mergedWeight_apply (w : Vec Ideal S8x8x128 .f32) (b : Fin 8) (k : Fin 1024) :
    shapeCast S8x1x1024 w shapeCasts_S8x8x128_S8x1x1024 (ix3 b (0 : Fin 1) k) = w (ix3 b (Cert.Spec.posOf k) (sliceInBlock k)) := by
  refine shapeCast_apply w _ _ _ ?_
  rw [Shape.rowMajor_val_three, Shape.rowMajor_val_three]
  show ((b.val * 8 + k.val / 128) * 128 + k.val % 128) = ((b.val * 1 + 0) * 1024 + k.val)
  omega

/-- The product with its unit axis dropped, at (b, f): the product at (b, 0, f). -/
theorem productRow_apply (y : Vec Ideal S8x1x256 .f32) (b : Fin 8) (f : Fin 256) :
    shapeCast S8x256 y shapeCasts_S8x1x256_S8x256 (ix2 b f) = y (ix3 b (0 : Fin 1) f) := by
  refine shapeCast_apply y _ _ _ ?_
  rw [Shape.rowMajor_val_three, Shape.rowMajor_val_two]
  show ((b.val * 1 + 0) * 256 + f.val) = (b.val * 256 + f.val)
  omega

/-- The accumulating step at an index: what was there plus the block's weighted sum over the merged
    (position, slice) axis. -/
theorem k0_pay2_apply (x : Vec Ideal S8x8x128x256 .f32) (w : Vec Ideal S8x8x128 .f32) (a : Vec Ideal S8x256 .f32) (b : Fin 8) (f : Fin 256) :
    k0_pay2 x w a (ix2 b f)
      = a (ix2 b f) + ∑ k : Fin 1024, w (ix3 b (Cert.Spec.posOf k) (sliceInBlock k)) * x (ix4 b (Cert.Spec.posOf k) (sliceInBlock k) f) := by
  unfold k0_pay2
  refine (congrFun (shapeCast_self _ _) _).trans ?_
  refine (addf_apply _ _ _).trans ?_
  refine congrArg (a (ix2 b f) + ·) ?_
  refine (productRow_apply _ b f).trans ?_
  refine (reduceDot_apply _ _ b f).trans ?_
  refine Finset.sum_congr rfl fun k _ => ?_
  refine congrArg₂ (· * ·) ?_ (mergedFeat_apply x b k f)
  refine (mergedWeight_apply _ b k).trans ?_
  exact congrFun (shapeCast_self _ _) _

variable (V : (c : Dev nD) → (b : Ref sig .tc) → Buf (Elt Ideal) ((c : Thread nD τ).loc b))

/-! ## The accumulator after an odd point, at an index -/

/-- After an odd point the accumulator holds zero plus the weighted sum over the block of the point before (which is
    even, so the accumulator was reset there), plus the weighted sum over this point's block. -/
theorem accum_odd_apply (c : Dev nD) (t : Fin cfg0.N) (h : t.val % 2 = 1) (hlt : t.val - 1 < cfg0.N) (b : Fin 8) (f : Fin 256) :
    (accum V c t.val t.isLt : S8x256.Idx → EReal) (ix2 b f)
      = (Cert.Spec.c0 + ∑ k : Fin 1024, (wblk V c ⟨t.val - 1, hlt⟩ : S8x8x128.Idx → EReal) (ix3 b (Cert.Spec.posOf k) (sliceInBlock k))
            * (fblk V c ⟨t.val - 1, hlt⟩ : S8x8x128x256.Idx → EReal) (ix4 b (Cert.Spec.posOf k) (sliceInBlock k) f))
        + ∑ k : Fin 1024, (wblk V c t : S8x8x128.Idx → EReal) (ix3 b (Cert.Spec.posOf k) (sliceInBlock k))
            * (fblk V c t : S8x8x128x256.Idx → EReal) (ix4 b (Cert.Spec.posOf k) (sliceInBlock k) f) := by
  have e1 := accum_odd V c t (by omega)
  have e0 := accum_even V c ⟨t.val - 1, hlt⟩ (by show (t.val - 1) % 2 = 0; omega)
  refine (congrFun e1 (ix2 b f)).trans ?_
  refine (k0_pay2_apply (fblk V c t) (wblk V c t) (accum V c (t.val - 1) (Nat.lt_of_le_of_lt (Nat.sub_le _ _) t.isLt)) b f).trans ?_
  refine congrArg (· + _) ?_
  refine (congrFun e0 (ix2 b f)).trans ?_
  refine (k0_pay2_apply (fblk V c ⟨t.val - 1, hlt⟩) (wblk V c ⟨t.val - 1, hlt⟩) (k0_pay1 (F := Ideal)) b f).trans ?_
  rfl

/-! ## The written-back block, at an index -/

/-- What an odd point `t` writes back at block row `b`, feature `f` is the kernel's form at array row 8·(t/2) + b:
    the point before reads slices 0..127 (the lower half), this one slices 128..255 (the upper half), both at the rows
    8·(t/2) .. 8·(t/2)+7. -/
theorem written0_apply (c : Dev nD) (t : Fin cfg0.N) (h : t.val % 2 = 1) (b : Fin 8) (f : Fin 256) (r : Fin 64)
    (hr : r.val = 8 * (t.val / 2) + b.val) :
    (k0_pay3 (accum V c t.val t.isLt) : S8x256.Idx → EReal) (ix2 b f)
      = Cert.Spec.kernelLocalW (fun r s d f => (V c main_arg0 : S64x8x256x256.Idx → EReal) (ix4 r s d f))
          (fun r s d => (V c main_v15 : S64x8x256.Idx → EReal) (ix3 r s d)) r f := by
  have hlt : t.val - 1 < cfg0.N := Nat.lt_of_le_of_lt (Nat.sub_le _ _) t.isLt
  refine (k0_pay3_apply (accum V c t.val t.isLt) b f).trans ?_
  unfold Cert.Spec.kernelLocalW
  refine congrArg (· * Cert.Spec.cInv8) ?_
  refine (accum_odd_apply V c t h hlt b f).trans ?_
  refine congrArg₂ (· + ·) (congrArg (Cert.Spec.c0 + ·) (Finset.sum_congr rfl fun k _ => ?_)) (Finset.sum_congr rfl fun k _ => ?_)
  · refine congrArg₂ (· * ·) ?_ ?_
    · exact wblk_apply V c ⟨t.val - 1, hlt⟩ b (Cert.Spec.posOf k) (sliceInBlock k) r (Cert.Spec.sliceLo k)
        (by show r.val = 8 * ((t.val - 1) / 2) + b.val; omega)
        (by show k.val % 128 = 128 * ((t.val - 1) % 2) + k.val % 128; omega)
    · exact fblk_apply V c ⟨t.val - 1, hlt⟩ b (Cert.Spec.posOf k) (sliceInBlock k) f r (Cert.Spec.sliceLo k)
        (by show r.val = 8 * ((t.val - 1) / 2) + b.val; omega)
        (by show k.val % 128 = 128 * ((t.val - 1) % 2) + k.val % 128; omega)
  · refine congrArg₂ (· * ·) ?_ ?_
    · exact wblk_apply V c t b (Cert.Spec.posOf k) (sliceInBlock k) r (Cert.Spec.sliceHi k) hr
        (by show 128 + k.val % 128 = 128 * (t.val % 2) + k.val % 128; omega)
    · exact fblk_apply V c t b (Cert.Spec.posOf k) (sliceInBlock k) f r (Cert.Spec.sliceHi k) hr
        (by show 128 + k.val % 128 = 128 * (t.val % 2) + k.val % 128; omega)

/-! ## From the blocks to the array -/

/-- Region 0's output array as one function of the feature array and the weight array the region finds: the kernel's
    form at every (row, feature). -/
def localArr0 (c : Dev nD) : S64x256.Idx → EReal := fun i =>
  Cert.Spec.kernelLocalW (fun r s d f => (V c main_arg0 : S64x8x256x256.Idx → EReal) (ix4 r s d f))
    (fun r s d => (V c main_v15 : S64x8x256.Idx → EReal) (ix3 r s d)) (i 0) (i 1)

/-- The output window's block index at point `t` of the 8 × 2 row-major grid: (t/2, 0). -/
theorem outIndex0 : ∀ t : Fin cfg0.N, win0_2.index t (0 : Fin 2) = t.val / 2 ∧ win0_2.index t (1 : Fin 2) = 0 :=
  (by decide +kernel : ∀ t : Fin grid0.N, win0_2.index t (0 : Fin 2) = t.val / 2 ∧ win0_2.index t (1 : Fin 2) = 0)

/-- What a writing point writes back is its block of `localArr0`: block coordinate (j₀, j₁) of point `t` is array
    index (8·(t/2) + j₀, j₁). -/
theorem flushed0_2_eq (c : Dev nD) (t : Fin cfg0.N) (hf : (cfg0.win 2).flush t = true) :
    (dat0 (F := Ideal) V c).flushed 2 t = ((cfg0.win 2).blk t).view.read (Elt Ideal) (localArr0 V c) := by
  have hodd : t.val % 2 = 1 := (flush0_2 t).mp hf
  have hN : cfg0.N = 16 := N_0
  have htl : t.val < 16 := hN ▸ t.isLt
  show (cfg0.win 2).cut (grid0.coords t) ((dat0 V c).after 2 t) = _
  rw [after0_2]
  funext j
  have hj0 : (j 0).val < 8 := (j 0).isLt
  have hj1 : (j 1).val < 256 := (j 1).isLt
  obtain ⟨e0, e1⟩ := outIndex0 t
  have hx : (cfg0.win 2).xinj (grid0.coords t) j = ix2 (⟨(j 0).val, hj0⟩ : Fin 8) (⟨(j 1).val, hj1⟩ : Fin 256) :=
    funext fun a => by
      match a with
      | ⟨0, _⟩ => rfl
      | ⟨1, _⟩ => rfl
  have hy : ((cfg0.win 2).blk t).view.emb j
      = ix2 (⟨8 * (t.val / 2) + (j 0).val, by omega⟩ : Fin 64) (⟨(j 1).val, hj1⟩ : Fin 256) := by
    funext a; apply Fin.ext
    match a with
    | ⟨0, _⟩ => show win0_2.index t (0 : Fin 2) * 8 + 1 * (j 0).val = 8 * (t.val / 2) + (j 0).val; omega
    | ⟨1, _⟩ => show win0_2.index t (1 : Fin 2) * 256 + 1 * (j 1).val = (j 1).val; omega
  show (k0_pay3 (accum V c t.val t.isLt) : S8x256.Idx → EReal) ((cfg0.win 2).xinj (grid0.coords t) j)
    = localArr0 V c (((cfg0.win 2).blk t).view.emb j)
  rw [hx, hy]
  exact written0_apply V c t hodd _ _ _ rfl

/-- Every index of the output array is in the block of a writing point: row `r` in that of point 2·(r/8) + 1, whose
    block is rows 8·(r/8) .. 8·(r/8)+7 and all 256 features. -/
theorem cover0_2 (i : S64x256.Idx) : ∃ t : Fin cfg0.N, (cfg0.win 2).flush t = true ∧ i ∈ ((cfg0.win 2).blk t).view.set := by
  have hN : cfg0.N = 16 := N_0
  have hi0 : (i 0).val < 64 := (i 0).isLt
  have hi1 : (i 1).val < 256 := (i 1).isLt
  have ht : 2 * ((i 0).val / 8) + 1 < cfg0.N := by rw [hN]; omega
  refine ⟨⟨2 * ((i 0).val / 8) + 1, ht⟩, (flush0_2 _).mpr (by show (2 * ((i 0).val / 8) + 1) % 2 = 1; omega), ?_⟩
  obtain ⟨e0, e1⟩ := outIndex0 ⟨2 * ((i 0).val / 8) + 1, ht⟩
  have e0' : win0_2.index ⟨2 * ((i 0).val / 8) + 1, ht⟩ (0 : Fin 2) = (2 * ((i 0).val / 8) + 1) / 2 := e0
  show i ∈ ((View.whole main_v16).slice (win0_2.rect ⟨2 * ((i 0).val / 8) + 1, ht⟩)).set
  rw [View.set_slice_whole, Rect.mem_set_unit]
  intro a
  match a with
  | ⟨0, _⟩ =>
    show win0_2.index ⟨2 * ((i 0).val / 8) + 1, ht⟩ (0 : Fin 2) * 8 ≤ (i 0).val
      ∧ (i 0).val < win0_2.index ⟨2 * ((i 0).val / 8) + 1, ht⟩ (0 : Fin 2) * 8 + 8
    omega
  | ⟨1, _⟩ =>
    show win0_2.index ⟨2 * ((i 0).val / 8) + 1, ht⟩ (1 : Fin 2) * 256 ≤ (i 1).val
      ∧ (i 1).val < win0_2.index ⟨2 * ((i 0).val / 8) + 1, ht⟩ (1 : Fin 2) * 256 + 256
    omega

/-- Region 0's output array after the region is `localArr0`: every written-back block is its block of that one
    function, and the written-back blocks cover the array. -/
theorem arr0_eq (c : Dev nD) : (dat0 (F := Ideal) V c).arrAt 2 cfg0.N = localArr0 V c :=
  (dat0 (F := Ideal) V c).arrAt_eq_of_cover 2 (localArr0 V c) (flushed0_2_eq V c) cover0_2

end ArrLocal

variable (V : (c : Dev nD) → (b : Ref sig .tc) → Buf (Elt Ideal) ((c : Thread nD τ).loc b))

/-- Region 0's output array at row `r`, feature `f`: the kernel's form over the feature array and the weight array
    as the region finds them. -/
theorem arr0_apply (c : Dev nD) (r : Fin 64) (f : Fin 256) :
    ((dat0 (F := Ideal) V c).arrAt 2 cfg0.N : S64x256.Idx → EReal) (ix2 r f)
      = Cert.Spec.kernelLocalW (fun r s d f => (V c main_arg0 : S64x8x256x256.Idx → EReal) (ix4 r s d f))
          (fun r s d => (V c main_v15 : S64x8x256.Idx → EReal) (ix3 r s d)) r f := by
  rw [ArrLocal.arr0_eq V c]
  rfl

end Cert.KernelIdeal.Hand

end
-- ==== Proof.ArrOut.lean ====
/-
  Region 1's output array after the region (any float instance): the layer's value of the three arrays the region
  finds; and, at the ideal instance, that value is the reference's last four stages applied to the same activations:
  both are max (Σ_k x[r,k]·W[f,k] + b[f], 0).
-/
import proofs.«413354_j28028956574145_3_alg».proof.Proof.Mlp
import proofs.«413354_j28028956574145_3_alg».proof.Proof.RefRead
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

namespace Cert.KernelIdeal.Hand

open Idealize.ShloMosaic Idealize.ShloMosaic.TcCoe Idealize.SL.Sem
open Idealize.ShloMosaic.Pipeline (Dat)
open Cert.KernelIdeal Cert.KernelIdeal.Gen
open Idealize.ShloMosaic.ValueIdx

section AnyF
variable {F : FTy → Type} [FloatOps F]
variable (V : (c : Dev nD) → (b : Ref sig .tc) → Buf (Elt F) ((c : Thread nD τ).loc b))

/-- Region 1's output array after its one point: the layer's value of the whole arrays. -/
theorem arr1_eq (c : Dev nD) :
    (dat1 V c).arrAt 3 cfg1.N = k1_pay1 (V c main_v16) (V c main_arg2) (V c main_arg3) := by
  -- each input window's block is its whole array read at block index zero: the array itself
  have hx : ∀ t : Fin cfg1.N, xblk V c t = V c main_v16 := fun t =>
    Memref.read_access_unit_zero (Elt F) main_v16 (off := fun a => win1_0.index t a * S64x256.size a)
      (funext fun a => by fin_cases a <;> rfl) (fun a => by fin_cases a <;> exact Nat.le_refl _) (V c main_v16)
  have hm : ∀ t : Fin cfg1.N, mblk V c t = V c main_arg2 := fun t =>
    Memref.read_access_unit_zero (Elt F) main_arg2 (off := fun a => win1_1.index t a * S256x256.size a)
      (funext fun a => by fin_cases a <;> rfl) (fun a => by fin_cases a <;> exact Nat.le_refl _) (V c main_arg2)
  have hb : ∀ t : Fin cfg1.N, bblk V c t = V c main_arg3 := fun t =>
    Memref.read_access_unit_zero (Elt F) main_arg3 (off := fun a => win1_2.index t a * S256.size a)
      (funext fun a => by fin_cases a <;> rfl) (fun a => by fin_cases a <;> exact Nat.le_refl _) (V c main_arg3)
  -- the grid's one point
  have t0 : Fin cfg1.N := ⟨0, by decide⟩
  refine (dat1 V c).arrAt_eq_of_cover 3 (k1_pay1 (V c main_v16) (V c main_arg2) (V c main_arg3)) (fun t _ => ?_)
    (fun i => ⟨t0, flush1_3 t0, ?_⟩)
  · -- what a point writes back is the layer's value of the whole arrays, read through the whole-array block
    show (cfg1.win 3).cut (grid1.coords t) ((dat1 V c).after 3 t) = _
    rw [after1_3, hx, hm, hb]
    exact (Memref.read_access_unit_zero (Elt F) main_v17 (off := fun a => win1_3.index t a * S64x256.size a)
      (funext fun a => by fin_cases a <;> rfl) (fun a => by fin_cases a <;> exact Nat.le_refl _)
      (k1_pay1 (V c main_v16) (V c main_arg2) (V c main_arg3))).symm
  · -- the output's block at the point is the whole array: it covers every index
    show i ∈ ((View.whole main_v17).slice (win1_3.rect t0)).set
    rw [View.set_slice_whole]
    exact View.mem_set_unit_zero (S := S64x256) (off := fun a => win1_3.index t0 a * S64x256.size a)
      (funext fun a => by fin_cases a <;> rfl) (fun a => by fin_cases a <;> exact Nat.le_refl _) i

end AnyF

/-- The reference's last stages as a function of the activations: transpose the weights, contract, add the
    broadcast bias, clamp below at zero. -/
def refLayer (x : (⟨Cert.ReferenceIdeal.S64x256, .f32⟩ : BufTy).Contents (Elt Ideal))
    (W : (⟨Cert.ReferenceIdeal.S256x256, .f32⟩ : BufTy).Contents (Elt Ideal))
    (b : (⟨Cert.ReferenceIdeal.S256, .f32⟩ : BufTy).Contents (Elt Ideal)) :
    (⟨Cert.ReferenceIdeal.S64x256, .f32⟩ : BufTy).Contents (Elt Ideal) :=
  maximumf (F := Ideal) (φ := .f32) (addf (F := Ideal) (φ := .f32) (Host.dotGeneral (F := Ideal) (φ₁ := .f32) (φ₂ := .f32) Cert.ReferenceIdeal.dot_S64x256_S256x256_S64x256_1_0_0_1_n_n none x (Cert.ReferenceIdeal.ReadP.val_main_v17 (F := Ideal) W))
      (Cert.ReferenceIdeal.ReadP.val_main_v20 (F := Ideal) b)) (Cert.ReferenceIdeal.ReadP.val_main_call3_v0 (F := Ideal))

/-- The reference's result stage is its last stages applied to its activations stage. -/
theorem val_result_eq (feat : (⟨Cert.ReferenceIdeal.S64x8x256x256, .f32⟩ : BufTy).Contents (Elt Ideal))
    (ks : (⟨Cert.ReferenceIdeal.S64x8, .i32⟩ : BufTy).Contents (Elt Ideal))
    (W : (⟨Cert.ReferenceIdeal.S256x256, .f32⟩ : BufTy).Contents (Elt Ideal))
    (b : (⟨Cert.ReferenceIdeal.S256, .f32⟩ : BufTy).Contents (Elt Ideal)) :
    Cert.ReferenceIdeal.ReadP.val_main_v22 (F := Ideal) feat ks W b
      = refLayer (Cert.ReferenceIdeal.ReadP.val_main_v16 (F := Ideal) feat ks) W b := by
  unfold Cert.ReferenceIdeal.ReadP.val_main_v22 Cert.ReferenceIdeal.ReadP.val_main_v21
    Cert.ReferenceIdeal.ReadP.val_main_v18 refLayer
  rfl

/-! ## The layer at the ideal instance, read at a row and a feature -/

namespace ArrOut

/-- The kernel's contraction reads its left operand at the output's row -/
theorem klhs_0 (i : S64x256.Idx) (k : Cert.KernelIdeal.dot_S64x256_S256x256_S64x256_1_0_0_1_n_n.contr.Idx) :
    (Cert.KernelIdeal.dot_S64x256_S256x256_S64x256_1_0_0_1_n_n.lhsIdx i k 0).val = (i 0).val := by
  unfold DotDims.lhsIdx
  rw [dif_neg (show ¬(0 : Fin S64x256.rank) ∈ Cert.KernelIdeal.dot_S64x256_S256x256_S64x256_1_0_0_1_n_n.lhsBatch by decide),
    dif_pos (show (0 : Fin S64x256.rank) ∈ Cert.KernelIdeal.dot_S64x256_S256x256_S64x256_1_0_0_1_n_n.lhsNonContracting by decide)]
  rfl
/-- and the contraction's coordinate, -/
theorem klhs_1 (i : S64x256.Idx) (k : Cert.KernelIdeal.dot_S64x256_S256x256_S64x256_1_0_0_1_n_n.contr.Idx) :
    (Cert.KernelIdeal.dot_S64x256_S256x256_S64x256_1_0_0_1_n_n.lhsIdx i k 1).val = (k ⟨0, by decide⟩).val :=
  Cert.KernelIdeal.dot_S64x256_S256x256_S64x256_1_0_0_1_n_n.lhsIdx_val_of_single rfl i k
/-- its right operand at the contraction's coordinate -/
theorem krhs_0 (i : S64x256.Idx) (k : Cert.KernelIdeal.dot_S64x256_S256x256_S64x256_1_0_0_1_n_n.contr.Idx) :
    (Cert.KernelIdeal.dot_S64x256_S256x256_S64x256_1_0_0_1_n_n.rhsIdx i k 0).val = (k ⟨0, by decide⟩).val :=
  Cert.KernelIdeal.dot_S64x256_S256x256_S64x256_1_0_0_1_n_n.rhsIdx_val_of_single rfl i k
/-- and the output's feature. -/
theorem krhs_1 (i : S64x256.Idx) (k : Cert.KernelIdeal.dot_S64x256_S256x256_S64x256_1_0_0_1_n_n.contr.Idx) :
    (Cert.KernelIdeal.dot_S64x256_S256x256_S64x256_1_0_0_1_n_n.rhsIdx i k 1).val = (i 1).val := by
  unfold DotDims.rhsIdx
  rw [dif_neg (show ¬(1 : Fin S256x256.rank) ∈ Cert.KernelIdeal.dot_S64x256_S256x256_S64x256_1_0_0_1_n_n.rhsBatch by decide),
    dif_pos (show (1 : Fin S256x256.rank) ∈ Cert.KernelIdeal.dot_S64x256_S256x256_S64x256_1_0_0_1_n_n.rhsNonContracting by decide)]
  rfl

/-- The kernel's layer at row `p` and feature `q`: max (Σ_k x[p,k]·W[q,k] + b[q], 0). The two format changes are
    the identity on ideal values; the transposed weights at (k, q) are the weights at (q, k); the bias is cast to one
    row and that row repeated. -/
theorem k1_pay1_apply (x : Vec Ideal S64x256 .f32) (W : Vec Ideal S256x256 .f32) (b : Vec Ideal S256 .f32)
    (p : Fin 64) (q : Fin 256) :
    k1_pay1 (F := Ideal) x W b (ix2 p q)
      = max ((∑ k : Fin 256, x (ix2 p k) * W (ix2 q k)) + b (ix1 q)) 0 := by
  unfold k1_pay1
  dsimp only
  rw [maximumf_apply, addf_apply, broadcast_apply]
  refine congrArg₂ max (congrArg₂ (· + ·) ?_ ?_) ?_
  · -- the product into the zero accumulator is the sum over the contraction's one coordinate
    refine (Ideal.matmul_constant_zero_apply Cert.KernelIdeal.dot_S64x256_S256x256_S64x256_1_0_0_1_n_n none _ _ (ix2 p q)).trans ?_
    rw [← Equiv.sum_comp (contrEquiv1 Cert.KernelIdeal.dot_S64x256_S256x256_S64x256_1_0_0_1_n_n 256 rfl rfl).symm]
    refine Finset.sum_congr rfl fun k _ => ?_
    have hk := contrEquiv1_symm_val Cert.KernelIdeal.dot_S64x256_S256x256_S64x256_1_0_0_1_n_n 256 rfl rfl k
    have el : Cert.KernelIdeal.dot_S64x256_S256x256_S64x256_1_0_0_1_n_n.lhsIdx (ix2 p q) ((contrEquiv1 Cert.KernelIdeal.dot_S64x256_S256x256_S64x256_1_0_0_1_n_n 256 rfl rfl).symm k) = ix2 p k :=
      funext fun a => Fin.ext (by
        match a with
        | ⟨0, _⟩ => exact klhs_0 _ _
        | ⟨1, _⟩ => exact (klhs_1 _ _).trans hk)
    have er : Cert.KernelIdeal.dot_S64x256_S256x256_S64x256_1_0_0_1_n_n.rhsIdx (ix2 p q) ((contrEquiv1 Cert.KernelIdeal.dot_S64x256_S256x256_S64x256_1_0_0_1_n_n 256 rfl rfl).symm k) = ix2 k q :=
      funext fun a => Fin.ext (by
        match a with
        | ⟨0, _⟩ => exact (krhs_0 _ _).trans hk
        | ⟨1, _⟩ => exact krhs_1 _ _)
    rw [el, er]
    exact congrArg₂ (· * ·) (congrFun (shapeCast_self x _) (ix2 p k)) (transpose_ix2_apply _ _ k q)
  · -- the bias: one row of 256, repeated over the 64 rows
    exact (broadcastTo_1b_ab_apply _ _ p q).trans (shapeCast_a_1a_apply b _ 0 q)
  · exact Ideal.ofBits_zero_f32

/-- The reference's last stages at row `p` and feature `q`: the same expression. -/
theorem refLayer_apply (x : (⟨Cert.ReferenceIdeal.S64x256, .f32⟩ : BufTy).Contents (Elt Ideal))
    (W : (⟨Cert.ReferenceIdeal.S256x256, .f32⟩ : BufTy).Contents (Elt Ideal))
    (b : (⟨Cert.ReferenceIdeal.S256, .f32⟩ : BufTy).Contents (Elt Ideal)) (p : Fin 64) (q : Fin 256) :
    refLayer x W b (ix2 p q)
      = max ((∑ k : Fin 256, x (ix2 p k) * W (ix2 q k)) + b (ix1 q)) 0 := by
  unfold refLayer
  rw [maximumf_apply, addf_apply]
  refine congrArg₂ max (congrArg₂ (· + ·) ?_ ?_) ?_
  · -- the contraction is the sum over its one coordinate; the transposed weights at (k, q) are the weights at (q, k)
    generalize hW' : Cert.ReferenceIdeal.ReadP.val_main_v17 (F := Ideal) W = W'
    simp only [Host.dotGeneral]
    rw [Ideal.dotGeneral_apply, ← Equiv.sum_comp (contrEquiv1 Cert.ReferenceIdeal.dot_S64x256_S256x256_S64x256_1_0_0_1_n_n 256 rfl rfl).symm]
    refine Finset.sum_congr rfl fun k _ => ?_
    have hk := contrEquiv1_symm_val Cert.ReferenceIdeal.dot_S64x256_S256x256_S64x256_1_0_0_1_n_n 256 rfl rfl k
    have el : Cert.ReferenceIdeal.dot_S64x256_S256x256_S64x256_1_0_0_1_n_n.lhsIdx (ix2 p q) ((contrEquiv1 Cert.ReferenceIdeal.dot_S64x256_S256x256_S64x256_1_0_0_1_n_n 256 rfl rfl).symm k) = ix2 p k :=
      funext fun a => Fin.ext (by
        match a with
        | ⟨0, _⟩ => exact Cert.ReferenceIdeal.ReadP.lhs_main_v18_0 _ _
        | ⟨1, _⟩ => exact (Cert.ReferenceIdeal.ReadP.lhs_main_v18_1 _ _).trans hk)
    have er : Cert.ReferenceIdeal.dot_S64x256_S256x256_S64x256_1_0_0_1_n_n.rhsIdx (ix2 p q) ((contrEquiv1 Cert.ReferenceIdeal.dot_S64x256_S256x256_S64x256_1_0_0_1_n_n 256 rfl rfl).symm k) = ix2 k q :=
      funext fun a => Fin.ext (by
        match a with
        | ⟨0, _⟩ => exact (Cert.ReferenceIdeal.ReadP.rhs_main_v18_0 _ _).trans hk
        | ⟨1, _⟩ => exact Cert.ReferenceIdeal.ReadP.rhs_main_v18_1 _ _)
    rw [el, er, ← hW', Cert.ReferenceIdeal.ReadP.val_main_v17_apply]
    exact congrArg (fun j => x (ix2 p k) * W j) (funext fun a => match a with
      | ⟨0, _⟩ => rfl
      | ⟨1, _⟩ => rfl)
  · -- the bias, broadcast to one row and then to every row
    exact ((Cert.ReferenceIdeal.ReadP.val_main_v20_apply b _).trans (Cert.ReferenceIdeal.ReadP.val_main_v19_apply b _)).trans
      (congrArg b (funext fun a => match a with
        | ⟨0, _⟩ => rfl))
  · exact (Cert.ReferenceIdeal.ReadP.val_main_call3_v0_apply _).trans Ideal.ofBits_zero_f32

end ArrOut

/-- At the ideal instance the kernel's layer is the reference's. -/
theorem layer_eq (x : Vec Ideal S64x256 .f32) (W : Vec Ideal S256x256 .f32) (b : Vec Ideal S256 .f32) :
    k1_pay1 (F := Ideal) x W b = refLayer x W b := by
  funext i
  obtain ⟨p, q, rfl⟩ : ∃ (p : Fin 64) (q : Fin 256), i = ix2 p q := ⟨i 0, i 1, eq_ix2 i⟩
  exact (ArrOut.k1_pay1_apply x W b p q).trans (ArrOut.refLayer_apply x W b p q).symm

end Cert.KernelIdeal.Hand

end
-- ==== Proof.Weights.lean ====
/-
  The weight array the host operations before region 0 build from the index words, at the ideal instance, read at an
  index: the indicator of the clipped slice where the word is valid, 1/256 elsewhere.
-/
import proofs.«413354_j28028956574145_3_alg».proof.Proof.Gen.KernelIdeal.Regions
import proofs.«413354_j28028956574145_3_alg».proof.Proof.Spec
import Idealize.ShloMosaic.Lib.Pipeline.Value
import Idealize.ShloMosaic.Lib.ValueIdx
import Idealize.ShloMosaic.Lib.ValueLayout
import Idealize.ShloMosaic.Lib.StableHlo.Run
import Idealize.ShloMosaic.Lib.StableHlo.Predicate

set_option maxRecDepth 16384

noncomputable section

namespace Cert.KernelIdeal.Hand

open Idealize.ShloMosaic Idealize.ShloMosaic.TcCoe Idealize.SL.Sem
open Cert.KernelIdeal Cert.KernelIdeal.Gen
open Idealize.ShloMosaic.ValueIdx

namespace Weights

/-! ## What each host stretch writes, as a function of the contents it starts from -/

/-- The select stretch: the weight array is the select of the validity bit, spread along the slice axis, between the
    one-hot array and the uniform array. -/
theorem stretch3_v15 (W : Valuation τ sig (Elt Ideal)) :
    (StableHlo.after (hostOps0_3 (F := Ideal)) W (Proc.devRef .tc main_v15) : S64x8x256.Idx → EReal)
      = select (broadcastInDim S64x8x256 ![0, 1, 2] bcast_S64x8x1_S64x8x256_0_1_2 (W (Proc.devRef .tc main_v14) : S64x8x1.Idx → BitVec 1))
          (W (Proc.devRef .tc main_v12) : S64x8x256.Idx → EReal) (W (Proc.devRef .tc main_v13) : S64x8x256.Idx → EReal) := by
  after_results
  rfl

/-- The one-hot array: the bit "clipped word, spread along the slice axis, equals the slice number, spread over the
    positions", converted to a number. -/
theorem stretch2_v12 (W : Valuation τ sig (Elt Ideal)) :
    (StableHlo.after (hostOps0_2 (F := Ideal)) W (Proc.devRef .tc main_v12) : S64x8x256.Idx → EReal)
      = uitofp (F := Ideal) .f32 (cmpi .eq
          (broadcastInDim S64x8x256 ![0, 1, 2] bcast_S64x8x1_S64x8x256_0_1_2
            (broadcastInDim S64x8x1 ![0, 1] bcast_S64x8_S64x8x1_0_1 (W (Proc.devRef .tc main_v5) : S64x8.Idx → BitVec 32)))
          (broadcastInDim S64x8x256 ![0, 1, 2] bcast_S1x1x256_S64x8x256_0_1_2
            (broadcastInDim S1x1x256 ![2] bcast_S256_S1x1x256_2 (iotaInDim S256 32 0)))) := by
  after_results

/-- The uniform array: the literal spread over every position and slice. -/
theorem stretch2_v13 (W : Valuation τ sig (Elt Ideal)) :
    (StableHlo.after (hostOps0_2 (F := Ideal)) W (Proc.devRef .tc main_v13) : S64x8x256.Idx → EReal)
      = broadcastInDim S64x8x256 ![] bcast_S_S64x8x256 (constant (F := Ideal) S_ .f32 0x3B800000#32) := by
  after_results

/-- The validity bits with a unit slice axis appended. -/
theorem stretch2_v14 (W : Valuation τ sig (Elt Ideal)) :
    (StableHlo.after (hostOps0_2 (F := Ideal)) W (Proc.devRef .tc main_v14) : S64x8x1.Idx → BitVec 1)
      = broadcastInDim S64x8x1 ![0, 1] bcast_S64x8_S64x8x1_0_1 (W (Proc.devRef .tc main_v4) : S64x8.Idx → BitVec 1) := by
  after_results

/-- The clipped words: the signed minimum with the upper bound of the signed maximum with the lower bound. -/
theorem stretch1_v5 (W : Valuation τ sig (Elt Ideal)) :
    (StableHlo.after (hostOps0_1 (F := Ideal)) W (Proc.devRef .tc main_v5) : S64x8.Idx → BitVec 32)
      = minsi (broadcastInDim S64x8 ![] bcast_S_S64x8 (W (Proc.devRef .tc main_c_2) : S_.Idx → BitVec 32))
          (maxsi (broadcastInDim S64x8 ![] bcast_S_S64x8 (W (Proc.devRef .tc main_c_1) : S_.Idx → BitVec 32))
            (W (Proc.devRef .tc main_arg1) : S64x8.Idx → BitVec 32)) := by
  after_results
  rfl

/-- The validity bits: the and of "word ≥ 0" and "word < 256", both signed. -/
theorem stretch0_v4 (W : Valuation τ sig (Elt Ideal)) :
    (StableHlo.after (hostOps0 (F := Ideal)) W (Proc.devRef .tc main_v4) : S64x8.Idx → BitVec 1)
      = andi (cmpi .sge (W (Proc.devRef .tc main_arg1) : S64x8.Idx → BitVec 32) (broadcastInDim S64x8 ![] bcast_S_S64x8 (constantI S_ 32 0#32)))
          (cmpi .slt (W (Proc.devRef .tc main_arg1) : S64x8.Idx → BitVec 32) (broadcastInDim S64x8 ![] bcast_S_S64x8 (constantI S_ 32 256#32))) := by
  after_results

/-- The clip's lower bound is the literal 0 … -/
theorem stretch0_c1 (W : Valuation τ sig (Elt Ideal)) :
    (StableHlo.after (hostOps0 (F := Ideal)) W (Proc.devRef .tc main_c_1) : S_.Idx → BitVec 32) = constantI S_ 32 0#32 := by
  after_results

/-- … and its upper bound the literal 255. -/
theorem stretch0_c2 (W : Valuation τ sig (Elt Ideal)) :
    (StableHlo.after (hostOps0 (F := Ideal)) W (Proc.devRef .tc main_c_2) : S_.Idx → BitVec 32) = constantI S_ 32 255#32 := by
  after_results

/-! ## The broadcasts read at an index -/

/-- A scalar spread over [64, 8] reads the scalar. -/
theorem bcast_scalar2 {α : Type} (x : S_.Idx → α) (r : Fin 64) (s : Fin 8) :
    broadcastInDim S64x8 ![] bcast_S_S64x8 x (ix2 r s) = x ix0 :=
  broadcastInDim_apply _ bcast_S_S64x8 x (ix2 r s) ix0 (fun a => a.elim0)

/-- A scalar spread over [64, 8, 256] reads the scalar. -/
theorem bcast_scalar3 {α : Type} (x : S_.Idx → α) (r : Fin 64) (s : Fin 8) (d : Fin 256) :
    broadcastInDim S64x8x256 ![] bcast_S_S64x8x256 x (ix3 r s d) = x ix0 :=
  broadcastInDim_apply _ bcast_S_S64x8x256 x (ix3 r s d) ix0 (fun a => a.elim0)

/-- [64, 8] with a unit slice axis appended reads the position. -/
theorem bcast_unit {α : Type} (x : S64x8.Idx → α) (r : Fin 64) (s : Fin 8) (z : Fin 1) :
    broadcastInDim S64x8x1 ![0, 1] bcast_S64x8_S64x8x1_0_1 x (ix3 r s z) = x (ix2 r s) :=
  broadcastInDim_apply _ bcast_S64x8_S64x8x1_0_1 x (ix3 r s z) (ix2 r s) (fun a => match a with
    | ⟨0, _⟩ => by show r.val = if (64 : Nat) = 1 then 0 else r.val; rw [if_neg (by decide)]
    | ⟨1, _⟩ => by show s.val = if (8 : Nat) = 1 then 0 else s.val; rw [if_neg (by decide)])

/-- The unit slice axis spread over the 256 slices reads the position's entry. -/
theorem bcast_slices {α : Type} (x : S64x8x1.Idx → α) (r : Fin 64) (s : Fin 8) (d : Fin 256) :
    broadcastInDim S64x8x256 ![0, 1, 2] bcast_S64x8x1_S64x8x256_0_1_2 x (ix3 r s d) = x (ix3 r s (0 : Fin 1)) :=
  broadcastInDim_apply _ bcast_S64x8x1_S64x8x256_0_1_2 x (ix3 r s d) (ix3 r s (0 : Fin 1)) (fun a => match a with
    | ⟨0, _⟩ => by show r.val = if (64 : Nat) = 1 then 0 else r.val; rw [if_neg (by decide)]
    | ⟨1, _⟩ => by show s.val = if (8 : Nat) = 1 then 0 else s.val; rw [if_neg (by decide)]
    | ⟨2, _⟩ => by show (0 : Nat) = if (1 : Nat) = 1 then 0 else d.val; rw [if_pos rfl])

/-- The slice numbers as a [1, 1, 256] row read the slice. -/
theorem bcast_row {α : Type} (x : S256.Idx → α) (d : Fin 256) :
    broadcastInDim S1x1x256 ![2] bcast_S256_S1x1x256_2 x (ix3 (0 : Fin 1) (0 : Fin 1) d) = x (ix1 d) :=
  broadcastInDim_apply _ bcast_S256_S1x1x256_2 x (ix3 (0 : Fin 1) (0 : Fin 1) d) (ix1 d) (fun a => match a with
    | ⟨0, _⟩ => by show d.val = if (256 : Nat) = 1 then 0 else d.val; rw [if_neg (by decide)])

/-- The row spread over all positions reads the row at the slice. -/
theorem bcast_positions {α : Type} (x : S1x1x256.Idx → α) (r : Fin 64) (s : Fin 8) (d : Fin 256) :
    broadcastInDim S64x8x256 ![0, 1, 2] bcast_S1x1x256_S64x8x256_0_1_2 x (ix3 r s d) = x (ix3 (0 : Fin 1) (0 : Fin 1) d) :=
  broadcastInDim_apply _ bcast_S1x1x256_S64x8x256_0_1_2 x (ix3 r s d) (ix3 (0 : Fin 1) (0 : Fin 1) d) (fun a => match a with
    | ⟨0, _⟩ => by show (0 : Nat) = if (1 : Nat) = 1 then 0 else r.val; rw [if_pos rfl]
    | ⟨1, _⟩ => by show (0 : Nat) = if (1 : Nat) = 1 then 0 else s.val; rw [if_pos rfl]
    | ⟨2, _⟩ => by show d.val = if (256 : Nat) = 1 then 0 else d.val; rw [if_neg (by decide)])

/-! ## The words' arithmetic -/

/-- The and of the two signed compares is set exactly when the word names a slice. -/
theorem valid_bit (k : BitVec 32) :
    IntOp.andi (IntOp.cmpi .sge k 0#32) (IntOp.cmpi .slt k 256#32) = 1#1 ↔ Cert.Spec.validOf k := by
  have h0 : (0#32 : BitVec 32).toInt = 0 := by decide
  have h256 : (256#32 : BitVec 32).toInt = 256 := by decide
  unfold Cert.Spec.validOf IntOp.andi IntOp.cmpi
  simp only [BitVec.sle, BitVec.slt, h0, h256]
  by_cases a : 0 ≤ k.toInt <;> by_cases b : k.toInt < 256 <;> simp [a, b]

/-- The signed maximum with 0 then minimum with 255 of any word, read signed, is the integer clamp. -/
theorem clamp_toInt (k : BitVec 32) :
    (IntOp.minsi 255#32 (IntOp.maxsi 0#32 k)).toInt = max 0 (min 255 k.toInt) := by
  have h0 : (0#32 : BitVec 32).toInt = 0 := by decide
  have h255 : (255#32 : BitVec 32).toInt = 255 := by decide
  have hmax : (IntOp.maxsi 0#32 k).toInt = max 0 k.toInt := by
    unfold IntOp.maxsi
    by_cases a : k.toInt < 0
    · rw [if_pos (by simp only [BitVec.slt, h0, decide_eq_true_eq]; exact a), h0]; omega
    · rw [if_neg (by simp only [BitVec.slt, h0, decide_eq_true_eq]; exact a)]; omega
  unfold IntOp.minsi
  by_cases b : (255 : Int) < (IntOp.maxsi 0#32 k).toInt
  · rw [if_pos (by simp only [BitVec.slt, h255, decide_eq_true_eq]; exact b), h255]; rw [hmax] at b; omega
  · rw [if_neg (by simp only [BitVec.slt, h255, decide_eq_true_eq]; exact b), hmax]; rw [hmax] at b; omega

/-- The clamped word is the slice number d exactly when the clipped slice is d. -/
theorem clamp_eq_iff (k : BitVec 32) (d : Fin 256) :
    IntOp.minsi 255#32 (IntOp.maxsi 0#32 k) = BitVec.ofNat 32 d.val ↔ Cert.Spec.clipOf k = d := by
  have hd : (BitVec.ofNat 32 d.val).toInt = d.val := StableHlo.Predicate.toInt_ofNat_small d.val (by have := d.isLt; omega)
  have hc := clamp_toInt k
  constructor
  · intro h
    apply Fin.ext
    show (max 0 (min 255 k.toInt)).toNat = d.val
    rw [← hc, h, hd]; simp
  · intro h
    apply BitVec.eq_of_toInt_eq
    rw [hc, hd, ← h]
    show max 0 (min 255 k.toInt) = (((max 0 (min 255 k.toInt)).toNat : Nat) : Int)
    omega

/-- A set bit converts to one, a clear bit to zero. -/
theorem uitofp_one : FloatOps.uitofp (F := Ideal) .f32 (1#1 : BitVec 1) = (1 : EReal) := by
  show (((1#1 : BitVec 1).toNat : ℝ) : EReal) = 1
  simp
theorem uitofp_zero : FloatOps.uitofp (F := Ideal) .f32 (0#1 : BitVec 1) = (0 : EReal) := by
  show (((0#1 : BitVec 1).toNat : ℝ) : EReal) = 0
  simp

/-- The select of the validity bit between the one-hot entry and the uniform literal is the selection weight. -/
theorem select_eq_wgt (k : BitVec 32) (d : Fin 256) :
    Scalar.select (IntOp.andi (IntOp.cmpi .sge k 0#32) (IntOp.cmpi .slt k 256#32))
        (FloatOps.uitofp (F := Ideal) .f32 (IntOp.cmpi .eq (IntOp.minsi 255#32 (IntOp.maxsi 0#32 k)) (BitVec.ofNat 32 d.val)))
        (Ideal.ofBits .f32 0x3B800000#32)
      = Cert.Spec.wgt k d := by
  unfold Cert.Spec.wgt
  by_cases hv : Cert.Spec.validOf k
  · rw [(valid_bit k).mpr hv, select_one, if_pos hv]
    by_cases he : Cert.Spec.clipOf k = d
    · rw [if_pos he, StableHlo.Predicate.cmpi_eq_iff.mpr ((clamp_eq_iff k d).mpr he), uitofp_one]
    · rw [if_neg he, eq_zero_of_ne_one (fun h => he ((clamp_eq_iff k d).mp (StableHlo.Predicate.cmpi_eq_iff.mp h))), uitofp_zero]
  · rw [eq_zero_of_ne_one (fun h => hv ((valid_bit k).mp h)), select_zero, if_neg hv]

/-! ## The arrays between the stretches, over the launch contents -/

section Levels
variable (m : (ℓ : Loc nD τ sig) → Buf (Elt Ideal) ℓ) (c : Dev nD)

/-- The index words, as launched. -/
abbrev words : S64x8.Idx → BitVec 32 := m ((c.tc : Thread nD τ).loc main_arg1)

/-- The first stretch leaves the index words as launched. -/
theorem V1_arg1 : (V1 (F := Ideal) m c main_arg1 : S64x8.Idx → BitVec 32) = words m c :=
  (V1_of m c main_arg1 (by decide)).trans rfl

/-- The bounds of the clip after the first stretch. -/
theorem V1_c1 : (V1 (F := Ideal) m c main_c_1 : S_.Idx → BitVec 32) = constantI S_ 32 0#32 := stretch0_c1 (V0 m c)

theorem V1_c2 : (V1 (F := Ideal) m c main_c_2 : S_.Idx → BitVec 32) = constantI S_ 32 255#32 := stretch0_c2 (V0 m c)

/-- The validity bits at a position: both signed compares of the word, and-ed. -/
theorem V1_v4_apply (r : Fin 64) (s : Fin 8) :
    (V1 (F := Ideal) m c main_v4 : S64x8.Idx → BitVec 1) (ix2 r s)
      = IntOp.andi (IntOp.cmpi .sge (words m c (ix2 r s)) 0#32) (IntOp.cmpi .slt (words m c (ix2 r s)) 256#32) := by
  have e := stretch0_v4 (V0 m c)
  have e' : (V1 (F := Ideal) m c main_v4 : S64x8.Idx → BitVec 1) (ix2 r s) = _ := congrFun e (ix2 r s)
  refine e'.trans ?_
  show IntOp.andi (IntOp.cmpi .sge _ (broadcastInDim S64x8 ![] bcast_S_S64x8 (constantI S_ 32 0#32) (ix2 r s)))
      (IntOp.cmpi .slt _ (broadcastInDim S64x8 ![] bcast_S_S64x8 (constantI S_ 32 256#32) (ix2 r s))) = _
  rw [bcast_scalar2, bcast_scalar2]
  rfl

/-- The clipped words at a position: the signed minimum with 255 of the signed maximum with 0. -/
theorem V2_v5_apply (r : Fin 64) (s : Fin 8) :
    (V2 (F := Ideal) m c main_v5 : S64x8.Idx → BitVec 32) (ix2 r s)
      = IntOp.minsi 255#32 (IntOp.maxsi 0#32 (words m c (ix2 r s))) := by
  have e : (V2 (F := Ideal) m c main_v5 : S64x8.Idx → BitVec 32) (ix2 r s) = _ := congrFun (stretch1_v5 (V1 m c)) (ix2 r s)
  refine e.trans ?_
  show IntOp.minsi (broadcastInDim S64x8 ![] bcast_S_S64x8 (V1 (F := Ideal) m c main_c_2 : S_.Idx → BitVec 32) (ix2 r s))
      (IntOp.maxsi (broadcastInDim S64x8 ![] bcast_S_S64x8 (V1 (F := Ideal) m c main_c_1 : S_.Idx → BitVec 32) (ix2 r s))
        ((V1 (F := Ideal) m c main_arg1 : S64x8.Idx → BitVec 32) (ix2 r s))) = _
  rw [bcast_scalar2, bcast_scalar2, V1_c1, V1_c2, V1_arg1]
  rfl

/-- The clip stretch leaves the validity bits. -/
theorem V2_v4 : (V2 (F := Ideal) m c main_v4 : S64x8.Idx → BitVec 1) = V1 (F := Ideal) m c main_v4 :=
  V2_of m c main_v4 (by decide)

/-- The validity bits with the unit slice axis. -/
theorem V3_v14_apply (r : Fin 64) (s : Fin 8) (z : Fin 1) :
    (V3 (F := Ideal) m c main_v14 : S64x8x1.Idx → BitVec 1) (ix3 r s z)
      = IntOp.andi (IntOp.cmpi .sge (words m c (ix2 r s)) 0#32) (IntOp.cmpi .slt (words m c (ix2 r s)) 256#32) := by
  have e : (V3 (F := Ideal) m c main_v14 : S64x8x1.Idx → BitVec 1) (ix3 r s z) = _ := congrFun (stretch2_v14 (V2 m c)) (ix3 r s z)
  refine e.trans ?_
  rw [bcast_unit, V2_v4, V1_v4_apply]

/-- The uniform array reads the literal everywhere. -/
theorem V3_v13_apply (r : Fin 64) (s : Fin 8) (d : Fin 256) :
    (V3 (F := Ideal) m c main_v13 : S64x8x256.Idx → EReal) (ix3 r s d) = Ideal.ofBits .f32 0x3B800000#32 := by
  have e : (V3 (F := Ideal) m c main_v13 : S64x8x256.Idx → EReal) (ix3 r s d) = _ := congrFun (stretch2_v13 (V2 m c)) (ix3 r s d)
  refine e.trans ?_
  rw [bcast_scalar3]
  rfl

/-- The one-hot array at (position, slice): the bit "clipped word = slice number", as a number. -/
theorem V3_v12_apply (r : Fin 64) (s : Fin 8) (d : Fin 256) :
    (V3 (F := Ideal) m c main_v12 : S64x8x256.Idx → EReal) (ix3 r s d)
      = FloatOps.uitofp (F := Ideal) .f32
          (IntOp.cmpi .eq (IntOp.minsi 255#32 (IntOp.maxsi 0#32 (words m c (ix2 r s)))) (BitVec.ofNat 32 d.val)) := by
  have e : (V3 (F := Ideal) m c main_v12 : S64x8x256.Idx → EReal) (ix3 r s d) = _ := congrFun (stretch2_v12 (V2 m c)) (ix3 r s d)
  refine e.trans ?_
  show FloatOps.uitofp (F := Ideal) .f32 (IntOp.cmpi .eq
      (broadcastInDim S64x8x256 ![0, 1, 2] bcast_S64x8x1_S64x8x256_0_1_2
        (broadcastInDim S64x8x1 ![0, 1] bcast_S64x8_S64x8x1_0_1 (V2 (F := Ideal) m c main_v5 : S64x8.Idx → BitVec 32)) (ix3 r s d))
      (broadcastInDim S64x8x256 ![0, 1, 2] bcast_S1x1x256_S64x8x256_0_1_2
        (broadcastInDim S1x1x256 ![2] bcast_S256_S1x1x256_2 (iotaInDim S256 32 0)) (ix3 r s d))) = _
  rw [bcast_slices, bcast_unit, bcast_positions, bcast_row, V2_v5_apply]
  rfl

/-- The weight array at (position, slice): the select of the three. -/
theorem V4_v15_apply (r : Fin 64) (s : Fin 8) (d : Fin 256) :
    (V4 (F := Ideal) m c main_v15 : S64x8x256.Idx → EReal) (ix3 r s d)
      = Scalar.select (IntOp.andi (IntOp.cmpi .sge (words m c (ix2 r s)) 0#32) (IntOp.cmpi .slt (words m c (ix2 r s)) 256#32))
          (FloatOps.uitofp (F := Ideal) .f32
            (IntOp.cmpi .eq (IntOp.minsi 255#32 (IntOp.maxsi 0#32 (words m c (ix2 r s)))) (BitVec.ofNat 32 d.val)))
          (Ideal.ofBits .f32 0x3B800000#32) := by
  have e : (V4 (F := Ideal) m c main_v15 : S64x8x256.Idx → EReal) (ix3 r s d) = _ := congrFun (stretch3_v15 (V3 m c)) (ix3 r s d)
  refine e.trans ?_
  rw [select_apply, bcast_slices, V3_v14_apply, V3_v12_apply, V3_v13_apply]

end Levels

end Weights

/-- The weight array when region 0 is entered, at position (r, s), slice d: the selection weight of the index word. -/
theorem weight_apply (m : (ℓ : Loc nD τ sig) → Buf (Elt Ideal) ℓ) (c : Dev nD) (r : Fin 64) (s : Fin 8) (d : Fin 256) :
    (V4 (F := Ideal) m c main_v15 : S64x8x256.Idx → EReal) (ix3 r s d)
      = Cert.Spec.wgt ((m ((c.tc : Thread nD τ).loc main_arg1) : S64x8.Idx → BitVec 32) (ix2 r s)) d :=
  (Weights.V4_v15_apply m c r s d).trans (Weights.select_eq_wgt _ d)

/-- The feature array is untouched by the host operations before region 0. -/
theorem feat_entry (m : (ℓ : Loc nD τ sig) → Buf (Elt Ideal) ℓ) (c : Dev nD) :
    V4 (F := Ideal) m c main_arg0 = m ((c.tc : Thread nD τ).loc main_arg0) :=
  (V4_of m c main_arg0 (by decide)).trans <| (V3_of m c main_arg0 (by decide)).trans <|
    (V2_of m c main_arg0 (by decide)).trans <| (V1_of m c main_arg0 (by decide)).trans rfl

end Cert.KernelIdeal.Hand

end
-- ==== Proof.RefLocal.lean ====
/-
  The reference's activations stage (the mean over positions of the selected-or-averaged slices), at the ideal
  instance, read at an index: the spec's reference form. The gather's index is the clipped word, which is always in
  range, so the out-of-range fill is never selected.

  In order: the index word clamped to [0, 255] and its signed comparisons; the validity bit 0 ≤ k < 256 as a
  proposition; a reduction by `and` of an array of ones; the gather along the slice axis read at (r, s, 0, f); then the
  stages one by one — the start index word, the in-range test, the gathered slice, the mean over the 256 slices, the
  select on validity — and last the sum over the 8 positions divided by 8.
-/
import proofs.«413354_j28028956574145_3_alg».proof.Proof.RefRead
import proofs.«413354_j28028956574145_3_alg».proof.Proof.Spec
import Idealize.ShloMosaic.Lib.Pipeline.Value
import Idealize.ShloMosaic.Lib.ValueIdx
import Idealize.ShloMosaic.Lib.ValueLayout
import Idealize.ShloMosaic.PureOps.Ideal.Laws
import Idealize.ShloMosaic.Lib.StableHlo.Predicate
import Idealize.ShloMosaic.Lib.WordArith

set_option maxRecDepth 16384

noncomputable section

namespace Cert.ReferenceIdeal.Hand

open Idealize.ShloMosaic Idealize.ShloMosaic.TcCoe Idealize.SL.Sem
open Cert.ReferenceIdeal Cert.ReferenceIdeal.Gen
open Idealize.ShloMosaic.ValueIdx
open Cert.Spec

/-! ## The index word, clamped -/

/-- The index word clamped to [0, 255]: the signed maximum with 0, then the signed minimum with 255. -/
def clipW (k : BitVec 32) : BitVec 32 := IntOp.minsi 255#32 (IntOp.maxsi 0#32 k)

/-- Read signed, the clamped word is the word's signed value clamped to [0, 255]. -/
theorem clipW_toInt (k : BitVec 32) : (clipW k).toInt = max 0 (min 255 k.toInt) := by
  have hm := WordArith.toInt_maxsi_zero k
  have h255 : (255#32 : BitVec 32).toInt = 255 := by decide
  unfold clipW IntOp.minsi
  by_cases h : (255#32 : BitVec 32).slt (IntOp.maxsi 0#32 k) = true
  · rw [if_pos h]
    rw [BitVec.slt_iff_toInt_lt, h255, hm] at h
    rw [h255]; omega
  · rw [if_neg h]
    rw [BitVec.slt_iff_toInt_lt, h255, hm] at h
    rw [hm]; omega

theorem clipW_nonneg (k : BitVec 32) : 0 ≤ (clipW k).toInt := by rw [clipW_toInt]; omega
theorem clipW_le (k : BitVec 32) : (clipW k).toInt ≤ 255 := by rw [clipW_toInt]; omega

/-- The clamped word is never negative … -/
theorem clipW_slt_zero (k : BitVec 32) : IntOp.cmpi .slt (clipW k) 0#32 = 0#1 := by
  have h0 : (0#32 : BitVec 32).toInt = 0 := by decide
  have hn := clipW_nonneg k
  refine eq_zero_of_ne_one fun h => ?_
  simp only [IntOp.cmpi, WordArith.ofBool_eq_one_iff, BitVec.slt_iff_toInt_lt, h0] at h
  omega

/-- … it is at least 0 … -/
theorem clipW_sge_zero (k : BitVec 32) : IntOp.cmpi .sge (clipW k) 0#32 = 1#1 := by
  have h0 : (0#32 : BitVec 32).toInt = 0 := by decide
  have hn := clipW_nonneg k
  simp only [IntOp.cmpi, WordArith.ofBool_eq_one_iff, BitVec.sle_iff_toInt_le, h0]
  exact hn

/-- … and at most 255. -/
theorem clipW_sle_255 (k : BitVec 32) : IntOp.cmpi .sle (clipW k) 255#32 = 1#1 := by
  have h255 : (255#32 : BitVec 32).toInt = 255 := by decide
  have hn := clipW_le k
  simp only [IntOp.cmpi, WordArith.ofBool_eq_one_iff, BitVec.sle_iff_toInt_le, h255]
  exact hn

/-- As a slice index, the clamped word is the specification's clipped slice. -/
theorem clipW_toNat (k : BitVec 32) : min (clipW k).toInt.toNat 255 = (clipOf k).val := by
  have hn := clipW_nonneg k
  have hl := clipW_le k
  have e := clipW_toInt k
  show min (clipW k).toInt.toNat 255 = (max 0 (min 255 k.toInt)).toNat
  rw [← e]; omega

/-- The validity mask's bit is 1 exactly on the valid words. -/
theorem valid_bit (k : BitVec 32) :
    IntOp.andi (IntOp.cmpi .sge k 0#32) (IntOp.cmpi .slt k 256#32) = 1#1 ↔ validOf k := by
  have h0 : (0#32 : BitVec 32).toInt = 0 := by decide
  have h256 : (256#32 : BitVec 32).toInt = 256 := by decide
  simp only [IntOp.cmpi, WordArith.andi_ofBool, WordArith.ofBool_eq_one_iff, Bool.and_eq_true,
    BitVec.sle_iff_toInt_le, BitVec.slt_iff_toInt_lt, h0, h256]
  exact Iff.rfl

/-- A select on the validity mask's bit is the `if` on validity. -/
theorem select_valid {α : Type} (k : BitVec 32) (a b : α) :
    Scalar.select (IntOp.andi (IntOp.cmpi .sge k 0#32) (IntOp.cmpi .slt k 256#32)) a b
      = if validOf k then a else b := by
  by_cases hv : validOf k
  · rw [(valid_bit k).mpr hv, select_one, if_pos hv]
  · rw [eq_zero_of_ne_one (fun h => hv ((valid_bit k).mp h)), select_zero, if_neg hv]

/-! ## A reduction by `and` of an array of ones -/

theorem andi_one (b : BitVec 1) : IntOp.andi b 1#1 = b := by
  rcases BitVec.eq_zero_or_eq_one b with rfl | rfl <;> decide

/-- A left fold by `and` over ones returns what it started from. -/
theorem foldl_andi_ones {ι : Type} (g : ι → BitVec 1) (hg : ∀ n, g n = 1#1) :
    ∀ (l : List ι) (init : BitVec 1), l.foldl (fun b n => IntOp.andi b (g n)) init = init
  | [], _ => rfl
  | a :: l, init => by
    rw [List.foldl_cons, hg a, andi_one]
    exact foldl_andi_ones g hg l init

/-- A reduction by `and` of an array that is 1 everywhere is its initial value. -/
theorem reduce_andi_ones {s t u : Shape} {axes : List (Fin s.rank)} (x : s.Idx → BitVec 1) (hx : ∀ i, x i = 1#1)
    (init : u.Idx → BitVec 1) (h : s.ReducesTo axes t) (hu : 0 < u.numel) (j : t.Idx) :
    Host.reduce IntOp.andi x init h hu j = init (Shape.Idx.first hu) := by
  unfold Host.reduce
  exact foldl_andi_ones (fun n => x (s.rowMajor.symm n)) (fun n => hx _) _ _

/-! ## The gather read at an index -/

/-- Result element (r, s, 0, f) of the gather along the slice axis is the operand at (r, s, c, f), where c is the
    start index word of (r, s), read signed and clamped into [0, 255]: axes 0 and 1 are batching axes, axis 2 is
    collapsed and indexed, axis 3 is the offset axis. -/
theorem gather_read {α : Type} (x : S64x8x256x256.Idx → α) (idx : IVec S64x8x1x1 32) (r : Fin 64) (s : Fin 8)
    (f : Fin 256) (c : Fin 256) (hc : min (idx (ix4 r s (0 : Fin 1) (0 : Fin 1))).toInt.toNat 255 = c.val) :
    Host.gather gather_S64x8x256x256_S64x8x1x1_S64x8x1x256_3_2_01_01_2_3_111256 x idx (ix4 r s (0 : Fin 1) f) = x (ix4 r s c f) := by
  unfold Host.gather
  refine congrArg x (funext fun a => Fin.ext ?_)
  match a with
  | ⟨0, _⟩ =>
    show (gather_S64x8x256x256_S64x8x1x1_S64x8x1x256_3_2_01_01_2_3_111256).start (ix4 r s (0 : Fin 1) f) idx 0
        + (gather_S64x8x256x256_S64x8x1x1_S64x8x1x256_3_2_01_01_2_3_111256).batchCoord (ix4 r s (0 : Fin 1) f) 0
        + (gather_S64x8x256x256_S64x8x1x1_S64x8x1x256_3_2_01_01_2_3_111256).offCoord (ix4 r s (0 : Fin 1) f) 0 = r.val
    rw [GatherDims.start_batching _ _ _ _ (by decide), GatherDims.offCoord_eq_zero _ _ _ (by decide),
      Nat.zero_add, Nat.add_zero]
    rfl
  | ⟨1, _⟩ =>
    show (gather_S64x8x256x256_S64x8x1x1_S64x8x1x256_3_2_01_01_2_3_111256).start (ix4 r s (0 : Fin 1) f) idx 1
        + (gather_S64x8x256x256_S64x8x1x1_S64x8x1x256_3_2_01_01_2_3_111256).batchCoord (ix4 r s (0 : Fin 1) f) 1
        + (gather_S64x8x256x256_S64x8x1x1_S64x8x1x256_3_2_01_01_2_3_111256).offCoord (ix4 r s (0 : Fin 1) f) 1 = s.val
    rw [GatherDims.start_batching _ _ _ _ (by decide), GatherDims.offCoord_eq_zero _ _ _ (by decide),
      Nat.zero_add, Nat.add_zero]
    rfl
  | ⟨2, _⟩ =>
    show (gather_S64x8x256x256_S64x8x1x1_S64x8x1x256_3_2_01_01_2_3_111256).start (ix4 r s (0 : Fin 1) f) idx 2
        + (gather_S64x8x256x256_S64x8x1x1_S64x8x1x256_3_2_01_01_2_3_111256).batchCoord (ix4 r s (0 : Fin 1) f) 2
        + (gather_S64x8x256x256_S64x8x1x1_S64x8x1x256_3_2_01_01_2_3_111256).offCoord (ix4 r s (0 : Fin 1) f) 2 = c.val
    rw [GatherDims.batchCoord_eq_zero _ _ _ (by decide), GatherDims.offCoord_eq_zero _ _ _ (by decide),
      Nat.add_zero, ← hc]
    unfold GatherDims.start
    rw [dif_pos (by decide)]
    have hsi : (gather_S64x8x256x256_S64x8x1x1_S64x8x1x256_3_2_01_01_2_3_111256).siIdx (ix4 r s (0 : Fin 1) f)
        ⟨List.idxOf (2 : Fin 4) (gather_S64x8x256x256_S64x8x1x1_S64x8x1x256_3_2_01_01_2_3_111256).startIndexMap, List.idxOf_lt_length_iff.2 (by decide)⟩
        = ix4 r s (0 : Fin 1) (0 : Fin 1) := by
      funext b; refine Fin.ext ?_
      match b with
      | ⟨0, _⟩ => rfl
      | ⟨1, _⟩ => rfl
      | ⟨2, _⟩ => rfl
      | ⟨3, _⟩ => rfl
    rw [hsi]
    rfl
  | ⟨3, _⟩ =>
    show (gather_S64x8x256x256_S64x8x1x1_S64x8x1x256_3_2_01_01_2_3_111256).start (ix4 r s (0 : Fin 1) f) idx 3
        + (gather_S64x8x256x256_S64x8x1x1_S64x8x1x256_3_2_01_01_2_3_111256).batchCoord (ix4 r s (0 : Fin 1) f) 3
        + (gather_S64x8x256x256_S64x8x1x1_S64x8x1x256_3_2_01_01_2_3_111256).offCoord (ix4 r s (0 : Fin 1) f) 3 = f.val
    rw [GatherDims.batchCoord_eq_zero _ _ _ (by decide), Nat.add_zero]
    unfold GatherDims.start
    rw [dif_neg (by decide), Nat.zero_add]
    rfl

/-! ## The reference's stages at an index -/

section Stages
variable (feat : (⟨S64x8x256x256, .f32⟩ : BufTy).Contents (Elt Ideal)) (ks : (⟨S64x8, .i32⟩ : BufTy).Contents (Elt Ideal))

/-- The gather's start index word: the clamped index word. It is never negative, so the branch that adds 256 to a
    negative index is never taken. -/
theorem start_word (i : S64x8x1x1.Idx) :
    ReadP.val_main_call1_v4 (F := Ideal) ks i = clipW (ks (ReadP.idx_main_v6 i)) := by
  have e6 : ReadP.val_main_v6 (F := Ideal) ks i = clipW (ks (ReadP.idx_main_v6 i)) := by
    rw [ReadP.val_main_v6_apply, ReadP.val_main_v5_apply, ReadP.val_main_call0_v4_apply,
      ReadP.val_main_call0_v3_apply, ReadP.val_main_c_2_apply, ReadP.val_main_call0_v2_apply,
      ReadP.val_main_call0_v1_apply, ReadP.val_main_call0_v0_apply, ReadP.val_main_c_1_apply]
    rfl
  rw [ReadP.val_main_call1_v4_apply, ReadP.val_main_call1_v1_apply, ReadP.val_main_call1_v0_apply,
    ReadP.val_main_call1_c_apply, e6, clipW_slt_zero, select_zero]

/-- The gather's in-range test, 0 ≤ start ≤ 255, holds at every position. -/
theorem in_range (i : S64x8x1x1.Idx) : ReadP.val_main_call1_v10 (F := Ideal) ks i = 1#1 := by
  rw [ReadP.val_main_call1_v10_apply, ReadP.val_main_call1_v6_apply, ReadP.val_main_call1_v9_apply, start_word,
    ReadP.val_main_call1_v5_apply, ReadP.val_main_call1_c_2_apply, ReadP.val_main_call1_v8_apply,
    ReadP.val_main_call1_v7_apply, ReadP.val_main_call1_c_1_apply, clipW_sge_zero, clipW_sle_255]
  rfl

/-- So its reduction by `and` over the index vector's axis (of extent one) is 1 everywhere. -/
theorem in_range_all (j : S64x8x1.Idx) : ReadP.val_main_call1_v11 (F := Ideal) ks j = 1#1 := by
  unfold ReadP.val_main_call1_v11
  rw [reduce_andi_ones _ (in_range ks)]
  rfl

/-- The gathered slice at (r, s, 0, f): the feature at the clipped slice. The fill for an out-of-range start index is
    never selected. -/
theorem gathered (r : Fin 64) (s : Fin 8) (f : Fin 256) :
    ReadP.val_main_v7 (F := Ideal) feat ks (ix4 r s (0 : Fin 1) f) = feat (ix4 r s (clipOf (ks (ix2 r s))) f) := by
  have e6 : ReadP.idx_main_v6 (ix4 r s (0 : Fin 1) (0 : Fin 1)) = ix2 r s :=
    funext fun a => Fin.ext (by match a with | ⟨0, _⟩ => rfl | ⟨1, _⟩ => rfl)
  rw [ReadP.val_main_v7_apply, ReadP.val_main_call1_v13_apply, in_range_all, select_one]
  unfold ReadP.val_main_call1_v12
  refine gather_read feat _ r s f (clipOf (ks (ix2 r s))) ?_
  rw [start_word, e6]
  exact clipW_toNat _

/-- The mean over the 256 slices at (r, s, f). -/
theorem slice_mean (r : Fin 64) (s : Fin 8) (f : Fin 256) :
    ReadP.val_main_v11 (F := Ideal) feat (ix3 r s f) = Ideal.div (c0 + ∑ d : Fin 256, feat (ix4 r s d f)) c256 := by
  have e9 : ∀ d : Fin 256, ReadP.idx_main_v9 (ix3 r s f) d = ix4 r s d f := fun d =>
    funext fun a => Fin.ext (by match a with | ⟨0, _⟩ => rfl | ⟨1, _⟩ => rfl | ⟨2, _⟩ => rfl | ⟨3, _⟩ => rfl)
  rw [ReadP.val_main_v11_apply, ReadP.val_main_v9_apply, ReadP.val_main_v10_apply, ReadP.val_main_cst_3_apply,
    ReadP.val_main_cst_apply]
  simp only [e9, Ideal.hostDivf_def, Ideal.ofBits_def]

/-- The selected-or-averaged slice at (r, s, f). -/
theorem chosen (r : Fin 64) (s : Fin 8) (f : Fin 256) :
    ReadP.val_main_v13 (F := Ideal) feat ks (ix3 r s f)
      = if validOf (ks (ix2 r s)) then feat (ix4 r s (clipOf (ks (ix2 r s))) f)
        else Ideal.div (c0 + ∑ d : Fin 256, feat (ix4 r s d f)) c256 := by
  have hr : r.val < 64 := r.isLt
  have hs : s.val < 8 := s.isLt
  have hf : f.val < 256 := f.isLt
  have e12 : ReadP.idx_main_v12 (ReadP.idx_main_call2_v0 (ix3 r s f)) = ix2 r s :=
    funext fun a => Fin.ext (by match a with | ⟨0, _⟩ => rfl | ⟨1, _⟩ => rfl)
  have e8 : ReadP.idx_main_v8 (ix3 r s f) = ix4 r s (0 : Fin 1) f :=
    funext fun a => Fin.ext (by
      match a with
      | ⟨0, _⟩ => show ((r.val * 8 + s.val) * 256 + f.val) / 2048 = r.val; omega
      | ⟨1, _⟩ => show ((r.val * 8 + s.val) * 256 + f.val) / 256 % 8 = s.val; omega
      | ⟨2, _⟩ => rfl
      | ⟨3, _⟩ => show ((r.val * 8 + s.val) * 256 + f.val) % 256 = f.val; omega)
  rw [ReadP.val_main_v13_apply, ReadP.val_main_call2_v0_apply, ReadP.val_main_v12_apply, e12,
    ReadP.val_main_v4_apply, ReadP.val_main_v1_apply, ReadP.val_main_v3_apply, ReadP.val_main_v0_apply,
    ReadP.val_main_v2_apply, ReadP.val_main_c_apply, ReadP.val_main_c_0_apply, select_valid,
    ReadP.val_main_v8_apply, e8, gathered, slice_mean]

end Stages

/-- The reference's activations at row `r`, feature `f`. -/
theorem ref_local_apply (feat : (⟨S64x8x256x256, .f32⟩ : BufTy).Contents (Elt Ideal))
    (ks : (⟨S64x8, .i32⟩ : BufTy).Contents (Elt Ideal)) (r : Fin 64) (f : Fin 256) :
    Cert.ReferenceIdeal.ReadP.val_main_v16 (F := Ideal) feat ks (ix2 r f)
      = Cert.Spec.refLocal (fun r s d f => feat (ix4 r s d f)) (fun r s => ks (ix2 r s)) r f := by
  have e14 : ∀ k : Fin 8, ReadP.idx_main_v14 (ix2 r f) k = ix3 r k f := fun k =>
    funext fun a => Fin.ext (by match a with | ⟨0, _⟩ => rfl | ⟨1, _⟩ => rfl | ⟨2, _⟩ => rfl)
  rw [ReadP.val_main_v16_apply, ReadP.val_main_v14_apply, ReadP.val_main_v15_apply, ReadP.val_main_cst_5_apply,
    ReadP.val_main_cst_4_apply]
  simp only [e14, chosen, Ideal.hostDivf_def, Ideal.ofBits_def]
  rfl

end Cert.ReferenceIdeal.Hand

end
-- ==== Proof.Finite.lean ====
/-
  From the precondition (every float input finite) to "every feature entry is a real number".
-/
import proofs.«413354_j28028956574145_3_alg».proof.Proof.Gen.KernelIdeal
import proofs.«413354_j28028956574145_3_alg».proof.Proof.Gen.Pre_finite_inputs
import proofs.«413354_j28028956574145_3_alg».proof.Defs
import Idealize.ShloMosaic.Lib.ValueIdx
import Idealize.ShloMosaic.Lib.ReduceAll
import Idealize.ShloMosaic.PureOps.Ideal.Laws

set_option maxRecDepth 16384

noncomputable section

namespace Cert.KernelIdeal.Hand

open Idealize.ShloMosaic Idealize.ShloMosaic.TcCoe Idealize.SL.Sem
open Cert.KernelIdeal
open Idealize.ShloMosaic.ValueIdx

/-- The f32 pattern 0x7F800000 denotes +∞. -/
private theorem ofBits_posInf : Ideal.ofBits .f32 0x7F800000#32 = (⊤ : EReal) := by
  simp [Ideal.ofBits, Ideal.ieee]

/-- An extended real whose absolute value max x (−x) is strictly below +∞ is a real number:
    at +∞ the maximum is +∞, at −∞ it is −(−∞) = +∞, and neither is below +∞. -/
private theorem real_of_abs_lt_posInf (x : EReal)
    (h : Ideal.cmp .olt (max x (-x)) (Ideal.ofBits .f32 0x7F800000#32) = 1#1) : ∃ r : ℝ, x = (r : EReal) := by
  rw [ofBits_posInf] at h
  induction x using EReal.rec with
  | bot => simp [Ideal.cmp] at h
  | coe r => exact ⟨r, rfl⟩
  | top => simp [Ideal.cmp] at h

/-- Under the precondition every entry of the feature array is a real number. -/
theorem feat_finite (m : (ℓ : Loc nD τ sig) → Buf (Elt Ideal) ℓ) (hpre : Cert.Pre_KernelIdeal m) (c : Dev nD)
    (i : S64x8x256x256.Idx) :
    ∃ x : ℝ, (m ((c.tc : Thread nD τ).loc main_arg0) : S64x8x256x256.Idx → EReal) i = (x : EReal) := by
  -- the precondition at this device, read at the single index of its rank-0 result
  have h := congrFun (hpre c) ValueIdx.ix0
  dsimp only [Cert.Pre_finite_inputs.fn] at h
  -- the result is (all features finite ∧ all of the second input finite) ∧ all of the third finite; keep the first
  obtain ⟨h12, _⟩ := IntOp.andi_eq_one.1 h
  obtain ⟨h0, _⟩ := IntOp.andi_eq_one.1 h12
  -- a rank-0 shape has exactly one index
  haveI : Subsingleton Cert.Pre_finite_inputs.S_.Idx := ⟨fun a b => funext fun d => d.elim0⟩
  -- a reduction by "and" over all four axes that is 1 had a 1 at index i: |feature i| < +∞
  have hi := Host.reduce_andi_all _ _ _ _ _ h0 i
  exact real_of_abs_lt_posInf _ hi

end Cert.KernelIdeal.Hand

end
-- ==== Proof.Bridge.lean ====
/-
  The bridge: at the ideal instance, under the precondition, what region 1 leaves in the result buffer is the reference's
  result stage of the same four argument arrays.

  Region 1's array is the layer applied to region 0's array, the weight matrix and the biases, which no item before it
  changes; the layer is the reference's last stages. Region 0's array, index by index, is the kernel's weighted double sum
  over the feature array and the weight array the host operations built from the index words; that weight array is the
  selection weight of each word; on finite features the weighted sum is the reference's mean of selected-or-averaged
  slices, which is the reference's activations stage at that index.
-/
import proofs.«413354_j28028956574145_3_alg».proof.Proof.Run
import proofs.«413354_j28028956574145_3_alg».proof.Proof.ArrLocal
import proofs.«413354_j28028956574145_3_alg».proof.Proof.ArrOut
import proofs.«413354_j28028956574145_3_alg».proof.Proof.Weights
import proofs.«413354_j28028956574145_3_alg».proof.Proof.RefLocal
import proofs.«413354_j28028956574145_3_alg».proof.Proof.Finite
import proofs.«413354_j28028956574145_3_alg».proof.Proof.Spec

set_option maxRecDepth 16384

noncomputable section

namespace Cert.KernelIdeal.Hand

open Idealize.ShloMosaic Idealize.ShloMosaic.TcCoe Idealize.SL.Sem
open Idealize.ShloMosaic.Pipeline (Dat)
open Cert.KernelIdeal Cert.KernelIdeal.Gen
open Idealize.ShloMosaic.ValueIdx

variable (m : (ℓ : Loc nD τ sig) → Buf (Elt Ideal) ℓ)

/-- No item before region 1 writes the weight matrix or the biases; region 1 finds region 0's output at `local0`. -/
theorem E1_v16 (c : Dev nD) : E1 m c main_v16 = local0 m c := by
  show Function.update (V4 m c) main_v16 (local0 m c) main_v16 = _
  rw [Function.update_self]
theorem E1_arg2 (c : Dev nD) : E1 m c main_arg2 = m ((c.tc : Thread nD τ).loc main_arg2) :=
  ((E1_eq_X5 m c main_arg2).trans (X5_of_ne m c main_arg2 (by decide))).trans
    ((V4_of m c main_arg2 (by decide)).trans <| (V3_of m c main_arg2 (by decide)).trans <| (V2_of m c main_arg2 (by decide)).trans <| (V1_of m c main_arg2 (by decide)).trans rfl)
theorem E1_arg3 (c : Dev nD) : E1 m c main_arg3 = m ((c.tc : Thread nD τ).loc main_arg3) :=
  ((E1_eq_X5 m c main_arg3).trans (X5_of_ne m c main_arg3 (by decide))).trans
    ((V4_of m c main_arg3 (by decide)).trans <| (V3_of m c main_arg3 (by decide)).trans <| (V2_of m c main_arg3 (by decide)).trans <| (V1_of m c main_arg3 (by decide)).trans rfl)

/-- Region 0's array is the reference's activations stage, on finite features. -/
theorem local0_eq (hpre : Cert.Pre_KernelIdeal m) (c : Dev nD) :
    (local0 m c : S64x256.Idx → EReal)
      = Cert.ReferenceIdeal.ReadP.val_main_v16 (F := Ideal) (m ((c.tc : Thread nD τ).loc main_arg0)) (m ((c.tc : Thread nD τ).loc main_arg1)) := by
  funext i
  obtain ⟨r, f, rfl⟩ : ∃ (r : Fin 64) (f : Fin 256), i = ix2 r f := ⟨i 0, i 1, eq_ix2 i⟩
  have hw : (fun (r : Fin 64) (s : Fin 8) (d : Fin 256) => (E0 m c main_v15 : S64x8x256.Idx → EReal) (ix3 r s d))
      = fun r s d => Cert.Spec.wgt ((m ((c.tc : Thread nD τ).loc main_arg1) : S64x8.Idx → BitVec 32) (ix2 r s)) d :=
    funext fun r => funext fun s => funext fun d => weight_apply m c r s d
  have hf : (fun (r : Fin 64) (s : Fin 8) (d : Fin 256) (f : Fin 256) => (E0 m c main_arg0 : S64x8x256x256.Idx → EReal) (ix4 r s d f))
      = fun r s d f => (m ((c.tc : Thread nD τ).loc main_arg0) : S64x8x256x256.Idx → EReal) (ix4 r s d f) := by
    show (fun (r : Fin 64) (s : Fin 8) (d : Fin 256) (f : Fin 256) => (V4 m c main_arg0 : S64x8x256x256.Idx → EReal) (ix4 r s d f)) = _
    rw [feat_entry m c]
  refine (arr0_apply (E0 m) c r f).trans ?_
  rw [hw, hf]
  refine (Cert.Spec.local_eq _ _ (fun r s d f => feat_finite m hpre c (ix4 r s d f)) r f).trans ?_
  exact (Cert.ReferenceIdeal.Hand.ref_local_apply _ _ r f).symm

/-- What region 1 leaves in the result buffer is the reference's result stage of the arguments. -/
theorem out1_eq (hpre : Cert.Pre_KernelIdeal m) (c : Dev nD) :
    (out1 m c : S64x256.Idx → EReal)
      = Cert.ReferenceIdeal.ReadP.val_main_v22 (F := Ideal) (m ((c.tc : Thread nD τ).loc main_arg0)) (m ((c.tc : Thread nD τ).loc main_arg1))
          (m ((c.tc : Thread nD τ).loc main_arg2)) (m ((c.tc : Thread nD τ).loc main_arg3)) := by
  rw [val_result_eq, ← local0_eq m hpre c]
  unfold out1
  rw [arr1_eq (E1 m) c, E1_v16, E1_arg2, E1_arg3]
  exact layer_eq _ _ _

end Cert.KernelIdeal.Hand

end
-- ==== Proof.lean ====
/-
  The certificate: the kernel (a selection-weighted reduction over the slice and sequence axes, then a linear layer with
  ReLU) and its reference (gather the indexed slice or fall back to the mean over slices, average over the sequence, the
  same linear layer) compute the same 64×256 result over the extended reals, on finite inputs.

  The frames. Both printed kernels run their two regions to the end: region 0 walks an 8×2 grid keeping an accumulator
  in scratch across points (reset at the start of each row of the grid, its contents tracked point by point), region 1
  has one point; the host operations around them write no argument. The reference is host operations only.
  The idealization rewrote nothing, so there is nothing to preserve.
  The values. The kernel's result is the layer applied to region 0's array; index by index that array is a weighted double
  sum with weights one-hot at the clipped index word where the word is in range and 1/256 elsewhere, scaled by 1/8; on
  finite features this is the reference's mean over the sequence of the selected slice or of the slices' mean
  (a one-hot sum picks its entry; a sum scaled by 1/256 is the mean; scaling by 1/8 is dividing by 8); and the layer is the
  reference's transpose, contraction, bias and clamp, term by term.
-/
import proofs.«413354_j28028956574145_3_alg».proof.Defs
import proofs.«413354_j28028956574145_3_alg».proof.Proof.Gen.Kernel
import proofs.«413354_j28028956574145_3_alg».proof.Proof.Gen.KernelIdeal
import proofs.«413354_j28028956574145_3_alg».proof.Proof.Gen.ReferenceIdeal
import proofs.«413354_j28028956574145_3_alg».proof.Proof.Gen.Pre_finite_inputs
import proofs.«413354_j28028956574145_3_alg».proof.Proof.BitsRegs
import proofs.«413354_j28028956574145_3_alg».proof.Proof.Bridge
import Idealize.ShloMosaic.Adequacy
import Idealize.ShloMosaic.Init

noncomputable section

namespace Cert.Proof

open Idealize.ShloMosaic Idealize.ShloMosaic.TcCoe Idealize.SL.Sem

/-- The word-level kernel runs and leaves its arguments as launched. -/
theorem frame_kernel : Cert.frame_Kernel := fun m ρ _ => Cert.Kernel.Hand.frame_main (F := Bits) m ρ

/-- So does its idealization. -/
theorem frame_kernel_ideal : Cert.frame_KernelIdeal := fun m ρ _ => Cert.KernelIdeal.Hand.frame_main (F := Ideal) m ρ

/-- The reference is host operations only: its run with the result dropped. -/
theorem frame_reference : Cert.frame_ReferenceIdeal := fun m ρ _ =>
  (θ_run Cert.ReferenceIdeal.defs _ _).mono (fun _ h c => (h c).2) (Cert.ReferenceIdeal.ValueP.run (F := Ideal) m ρ)

/-- The idealization rewrote no operation. -/
theorem preserves : Cert.preserves_Kernel_KernelIdeal := trivial

/-- From memories agreeing on the arguments both idealized programs end with the same result: the kernel's run names
    its result, the reference's run names its own, and under the precondition the two names are one function of the
    arguments. -/
theorem algebraic : Cert.algebraic_KernelIdeal_ReferenceIdeal := by
  intro m ρ m' ρ' hpre hagree
  refine ⟨fun c => Cert.KernelIdeal.Hand.out1 m c, Cert.KernelIdeal.Hand.run_main (F := Ideal) m ρ, ?_⟩
  refine (θ_run Cert.ReferenceIdeal.defs _ _).mono (fun _ h c => ⟨(h c).1.trans ?_, (h c).2⟩)
    (Cert.ReferenceIdeal.ValueP.run (F := Ideal) m' ρ')
  rw [Cert.ReferenceIdeal.ReadP.val_main_v22_eq, (hagree c).1, (hagree c).2.1, (hagree c).2.2.1, (hagree c).2.2.2]
  exact (Cert.KernelIdeal.Hand.out1_eq m hpre c).symm

theorem claim : Cert.Claim :=
  ⟨Cert.Kernel.Gen.facts, Cert.KernelIdeal.Gen.facts, Cert.ReferenceIdeal.Gen.facts, Cert.Pre_finite_inputs.Gen.facts,
    frame_kernel, frame_kernel_ideal, frame_reference, preserves, algebraic⟩

end Cert.Proof

end
